-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S50257x2048 : Shape := ⟨2, ![50257, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S50257x2048 : S_.BroadcastsInDim S50257x2048 (![] : Fin 0 → Fin S50257x2048.rank)
  reducesTo_S50257x2048_S_d0_1 : S50257x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S256 .f32) (main_arg9 : FVec F S2x256 .f32) (main_arg10 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S2x256 .f32 := Host.absf main_arg9
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S2048 .f32) (main_arg6 : FVec F S2048 .f32) (main_arg7 : FVec F S256x2048 .f32) (main_arg8 : FVec F S256 .f32) (main_arg9 : FVec F S2x256 .f32) (main_arg10 : FVec F S2 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S256x2048 .f32 := Host.absf main_arg7
  let main_cst_10 : FVec F S_ .f32 := constant S_ .f32 0x7F800000#32
  let main_v30 : FVec F S256x2048 .f32 := broadcastInDim S256x2048 ![] bcast_S_S256x2048 main_cst_10
  let main_v31 : IVec S256x2048 1 := cmpf .olt main_v29 main_v30
  let main_c_11 : IVec S_ 1 := constantI S_ 1 1#1
  let main_v32 : IVec S_ 1 := (fun x v => Host.reduce IntOp.andi x v reducesTo_S256x2048_S_d0_1 h_S_) main_v31 main_c_11
  let main_v33 : IVec S_ 1 := andi main_v28 main_v32
  fn_part2 (F := F) main_arg8 main_arg9 main_arg10 main_v33

def fn {F : FTy → Type} [FloatOps F] (main_arg0 : IVec S64x512 32) (main_arg1 : FVec F S50257x2048 .f32) (main_arg2 : FVec F S2048x2048 .f32) (main_arg3 : FVec F S2048x2048 .f32) (main_arg4 : FVec F S2048x2048 .f32) (main_arg5 : FVec F S2048 .f32) (main_arg6 : FVec F S2048 .f32) (main_arg7 : FVec F S256x2048 .f32) (main_arg8 : FVec F S256 .f32) (main_arg9 : FVec F S2x256 .f32) (main_arg10 : FVec F S2 .f32) : IVec S_ 1 :=
  let main_v0 : FVec F S50257x2048 .f32 := Host.absf main_arg1
  let main_cst : FVec F S_ .f32 := constant S_ .f32 0x7F800000#32
  let main_v1 : FVec F S50257x2048 .f32 := broadcastInDim S50257x2048 ![] bcast_S_S50257x2048 main_cst
  let main_v2 : IVec S50257x2048 1 := cmpf .olt main_v0 main_v1
  let main_c : IVec S_ 1 := constantI S_ 1 1#1
  let main_v3 : IVec S_ 1 := (fun x v => Host.reduce IntOp.andi x v reducesTo_S50257x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_arg7 main_arg8 main_arg9 main_arg10 main_v13 main_v16
-- ==== Kernel.lean ====
abbrev S64x512 : Shape := ⟨2, ![64, 512]⟩
abbrev S50257x2048 : Shape := ⟨2, ![50257, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S2x256 : Shape := ⟨2, ![2, 256]⟩
abbrev S2 : Shape := ⟨1, ![2]⟩
abbrev S64x1 : Shape := ⟨2, ![64, 1]⟩
abbrev S64 : Shape := ⟨1, ![64]⟩
abbrev S_ : Shape := ⟨0, ![]⟩
abbrev S64x2048 : Shape := ⟨2, ![64, 2048]⟩
abbrev S512x2048 : Shape := ⟨2, ![512, 2048]⟩
abbrev S2048x512 : Shape := ⟨2, ![2048, 512]⟩
abbrev S1x2048 : Shape := ⟨2, ![1, 2048]⟩
abbrev S1x256 : Shape := ⟨2, ![1, 256]⟩
abbrev S1x2 : Shape := ⟨2, ![1, 2]⟩
abbrev S64x2 : Shape := ⟨2, ![64, 2]⟩
abbrev S2048x256 : Shape := ⟨2, ![2048, 256]⟩
abbrev S64x256 : Shape := ⟨2, ![64, 256]⟩
abbrev S256x2 : Shape := ⟨2, ![256, 2]⟩

abbrev nBuf : Space → Nat
  | .hbm => 32
  | .vmem => 22
  | .smem => 0
  | _ => 0

abbrev bufTy : (tb : Table) → Fin (tcTables nBuf tb) → BufTy
  | .hbm, ⟨0, _⟩ => ⟨S64x512, .i32⟩
  | .hbm, ⟨1, _⟩ => ⟨S50257x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S256x2048, .f32⟩
  | .hbm, ⟨8, _⟩ => ⟨S256, .f32⟩
  | .hbm, ⟨9, _⟩ => ⟨S2x256, .f32⟩
  | .hbm, ⟨10, _⟩ => ⟨S2, .f32⟩
  | .hbm, ⟨11, _⟩ => ⟨S64x1, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x2048, .f32⟩
  | .hbm, ⟨22, _⟩ => ⟨S_, .f32⟩
  | .hbm, ⟨23, _⟩ => ⟨S64x2048, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S1x2048, .f32⟩
  | .hbm, ⟨28, _⟩ => ⟨S1x2048, .f32⟩
  | .hbm, ⟨29, _⟩ => ⟨S1x256, .f32⟩
  | .hbm, ⟨30, _⟩ => ⟨S1x2, .f32⟩
  | .hbm, ⟨31, _⟩ => ⟨S64x2, .f32⟩
  | .local _ .vmem, ⟨0, _⟩ => ⟨S64x2048, .f32⟩
  | .local _ .vmem, ⟨1, _⟩ => ⟨S64x512, .f32⟩
  | .local _ .vmem, ⟨2, _⟩ => ⟨S64x512, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S64x512, .f32⟩
  | .local _ .vmem, ⟨8, _⟩ => ⟨S64x512, .f32⟩
  | .local _ .vmem, ⟨9, _⟩ => ⟨S64x2048, .f32⟩
  | .local _ .vmem, ⟨10, _⟩ => ⟨S512x2048, .f32⟩
  | .local _ .vmem, ⟨11, _⟩ => ⟨S512x2048, .f32⟩
  | .local _ .vmem, ⟨12, _⟩ => ⟨S64x512, .f32⟩
  | .local _ .vmem, ⟨13, _⟩ => ⟨S64x512, .f32⟩
  | .local _ .vmem, ⟨14, _⟩ => ⟨S64x2048, .f32⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S1x256, .f32⟩
  | .local _ .vmem, ⟨19, _⟩ => ⟨S2x256, .f32⟩
  | .local _ .vmem, ⟨20, _⟩ => ⟨S1x2, .f32⟩
  | .local _ .vmem, ⟨21, _⟩ => ⟨S64x2, .f32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_cst : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S64x512_S64x1_0_511 : S64x512.Slices ![0, 511] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S_S64x2048 : S_.BroadcastsInDim S64x2048 (![] : Fin 0 → Fin S64x2048.rank)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S2048_S1x2048 : S2048.ShapeCasts S1x2048
  shapeCasts_S256_S1x256 : S256.ShapeCasts S1x256
  shapeCasts_S2_S1x2 : S2.ShapeCasts S1x2
  reduces_S64x2048_S64 : S64x2048.Reduces [1] S64
  shapeCasts_S64_S64x1 : S64.ShapeCasts S64x1
  broadcasts_S64x1_S64x2048 : S64x1.Broadcasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S256x2048_S256x2048_0_0 : ∀ a, (![0, 0] : Fin 2 → Nat) a + S256x2048.size a ≤ S256x2048.size a
  h_S256x2048 : 0 < S256x2048.numel
  transposes_S256x2048_p1_0_S2048x256 : S256x2048.Transposes [1, 0] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S2x256_S2x256_0_0 : ∀ a, (![0, 0] : Fin 2 → Nat) a + S2x256.size a ≤ S2x256.size a
  h_S2x256 : 0 < S2x256.numel
  transposes_S2x256_p1_0_S256x2 : S2x256.Transposes [1, 0] S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  gather_S50257x2048_S64x1_S64x2048_1_0_n_n_0_1_12048_wf : GatherDims.WF S50257x2048 S64x1 S64x2048 [1] [0] [] [0] [] 1 ![1, 2048]
  dot_S64x2048_S2048x512_S64x512_1_0_0_1_n_n_wf : DotDims.WF S64x2048 S2048x512 S64x512 [1] [0] [0] [1] [] []
  dot_S64x2048_S2048x256_S64x256_1_0_0_1_n_n_wf : DotDims.WF S64x2048 S2048x256 S64x256 [1] [0] [0] [1] [] []
  dot_S64x256_S256x2_S64x2_1_0_0_1_n_n_wf : DotDims.WF S64x256 S256x2 S64x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x2048.size a
  hwx0_0 : ∀ i : grid0.Coords, EltTy.bits .f32 = 32 ∨ (Rect.block (s := S64x2048) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x2048.size a
  hwx0_1 : ∀ i : grid0.Coords, EltTy.bits .f32 = 32 ∨ (Rect.block (s := S64x2048) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x2048.size a
  hwx0_4 : ∀ i : grid0.Coords, EltTy.bits .f32 = 32 ∨ (Rect.block (s := S64x2048) S64x512.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .f32 = 32 ∨ (Rect.block (s := S64x2048) S64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .f32 = 32 ∨ (Rect.block (s := S2048x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x512.size a ≤ S64x2048.size a
  hwx1_2 : ∀ i : grid1.Coords, EltTy.bits .f32 = 32 ∨ (Rect.block (s := S64x2048) S64x512.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x2048.size a ≤ S64x2048.size a
  hwx2_0 : ∀ i : grid2.Coords, EltTy.bits .f32 = 32 ∨ (Rect.block (s := S64x2048) S64x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S256x2048.size a
  hwx2_3 : ∀ i : grid2.Coords, EltTy.bits .f32 = 32 ∨ (Rect.block (s := S256x2048) S256x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2x256.size a ≤ S2x256.size a
  hwx2_5 : ∀ i : grid2.Coords, EltTy.bits .f32 = 32 ∨ (Rect.block (s := S2x256) S2x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x2.size a ≤ S64x2.size a
  hwx2_7 : ∀ i : grid2.Coords, EltTy.bits .f32 = 32 ∨ (Rect.block (s := S64x2) S64x2.size (cc2_transform_7 i) (hinb2_7 i)).WholeWords (EltTy.packing .f32)

variable [Facts₀]

def gather_S50257x2048_S64x1_S64x2048_1_0_n_n_0_1_12048 : GatherDims S50257x2048 S64x1 S64x2048 where
  offsetDims := [1]
  collapsedSliceDims := [0]
  operandBatchingDims := []
  startIndicesBatchingDims := []
  startIndexMap := [0]
  indexVectorDim := 1
  sliceSizes := ![1, 2048]
  wf := gather_S50257x2048_S64x1_S64x2048_1_0_n_n_0_1_12048_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

abbrev win0_0 : Pipeline.Window sig grid0 :=
  Pipeline.Window.ofSpec (Memref.whole main_v9) S64x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S64x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S64x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S2x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S64x2.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S64x512 : Shape := ⟨2, ![64, 512]⟩
abbrev S50257x2048 : Shape := ⟨2, ![50257, 2048]⟩
abbrev S2048x2048 : Shape := ⟨2, ![2048, 2048]⟩
abbrev S2048 : Shape := ⟨1, ![2048]⟩
abbrev S256x2048 : Shape := ⟨2, ![256, 2048]⟩
abbrev S256 : Shape := ⟨1, ![256]⟩
abbrev S2x256 : Shape := ⟨2, ![2, 256]⟩
abbrev S2 : Shape := ⟨1, ![2]⟩
abbrev S64x1 : Shape := ⟨2, ![64, 1]⟩
abbrev S64 : Shape := ⟨1, ![64]⟩
abbrev S_ : Shape := ⟨0, ![]⟩
abbrev S64x2048 : Shape := ⟨2, ![64, 2048]⟩
abbrev S1x2048 : Shape := ⟨2, ![1, 2048]⟩
abbrev S2048x256 : Shape := ⟨2, ![2048, 256]⟩
abbrev S64x256 : Shape := ⟨2, ![64, 256]⟩
abbrev S1x256 : Shape := ⟨2, ![1, 256]⟩
abbrev S256x2 : Shape := ⟨2, ![256, 2]⟩
abbrev S64x2 : Shape := ⟨2, ![64, 2]⟩
abbrev S1x2 : Shape := ⟨2, ![1, 2]⟩

abbrev nBuf : Space → Nat
  | .hbm => 94
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S50257x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S256x2048, .f32⟩
  | .hbm, ⟨8, _⟩ => ⟨S256, .f32⟩
  | .hbm, ⟨9, _⟩ => ⟨S2x256, .f32⟩
  | .hbm, ⟨10, _⟩ => ⟨S2, .f32⟩
  | .hbm, ⟨11, _⟩ => ⟨S64x1, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x2048, .f32⟩
  | .hbm, ⟨22, _⟩ => ⟨S_, .f32⟩
  | .hbm, ⟨23, _⟩ => ⟨S64x2048, .f32⟩
  | .hbm, ⟨24, _⟩ => ⟨S64x2048, .f32⟩
  | .hbm, ⟨25, _⟩ => ⟨S2048x2048, .f32⟩
  | .hbm, ⟨26, _⟩ => ⟨S2048x2048, .f32⟩
  | .hbm, ⟨27, _⟩ => ⟨S64x2048, .f32⟩
  | .hbm, ⟨28, _⟩ => ⟨S_, .f32⟩
  | .hbm, ⟨29, _⟩ => ⟨S64x2048, .f32⟩
  | .hbm, ⟨30, _⟩ => ⟨S64x2048, .f32⟩
  | .hbm, ⟨31, _⟩ => ⟨S64x2048, .f32⟩
  | .hbm, ⟨32, _⟩ => ⟨S2048x2048, .f32⟩
  | .hbm, ⟨33, _⟩ => ⟨S64x2048, .f32⟩
  | .hbm, ⟨34, _⟩ => ⟨S_, .f32⟩
  | .hbm, ⟨35, _⟩ => ⟨S64x2048, .f32⟩
  | .hbm, ⟨36, _⟩ => ⟨S64x2048, .f32⟩
  | .hbm, ⟨37, _⟩ => ⟨S_, .f32⟩
  | .hbm, ⟨38, _⟩ => ⟨S64, .f32⟩
  | .hbm, ⟨39, _⟩ => ⟨S64x1, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S_, .i32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S_, .f32⟩
  | .hbm, ⟨48, _⟩ => ⟨S64x1, .f32⟩
  | .hbm, ⟨49, _⟩ => ⟨S64x1, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S64x1, .f32⟩
  | .hbm, ⟨59, _⟩ => ⟨S64x1, .f32⟩
  | .hbm, ⟨60, _⟩ => ⟨S64x1, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S64x1, .f32⟩
  | .hbm, ⟨66, _⟩ => ⟨S64x1, .f32⟩
  | .hbm, ⟨67, _⟩ => ⟨S64x2048, .f32⟩
  | .hbm, ⟨68, _⟩ => ⟨S64x2048, .f32⟩
  | .hbm, ⟨69, _⟩ => ⟨S_, .f32⟩
  | .hbm, ⟨70, _⟩ => ⟨S64x1, .f32⟩
  | .hbm, ⟨71, _⟩ => ⟨S64x1, .f32⟩
  | .hbm, ⟨72, _⟩ => ⟨S64x1, .f32⟩
  | .hbm, ⟨73, _⟩ => ⟨S64x2048, .f32⟩
  | .hbm, ⟨74, _⟩ => ⟨S64x2048, .f32⟩
  | .hbm, ⟨75, _⟩ => ⟨S1x2048, .f32⟩
  | .hbm, ⟨76, _⟩ => ⟨S64x2048, .f32⟩
  | .hbm, ⟨77, _⟩ => ⟨S64x2048, .f32⟩
  | .hbm, ⟨78, _⟩ => ⟨S1x2048, .f32⟩
  | .hbm, ⟨79, _⟩ => ⟨S64x2048, .f32⟩
  | .hbm, ⟨80, _⟩ => ⟨S64x2048, .f32⟩
  | .hbm, ⟨81, _⟩ => ⟨S2048x256, .f32⟩
  | .hbm, ⟨82, _⟩ => ⟨S64x256, .f32⟩
  | .hbm, ⟨83, _⟩ => ⟨S1x256, .f32⟩
  | .hbm, ⟨84, _⟩ => ⟨S64x256, .f32⟩
  | .hbm, ⟨85, _⟩ => ⟨S64x256, .f32⟩
  | .hbm, ⟨86, _⟩ => ⟨S_, .f32⟩
  | .hbm, ⟨87, _⟩ => ⟨S64x256, .f32⟩
  | .hbm, ⟨88, _⟩ => ⟨S64x256, .f32⟩
  | .hbm, ⟨89, _⟩ => ⟨S256x2, .f32⟩
  | .hbm, ⟨90, _⟩ => ⟨S64x2, .f32⟩
  | .hbm, ⟨91, _⟩ => ⟨S1x2, .f32⟩
  | .hbm, ⟨92, _⟩ => ⟨S64x2, .f32⟩
  | .hbm, ⟨93, _⟩ => ⟨S64x2, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_cst : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call1_cst : Ref sig .tc := ⟨.hbm, 34, rfl⟩
abbrev main_call1_v0 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_cst_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_cst_1 : Ref sig .tc := ⟨.hbm, 54, rfl⟩
abbrev main_call2_v8 : Ref sig .tc := ⟨.hbm, 55, rfl⟩
abbrev main_call2_cst_2 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_cst_3 : Ref sig .tc := ⟨.hbm, 61, rfl⟩
abbrev main_call2_v13 : Ref sig .tc := ⟨.hbm, 62, rfl⟩
abbrev main_call2_cst_4 : Ref sig .tc := ⟨.hbm, 63, rfl⟩
abbrev main_call2_call0_v0 : Ref sig .tc := ⟨.hbm, 64, rfl⟩
abbrev main_call2_call0_v1 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_cst_4 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_call3_cst : Ref sig .tc := ⟨.hbm, 86, rfl⟩
abbrev main_call3_v0 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩

abbrev nD : Nat := 1
abbrev τ : Topo := Topo.v7x

variable {F : FTy → Type} [FloatOps F]

class Facts₀ : Prop where
  slices_S64x512_S64x1_0_511 : S64x512.Slices ![0, 511] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S_S64x2048 : S_.BroadcastsInDim S64x2048 (![] : Fin 0 → Fin S64x2048.rank)
  transposes_S2048x2048_S2048x2048_1_0 : S2048x2048.Transposes [1, 0] S2048x2048
  reducesTo_S64x2048_S64_d1 : S64x2048.ReducesTo [1] S64
  h_S_ : 0 < S_.numel
  bcast_S_S64x1 : S_.BroadcastsInDim S64x1 (![] : Fin 0 → Fin S64x1.rank)
  bcast_S64x1_S64x2048_0_1 : S64x1.BroadcastsInDim S64x2048 (![0, 1] : Fin 2 → Fin S64x2048.rank)
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  transposes_S256x2048_S2048x256_1_0 : S256x2048.Transposes [1, 0] S2048x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  transposes_S2x256_S256x2_1_0 : S2x256.Transposes [1, 0] S256x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S50257x2048_S64x1_S64x2048_1_0_n_n_0_1_12048_wf : GatherDims.WF S50257x2048 S64x1 S64x2048 [1] [0] [] [0] [] 1 ![1, 2048]
  dot_S64x2048_S2048x2048_S64x2048_1_0_0_1_n_n_wf : DotDims.WF S64x2048 S2048x2048 S64x2048 [1] [0] [0] [1] [] []
  dot_S64x2048_S2048x256_S64x256_1_0_0_1_n_n_wf : DotDims.WF S64x2048 S2048x256 S64x256 [1] [0] [0] [1] [] []
  dot_S64x256_S256x2_S64x2_1_0_0_1_n_n_wf : DotDims.WF S64x256 S256x2 S64x2 [1] [0] [0] [1] [] []

variable [Facts₀]

def gather_S50257x2048_S64x1_S64x2048_1_0_n_n_0_1_12048 : GatherDims S50257x2048 S64x1 S64x2048 where
  offsetDims := [1]
  collapsedSliceDims := [0]
  operandBatchingDims := []
  startIndicesBatchingDims := []
  startIndexMap := [0]
  indexVectorDim := 1
  sliceSizes := ![1, 2048]
  wf := gather_S50257x2048_S64x1_S64x2048_1_0_n_n_0_1_12048_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

class Facts : Prop extends Facts₀ where

variable [Facts]
-- ==== Proof.K.Reg0.lean ====
/-
  Region 0 of the kernel program: the propagation step, x = a + ½ · a · (adj ∘ syn)ᵀ, over four column tiles.

  The pipeline hands the body five staging buffers at each of the four grid points: the whole activation a
  (64 × 2048, fetched once), the activation's column tile (64 × 512), the row tiles of the adjacency and of the
  synapse state (512 × 2048 each) and the output's column tile (64 × 512).  The body loads the four inputs whole,
  and stores one value into the output tile: the payload `k0_pay1` of the four loads.  So after the body the output
  buffer holds that payload outright (one store covering the buffer), and every input buffer holds what it held.

  The activation reaches the kernel through TWO windows (the whole array and its column tile).  Both are inputs, so
  the array is only read; the proof data give the first window the left half of the array's share and the second the
  right half.
-/
import proofs.«129554_j18485539242697_1_alg».proof.Proof.Gen.Kernel.Launch
import proofs.«129554_j18485539242697_1_alg».proof.Proof.Gen.Kernel.Skeleton
import proofs.«129554_j18485539242697_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 64 × 2048 buffer, of a 64 × 512 one, of a 512 × 2048 one: the rectangles the body loads and stores through. -/
abbrev rA0 : Rect S64x2048 := Rect.unit (s := S64x2048) ![0, 0] S64x2048.size inb_S64x2048_S64x2048_0_0
abbrev rT0 : Rect S64x512 := Rect.unit (s := S64x512) ![0, 0] S64x512.size inb_S64x512_S64x512_0_0
abbrev rW0 : Rect S512x2048 := Rect.unit (s := S512x2048) ![0, 0] S512x2048.size inb_S512x2048_S512x2048_0_0

/-- What the body leaves in the output tile's buffer, from the four input buffers: its one store. -/
def out0_4 (x0 : Vec F S64x2048 .f32) (x1 : Vec F S64x512 .f32) (x2 x3 : Vec F S512x2048 .f32) : Vec F S64x512 .f32 :=
  View.canon [⟨rT0, k0_pay1 (View.ld x0 rA0) (View.ld x2 rW0) (View.ld x3 rW0) (View.ld x1 rT0)⟩]

/-- The one store is of the whole buffer. -/
theorem cover0_4 (p0 : Vec F S64x512 .f32) (y : S64x512.Idx) :
    ∃ pc ∈ ([⟨rT0, p0⟩] : List (View.Piece (Elt F) S64x512 .f32)), y ∈ pc.1.set :=
  View.cover_of_tiled [⟨rT0, p0⟩] S64x512.size (by rfl) y

set_option maxHeartbeats 1000000 in
/-- The body on whole staging memrefs: the inputs' at contents `x0 … x3`, the output's at anything; it ends with the
    inputs' as they were and the output's at `out0_4` of them. -/
theorem sound_kernel0 (c : Dev nD) (E : Set ℕ) (i : grid0.Coords)
    (arg1 : Memref sig .tc .vmem S64x2048 .f32) (harg1 : arg1.IsWhole) (arg2 : Memref sig .tc .vmem S64x512 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S64x512 .f32) (harg5 : arg5.IsWhole)
    (x0 : Vec F S64x2048 .f32) (x1 : Vec F S64x512 .f32) (x2 x3 : Vec F S512x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__propagate_kernel i arg1 harg1 arg2 harg2 arg3 harg3 arg4 harg4 arg5 harg5) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- Region 0's proof data on core `c`: the arrays as the region finds them; after the body at point `t` each input
    buffer at its block, the output's at `out0_4` of the four input blocks; the class invariant (the scoped rest and
    the generator register, untouched); nothing owed.  The activation's array is read through windows 0 and 1: the
    first holds the left half of its share, the second the right half; the two weight arrays are held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds the window's block at every point, whether the point fetches it or
    not (the whole activation is fetched at the first point only, its block index never moving). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel program: the local step, y = max(x · W_localᵀ, 0), over four column tiles.

  At each of the four grid points the body is handed the whole of x (64 × 2048, fetched once), a row tile of the
  weight (512 × 2048) and the output's column tile (64 × 512).  It loads the two inputs whole and stores one value,
  the payload `k1_pay1` of the two loads, over the whole output tile.
-/
import proofs.«129554_j18485539242697_1_alg».proof.Proof.Gen.Kernel.Launch
import proofs.«129554_j18485539242697_1_alg».proof.Proof.Gen.Kernel.Skeleton
import proofs.«129554_j18485539242697_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S64x2048 := Rect.unit (s := S64x2048) ![0, 0] S64x2048.size inb_S64x2048_S64x2048_0_0
abbrev rT1 : Rect S64x512 := Rect.unit (s := S64x512) ![0, 0] S64x512.size inb_S64x512_S64x512_0_0
abbrev rW1 : Rect S512x2048 := Rect.unit (s := S512x2048) ![0, 0] S512x2048.size inb_S512x2048_S512x2048_0_0

/-- What the body leaves in the output tile's buffer, from the two input buffers: its one store. -/
def out1_2 (x0 : Vec F S64x2048 .f32) (x1 : Vec F S512x2048 .f32) : Vec F S64x512 .f32 :=
  View.canon [⟨rT1, k1_pay1 (View.ld x0 rA1) (View.ld x1 rW1)⟩]

theorem cover1_2 (p0 : Vec F S64x512 .f32) (y : S64x512.Idx) :
    ∃ pc ∈ ([⟨rT1, p0⟩] : List (View.Piece (Elt F) S64x512 .f32)), y ∈ pc.1.set :=
  View.cover_of_tiled [⟨rT1, p0⟩] S64x512.size (by rfl) y

set_option maxHeartbeats 1000000 in
/-- The body on whole staging memrefs: the inputs' at contents `x0`, `x1`, the output's at anything; it ends with
    the inputs' as they were and the output's at `out1_2` of them. -/
theorem sound_kernel1 (c : Dev nD) (E : Set ℕ) (i : grid1.Coords)
    (arg1 : Memref sig .tc .vmem S64x2048 .f32) (harg1 : arg1.IsWhole) (arg2 : Memref sig .tc .vmem S512x2048 .f32) (harg2 : arg2.IsWhole)
    (arg3 : Memref sig .tc .vmem S64x512 .f32) (harg3 : arg3.IsWhole)
    (x0 : Vec F S64x2048 .f32) (x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__local_kernel i arg1 harg1 arg2 harg2 arg3 harg3) K := by
  simp only [cc1__local_kernel_eq_skeleton]; unfold cc1__local_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- Region 1's proof data on core `c`: the arrays as the region finds them; after the body at point `t` each input
    buffer at its block, the output's at `out1_2` of the two input blocks; the class invariant; nothing owed; the
    two input arrays held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel program: the read-out, in one grid point.

  The body is handed seven input buffers whole — the activation y (64 × 2048), the layer norm's gain and bias as
  rows (1 × 2048 each), the read-out weight (256 × 2048) and bias (1 × 256), the classifier's weight (2 × 256) and
  bias (1 × 2) — and the output buffer (64 × 2).  It loads the seven inputs and stores one value over the whole
  output: the classifier's payload `k2_pay1` of the hidden layer (`k2_pay2` of the first five loads), the
  classifier's weight (`k2_pay3` of the sixth) and the seventh load.
-/
import proofs.«129554_j18485539242697_1_alg».proof.Proof.Gen.Kernel.Launch
import proofs.«129554_j18485539242697_1_alg».proof.Proof.Gen.Kernel.Skeleton
import proofs.«129554_j18485539242697_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at the grid's point, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S64x2048 := Rect.unit (s := S64x2048) ![0, 0] S64x2048.size inb_S64x2048_S64x2048_0_0
abbrev rG2 : Rect S1x2048 := Rect.unit (s := S1x2048) ![0, 0] S1x2048.size inb_S1x2048_S1x2048_0_0
abbrev rR2 : Rect S256x2048 := Rect.unit (s := S256x2048) ![0, 0] S256x2048.size inb_S256x2048_S256x2048_0_0
abbrev rB2 : Rect S1x256 := Rect.unit (s := S1x256) ![0, 0] S1x256.size inb_S1x256_S1x256_0_0
abbrev rC2 : Rect S2x256 := Rect.unit (s := S2x256) ![0, 0] S2x256.size inb_S2x256_S2x256_0_0
abbrev rD2 : Rect S1x2 := Rect.unit (s := S1x2) ![0, 0] S1x2.size inb_S1x2_S1x2_0_0
abbrev rO2 : Rect S64x2 := Rect.unit (s := S64x2) ![0, 0] S64x2.size inb_S64x2_S64x2_0_0

/-- What the body leaves in the output buffer, from the seven input buffers: its one store. -/
def out2_7 (x0 : Vec F S64x2048 .f32) (x1 : Vec F S1x2048 .f32) (x2 : Vec F S1x2048 .f32) (x3 : Vec F S256x2048 .f32) (x4 : Vec F S1x256 .f32) (x5 : Vec F S2x256 .f32) (x6 : Vec F S1x2 .f32) : Vec F S64x2 .f32 :=
  View.canon [⟨rO2, k2_pay1 (k2_pay2 (View.ld x0 rA2) (View.ld x1 rG2) (View.ld x2 rG2) (View.ld x3 rR2) (View.ld x4 rB2)) (k2_pay3 (View.ld x5 rC2)) (View.ld x6 rD2)⟩]

theorem cover2_7 (p0 : Vec F S64x2 .f32) (y : S64x2.Idx) :
    ∃ pc ∈ ([⟨rO2, p0⟩] : List (View.Piece (Elt F) S64x2 .f32)), y ∈ pc.1.set :=
  View.cover_of_tiled [⟨rO2, p0⟩] S64x2.size (by rfl) y

set_option maxHeartbeats 1000000 in
/-- The body on whole staging memrefs: the inputs' at contents `x0 … x6`, the output's at anything; it ends with the
    inputs' as they were and the output's at `out2_7` of them. -/
theorem sound_kernel2 (c : Dev nD) (E : Set ℕ) (i : grid2.Coords)
    (arg1 : Memref sig .tc .vmem S64x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S2x256 .f32) (harg6 : arg6.IsWhole) (arg7 : Memref sig .tc .vmem S1x2 .f32) (harg7 : arg7.IsWhole) (arg8 : Memref sig .tc .vmem S64x2 .f32) (harg8 : arg8.IsWhole)
    (x0 : Vec F S64x2048 .f32) (x1 : Vec F S1x2048 .f32) (x2 : Vec F S1x2048 .f32) (x3 : Vec F S256x2048 .f32) (x4 : Vec F S1x256 .f32) (x5 : Vec F S2x256 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__readout_kernel i arg1 harg1 arg2 harg2 arg3 harg3 arg4 harg4 arg5 harg5 arg6 harg6 arg7 harg7 arg8 harg8) K := by
  simp only [cc2__readout_kernel_eq_skeleton]; unfold cc2__readout_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The proof data -/

/-- Region 2's proof data on core `c`: the arrays as the region finds them; after the body each input buffer at its
    block (the whole array), the output's at `out2_7` of the seven; the class invariant; nothing owed; every input
    array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Frame.lean ====
/-
  The three regions of the kernel program as segments of @main, and the program's frame.

  @main is: host operations (the last token's index, wrapped; the gather of embedding rows), the first rectifier's
  three operations, region 0, region 1, four reshapes, region 2.  Between two items the core holds every unscoped
  buffer whole, at contents that are a fold from the launch memory: a host stretch applies its operations, a region
  changes its one output array.  Region 0 writes main_v10, region 1 main_v11, region 2 main_v16; what each leaves
  there is what its pipeline's write-backs leave (the proof data's `arrAt … N`), read off the contents the region was
  entered with.

  Region 0 reads the activation main_v9 through two windows.  At its entry the buffer, held whole, is split into the
  two halves of its share, one per window; both windows only read it, so at the exit each half still holds the entry
  contents and the halves are joined again.
-/
import proofs.«129554_j18485539242697_1_alg».proof.Proof.K.Reg0
import proofs.«129554_j18485539242697_1_alg».proof.Proof.K.Reg1
import proofs.«129554_j18485539242697_1_alg».proof.Proof.K.Reg2
import proofs.«129554_j18485539242697_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## Region 0's arrays: one buffer behind two windows -/

section Shared

variable (V : (c : Dev nD) → (b : Ref sig .tc) → Buf (Elt F) ((c : Thread nD τ).loc b))

/-- The distinct buffers behind region 0's five windows are four: the activation, the adjacency, the synapse state
    and the output. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v9) ↦{fullShare} W main_v9) ∗ (((c : Thread nD τ).loc main_arg2) ↦{fullShare} W main_arg2)
          ∗ (((c : Thread nD τ).loc main_arg3) ↦{fullShare} W main_arg3) ∗ (((c : Thread nD τ).loc main_v10) ↦{fullShare} W main_v10)) := by
  unfold Pipeline.arrBufs
  exact bigSep_eq_bigSepL_of_eq [main_v9, main_arg2, main_arg3, main_v10] (by decide) (by decide) _

/-- ENTRY.  The four buffers, each held whole at the entry contents, make the proof data's five arrays at entry: the
    activation's buffer is split into the two halves of its share, one per window. -/
theorem arrays_of_arrBufs0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq]
  unfold Dat.arrays
  rw [bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have s0 : (dat0 V c).share 0 = fullShare.left := rfl
  have s1 : (dat0 V c).share 1 = fullShare.right := rfl
  have s2 : (dat0 V c).share 2 = fullShare := rfl
  have s3 : (dat0 V c).share 3 = fullShare := rfl
  have s4 : (dat0 V c).share 4 = fullShare := rfl
  simp only [h0, h1, h2, h3, h4, s0, s1, s2, s3, s4]
  iintro ⟨Ha, H2, H3, H10⟩
  ihave Ha' := (pointsTo_share (PosShare.mem_left_op_right fullShare)).1 $$ Ha
  icases Ha' with ⟨Hl, Hr⟩
  isplitl [Hl]; · iexact Hl
  isplitl [Hr]; · iexact Hr
  isplitl [H2]; · iexact H2
  isplitl [H3]; · iexact H3
  iexact H10

/-- EXIT.  The five arrays at what the pipeline leaves make the four buffers again, at any contents `V'` that agree
    with the entry contents on the three arrays the region only reads and hold, at the output, what the write-backs
    leave: the two halves of the activation's share, each still at the entry contents, are joined. -/
theorem arrBufs_of_arrays0 (c : Dev nD) (V' : (b : Ref sig .tc) → Buf (Elt F) ((c : Thread nD τ).loc b))
    (h9 : V' main_v9 = V c main_v9) (h2' : V' main_arg2 = V c main_arg2) (h3' : V' main_arg3 = V c main_arg3)
    (h10 : V' main_v10 = (dat0 V c).arrAt 4 cfg0.N) :
    (dat0 V c).arrays ((dat0 V c).arrAt · cfg0.N)
      ⊢ (Pipeline.arrBufs (Ix := Unit) (Name := ℕ) (U := UR sig nD τ) (Lvl := ℕ) spec0 c V' : sProp 𝕄) := by
  rw [arrBufs0_eq, h9, h2', h3', h10]
  unfold Dat.arrays
  rw [bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have s0 : (dat0 V c).share 0 = fullShare.left := rfl
  have s1 : (dat0 V c).share 1 = fullShare.right := rfl
  have s2 : (dat0 V c).share 2 = fullShare := rfl
  have s3 : (dat0 V c).share 3 = fullShare := rfl
  have s4 : (dat0 V c).share 4 = fullShare := rfl
  have e0 : (dat0 V c).arrAt 0 cfg0.N = V c main_v9 := ((dat0 V c).arrAt_in 0 rfl _).trans (A_eq0 V c 0)
  have e1 : (dat0 V c).arrAt 1 cfg0.N = V c main_v9 := ((dat0 V c).arrAt_in 1 rfl _).trans (A_eq0 V c 1)
  have e2 : (dat0 V c).arrAt 2 cfg0.N = V c main_arg2 := ((dat0 V c).arrAt_in 2 rfl _).trans (A_eq0 V c 2)
  have e3 : (dat0 V c).arrAt 3 cfg0.N = V c main_arg3 := ((dat0 V c).arrAt_in 3 rfl _).trans (A_eq0 V c 3)
  simp only [h0, h1, h2, h3, h4, s0, s1, s2, s3, s4, e0, e1, e2, e3]
  iintro ⟨Hl, Hr, H2, H3, H10⟩
  isplitl [Hl Hr]
  · iapply (pointsTo_share (PosShare.mem_left_op_right fullShare)).2
    isplitl [Hl]; · iexact Hl
    iexact Hr
  isplitl [H2]; · iexact H2
  isplitl [H3]; · iexact H3
  iexact H10

end Shared

/-! ## The buffers' contents between @main's items, each region's output named -/

section Run

variable (m : (ℓ : Loc nD τ sig) → Buf (Elt F) ℓ)

/-- A core's buffer contents read at the TensorCore's references: what a region's proof data take. -/
abbrev refs (W : Dev nD → Valuation τ sig (Elt F)) : (c : Dev nD) → (b : Ref sig .tc) → Buf (Elt F) ((c : Thread nD τ).loc b) :=
  fun c b => W c b

/-- What region 0's write-backs leave in main_v10, from the contents it is entered with. -/
def x10 (c : Dev nD) : Buf (Elt F) ((c : Thread nD τ).loc main_v10) := (dat0 (refs (V2 m)) c).arrAt 4 cfg0.N
/-- After region 0: as before it, main_v10 at what the region leaves. -/
def U3 (c : Dev nD) : Valuation τ sig (Elt F) := Function.update (V2 m c) main_v10 (x10 m c)
/-- What region 1's write-backs leave in main_v11. -/
def x11 (c : Dev nD) : Buf (Elt F) ((c : Thread nD τ).loc main_v11) := (dat1 (refs (U3 m)) c).arrAt 2 cfg1.N
/-- After region 1. -/
def U4 (c : Dev nD) : Valuation τ sig (Elt F) := Function.update (U3 m c) main_v11 (x11 m c)
/-- After the four reshapes. -/
abbrev U5 (c : Dev nD) : Valuation τ sig (Elt F) := StableHlo.after hostOps2 (U4 m c)
/-- What region 2's write-back leaves in main_v16: the program's result. -/
def x16 (c : Dev nD) : Buf (Elt F) ((c : Thread nD τ).loc main_v16) := (dat2 (refs (U5 m)) c).arrAt 7 cfg2.N
/-- After region 2: the contents at the return. -/
def U6 (c : Dev nD) : Valuation τ sig (Elt F) := Function.update (U5 m c) main_v16 (x16 m c)

/-- What the regions leave, as the family the generated valuations are written over. -/
def outs : Outs (F := F) := fun J r c => if J = 3 then U3 m c r else if J = 4 then U4 m c r else U6 m c r

theorem V3_eq (c : Dev nD) : V3 m (outs m) c = U3 m c := by
  show Function.update (V2 m c) main_v10 (outs m 3 main_v10 c) = _
  unfold outs U3; rw [if_pos rfl, Function.update_self]
theorem V4_eq (c : Dev nD) : V4 m (outs m) c = U4 m c := by
  show Function.update (V3 m (outs m) c) main_v11 (outs m 4 main_v11 c) = _
  rw [V3_eq]; unfold outs U4; rw [if_neg (by decide), if_pos rfl, Function.update_self]
theorem V5_eq (c : Dev nD) : V5 m (outs m) c = U5 m c := by
  show StableHlo.after hostOps2 (V4 m (outs m) c) = _
  rw [V4_eq]
theorem V6_eq (c : Dev nD) : V6 m (outs m) c = U6 m c := by
  show Function.update (V5 m (outs m) c) main_v16 (outs m 6 main_v16 c) = _
  rw [V5_eq]; unfold outs U6; rw [if_neg (by decide), if_neg (by decide), Function.update_self]
theorem V2_eq (c : Dev nD) : V2 m c = V2 m c := rfl

/-- Off main_v10 region 0 changes nothing; off main_v11 region 1 changes nothing; off main_v16 region 2 changes nothing. -/
theorem U3_of_ne (c : Dev nD) (b : Ref sig .tc) (h : b ≠ main_v10) : U3 m c b = V2 m c b :=
  Function.update_of_ne (StableHlo.devRef_ne_of_ne h : (Proc.devRef .tc b : DevRef τ sig) ≠ Proc.devRef .tc main_v10) ..
theorem U4_of_ne (c : Dev nD) (b : Ref sig .tc) (h : b ≠ main_v11) : U4 m c b = U3 m c b :=
  Function.update_of_ne (StableHlo.devRef_ne_of_ne h : (Proc.devRef .tc b : DevRef τ sig) ≠ Proc.devRef .tc main_v11) ..
theorem U6_of_ne (c : Dev nD) (b : Ref sig .tc) (h : b ≠ main_v16) : U6 m c b = U5 m c b :=
  Function.update_of_ne (StableHlo.devRef_ne_of_ne h : (Proc.devRef .tc b : DevRef τ sig) ≠ Proc.devRef .tc main_v16) ..
theorem U3_v10 (c : Dev nD) : U3 m c main_v10 = x10 m c := Function.update_self ..
theorem U4_v11 (c : Dev nD) : U4 m c main_v11 = x11 m c := Function.update_self ..
theorem U6_v16 (c : Dev nD) : U6 m c main_v16 = x16 m c := Function.update_self ..

/-! ## The proof data family and the thread states -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (refs (V2 m)) c
  | ⟨1, _⟩ => fun c => dat1 (refs (U3 m)) c
  | ⟨2, _⟩ => fun c => dat2 (refs (U5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- At region 1's exit each of its arrays holds what the pipeline leaves, every other buffer what it held at entry. -/
theorem hF1 (c : Dev nD) (w : Fin cfg1.W) : (pdats m 1 c).arrAt w cfg1.N = refs (U4 m) c (Pipeline.arrRef spec1 w) := by
  match w with
  | ⟨0, _⟩ => exact (((dat1 (refs (U3 m)) c).arrAt_in 0 rfl _).trans (A_eq1 (refs (U3 m)) c 0)).trans (U4_of_ne m c main_v10 (by decide)).symm
  | ⟨1, _⟩ => exact (((dat1 (refs (U3 m)) c).arrAt_in 1 rfl _).trans (A_eq1 (refs (U3 m)) c 1)).trans (U4_of_ne m c main_arg4 (by decide)).symm
  | ⟨2, _⟩ => exact (U4_v11 m c).symm
theorem hrest1 (c : Dev nD) : ∀ b, b ∉ Finset.univ.image (Pipeline.arrRef spec1) → refs (U4 m) c b = refs (U3 m) c b :=
  fun b hb => U4_of_ne m c b fun e => hb (Finset.mem_image.mpr ⟨2, Finset.mem_univ _, e.symm⟩)

/-- The same at region 2's exit. -/
theorem hF2 (c : Dev nD) (w : Fin cfg2.W) : (pdats m 2 c).arrAt w cfg2.N = refs (U6 m) c (Pipeline.arrRef spec2 w) := by
  match w with
  | ⟨0, _⟩ => exact (((dat2 (refs (U5 m)) c).arrAt_in 0 rfl _).trans (A_eq2 (refs (U5 m)) c 0)).trans (U6_of_ne m c main_v11 (by decide)).symm
  | ⟨1, _⟩ => exact (((dat2 (refs (U5 m)) c).arrAt_in 1 rfl _).trans (A_eq2 (refs (U5 m)) c 1)).trans (U6_of_ne m c main_v12 (by decide)).symm
  | ⟨2, _⟩ => exact (((dat2 (refs (U5 m)) c).arrAt_in 2 rfl _).trans (A_eq2 (refs (U5 m)) c 2)).trans (U6_of_ne m c main_v13 (by decide)).symm
  | ⟨3, _⟩ => exact (((dat2 (refs (U5 m)) c).arrAt_in 3 rfl _).trans (A_eq2 (refs (U5 m)) c 3)).trans (U6_of_ne m c main_arg7 (by decide)).symm
  | ⟨4, _⟩ => exact (((dat2 (refs (U5 m)) c).arrAt_in 4 rfl _).trans (A_eq2 (refs (U5 m)) c 4)).trans (U6_of_ne m c main_v14 (by decide)).symm
  | ⟨5, _⟩ => exact (((dat2 (refs (U5 m)) c).arrAt_in 5 rfl _).trans (A_eq2 (refs (U5 m)) c 5)).trans (U6_of_ne m c main_arg9 (by decide)).symm
  | ⟨6, _⟩ => exact (((dat2 (refs (U5 m)) c).arrAt_in 6 rfl _).trans (A_eq2 (refs (U5 m)) c 6)).trans (U6_of_ne m c main_v15 (by decide)).symm
  | ⟨7, _⟩ => exact (U6_v16 m c).symm
theorem hrest2 (c : Dev nD) : ∀ b, b ∉ Finset.univ.image (Pipeline.arrRef spec2) → refs (U6 m) c b = refs (U5 m) c b :=
  fun b hb => U6_of_ne m c b fun e => hb (Finset.mem_image.mpr ⟨7, Finset.mem_univ _, e.symm⟩)

/-! ## Region 0 at its entry and exit -/

/-- Every unscoped buffer at the contents before region 0 gives the region's five arrays at entry and the rest. -/
theorem entry0 (c : Dev nD) :
    (StableHlo.held (c : Thread nD τ) (Pipeline.ucRefs τ sig) (V2 m c) : sProp 𝕄)
      ⊢ iprop((dat0 (refs (V2 m)) c).arrays ((dat0 (refs (V2 m)) c).arrAt · 0)
          ∗ Pipeline.unscopedRest (Ix := Unit) (Name := ℕ) (U := UR sig nD τ) (Lvl := ℕ) spec0 c (refs (V2 m) c)) := by
  rw [← Pipeline.unscopedBufs_held (Ix := Unit) (Name := ℕ) (U := UR sig nD τ) (Lvl := ℕ) c (V2 m c),
    Pipeline.unscopedBufs_split₀ cfgs (0 : Fin 3) winFacts₀0.arr_unscoped c]
  exact sep_mono (arrays_of_arrBufs0 (refs (V2 m)) c) .rfl

/-- The five arrays at what the pipeline leaves and the rest make every unscoped buffer at the contents after region 0. -/
theorem exit0 (c : Dev nD) :
    iprop((dat0 (refs (V2 m)) c).arrays ((dat0 (refs (V2 m)) c).arrAt · cfg0.N)
        ∗ Pipeline.unscopedRest (Ix := Unit) (Name := ℕ) (U := UR sig nD τ) (Lvl := ℕ) spec0 c (refs (V2 m) c))
      ⊢ (StableHlo.held (c : Thread nD τ) (Pipeline.ucRefs τ sig) (U3 m c) : sProp 𝕄) := by
  rw [← Pipeline.unscopedBufs_held (Ix := Unit) (Name := ℕ) (U := UR sig nD τ) (Lvl := ℕ) c (U3 m c),
    Pipeline.unscopedBufs_split₀ cfgs (0 : Fin 3) winFacts₀0.arr_unscoped c]
  refine sep_mono (arrBufs_of_arrays0 (refs (V2 m)) c (refs (U3 m) c) (U3_of_ne m c main_v9 (by decide))
    (U3_of_ne m c main_arg2 (by decide)) (U3_of_ne m c main_arg3 (by decide)) (U3_v10 m c)) (Entails.of_eq ?_)
  unfold Pipeline.unscopedRest
  exact bigSep_congr fun b hb => by
    have e : U3 m c b = V2 m c b := U3_of_ne m c b fun e =>
      (Finset.mem_sdiff.mp hb).2 (Finset.mem_image.mpr ⟨4, Finset.mem_univ _, e.symm⟩)
    beta_reduce
    rw [e]

set_option backward.isDefEq.respectTransparency.types false in
/-- Region 0 over the thread states.  Its windows share an array, so its arrays are split out of the unscoped buffers
    and put back by `entry0` and `exit0`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (refs (V2 m)) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (refs (V2 m) c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V3_eq]
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread states: entered with every unscoped buffer at the contents before it, left with them
    at the contents after it; its arrays are split out of the unscoped buffers and put back with the output at what the
    write-backs leave; the generator register passes through the class invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (refs (U3 m)) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (refs (U3 m) c)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (refs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (refs (U3 m) c) (refs (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread states: entered with every unscoped buffer at the contents before it, left with them
    at the contents after it; its arrays are split out of the unscoped buffers and put back with the output at what the
    write-backs leave; the generator register passes through the class invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (refs (U5 m)) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (refs (U5 m) c)
  hentry c := by
    rw [Pipeline.ownSems0_none, V5_eq]
    have hsplit := Pipeline.arrays_of_unscopedBufs (p := 2) (pcfgs (F := F)) adm (pdats m) launch2.win launch2.arr_whole c
      ((pdats m 2 c).share_full fun _ => rfl) (refs (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (refs (U5 m) c) (refs (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch element: the pipelines' cells and duty tokens, nothing else. -/
abbrev u₀ : UR sig nD τ := initOf (Pipeline.cells cfgs cellOf_inj) (Pipeline.launchToks cfgs cellOf_inj)

theorem launch_own :
    (ownU (u₀ : UR sig nD τ) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the generator register at its launch state and the empty dues make `R`. -/
theorem rest_core (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ R c := by
  iintro ⟨-, HO, -, Hp, -⟩
  isplitl [Hp]; · iexists _; iexact Hp
  iexists ∅; iexact HO

/-- At launch every core's generator register and its empty dues make the rest state `R`. -/
theorem rest_init (ρ : Dev nD → PrngReg) :
    iprop((bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ bigSep Finset.univ (fun c : Dev nD => R c) :=
    bigSep_mono fun c _ => rest_core ρ c
  iintro ⟨H, -⟩
  imodintro
  iapply h1
  iexact H

theorem rest_end (c : Dev nD) : (R c : sProp 𝕄) ⊢ iprop(∃ W, owes (c : Thread nD τ) (0 : CellTallies nD τ sig Unit) W) := by
  iintro ⟨-, HO⟩; iexact HO

/-- THE FRAME of the kernel program at any float instance: every weakly fair execution of @main from a memory with zero
    counters terminates, nothing faulting, and every argument array ends as launched — the generated conditional frame
    at the three regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () 𝒱₀ L lv (fun _ _ => rfl) ρ (outs m) (pdats m) 0 (fun _ => (BI.emp : sProp 𝕄)) u₀ launch_own
    (fun _ c => R c) (rest_init ρ) rest_end
    (reg0 m) (fun _ => .rfl) (fun _ => .rfl) (reg1 m) (fun _ => .rfl) (fun _ => .rfl) (reg2 m) (fun _ => .rfl) (fun _ => .rfl)

end Run

end Cert.Kernel.Hand

end
-- ==== Proof.KI.Reg0.lean ====
/-
  Region 0 of the kernel program: the propagation step, x = a + ½ · a · (adj ∘ syn)ᵀ, over four column tiles.

  The pipeline hands the body five staging buffers at each of the four grid points: the whole activation a
  (64 × 2048, fetched once), the activation's column tile (64 × 512), the row tiles of the adjacency and of the
  synapse state (512 × 2048 each) and the output's column tile (64 × 512).  The body loads the four inputs whole,
  and stores one value into the output tile: the payload `k0_pay1` of the four loads.  So after the body the output
  buffer holds that payload outright (one store covering the buffer), and every input buffer holds what it held.

  The activation reaches the kernel through TWO windows (the whole array and its column tile).  Both are inputs, so
  the array is only read; the proof data give the first window the left half of the array's share and the second the
  right half.
-/
import proofs.«129554_j18485539242697_1_alg».proof.Proof.Gen.KernelIdeal.Launch
import proofs.«129554_j18485539242697_1_alg».proof.Proof.Gen.KernelIdeal.Skeleton
import proofs.«129554_j18485539242697_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 64 × 2048 buffer, of a 64 × 512 one, of a 512 × 2048 one: the rectangles the body loads and stores through. -/
abbrev rA0 : Rect S64x2048 := Rect.unit (s := S64x2048) ![0, 0] S64x2048.size inb_S64x2048_S64x2048_0_0
abbrev rT0 : Rect S64x512 := Rect.unit (s := S64x512) ![0, 0] S64x512.size inb_S64x512_S64x512_0_0
abbrev rW0 : Rect S512x2048 := Rect.unit (s := S512x2048) ![0, 0] S512x2048.size inb_S512x2048_S512x2048_0_0

/-- What the body leaves in the output tile's buffer, from the four input buffers: its one store. -/
def out0_4 (x0 : Vec F S64x2048 .f32) (x1 : Vec F S64x512 .f32) (x2 x3 : Vec F S512x2048 .f32) : Vec F S64x512 .f32 :=
  View.canon [⟨rT0, k0_pay1 (View.ld x0 rA0) (View.ld x2 rW0) (View.ld x3 rW0) (View.ld x1 rT0)⟩]

/-- The one store is of the whole buffer. -/
theorem cover0_4 (p0 : Vec F S64x512 .f32) (y : S64x512.Idx) :
    ∃ pc ∈ ([⟨rT0, p0⟩] : List (View.Piece (Elt F) S64x512 .f32)), y ∈ pc.1.set :=
  View.cover_of_tiled [⟨rT0, p0⟩] S64x512.size (by rfl) y

set_option maxHeartbeats 1000000 in
/-- The body on whole staging memrefs: the inputs' at contents `x0 … x3`, the output's at anything; it ends with the
    inputs' as they were and the output's at `out0_4` of them. -/
theorem sound_kernel0 (c : Dev nD) (E : Set ℕ) (i : grid0.Coords)
    (arg1 : Memref sig .tc .vmem S64x2048 .f32) (harg1 : arg1.IsWhole) (arg2 : Memref sig .tc .vmem S64x512 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S64x512 .f32) (harg5 : arg5.IsWhole)
    (x0 : Vec F S64x2048 .f32) (x1 : Vec F S64x512 .f32) (x2 x3 : Vec F S512x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__propagate_kernel i arg1 harg1 arg2 harg2 arg3 harg3 arg4 harg4 arg5 harg5) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- Region 0's proof data on core `c`: the arrays as the region finds them; after the body at point `t` each input
    buffer at its block, the output's at `out0_4` of the four input blocks; the class invariant (the scoped rest and
    the generator register, untouched); nothing owed.  The activation's array is read through windows 0 and 1: the
    first holds the left half of its share, the second the right half; the two weight arrays are held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds the window's block at every point, whether the point fetches it or
    not (the whole activation is fetched at the first point only, its block index never moving). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the kernel program: the local step, y = max(x · W_localᵀ, 0), over four column tiles.

  At each of the four grid points the body is handed the whole of x (64 × 2048, fetched once), a row tile of the
  weight (512 × 2048) and the output's column tile (64 × 512).  It loads the two inputs whole and stores one value,
  the payload `k1_pay1` of the two loads, over the whole output tile.
-/
import proofs.«129554_j18485539242697_1_alg».proof.Proof.Gen.KernelIdeal.Launch
import proofs.«129554_j18485539242697_1_alg».proof.Proof.Gen.KernelIdeal.Skeleton
import proofs.«129554_j18485539242697_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S64x2048 := Rect.unit (s := S64x2048) ![0, 0] S64x2048.size inb_S64x2048_S64x2048_0_0
abbrev rT1 : Rect S64x512 := Rect.unit (s := S64x512) ![0, 0] S64x512.size inb_S64x512_S64x512_0_0
abbrev rW1 : Rect S512x2048 := Rect.unit (s := S512x2048) ![0, 0] S512x2048.size inb_S512x2048_S512x2048_0_0

/-- What the body leaves in the output tile's buffer, from the two input buffers: its one store. -/
def out1_2 (x0 : Vec F S64x2048 .f32) (x1 : Vec F S512x2048 .f32) : Vec F S64x512 .f32 :=
  View.canon [⟨rT1, k1_pay1 (View.ld x0 rA1) (View.ld x1 rW1)⟩]

theorem cover1_2 (p0 : Vec F S64x512 .f32) (y : S64x512.Idx) :
    ∃ pc ∈ ([⟨rT1, p0⟩] : List (View.Piece (Elt F) S64x512 .f32)), y ∈ pc.1.set :=
  View.cover_of_tiled [⟨rT1, p0⟩] S64x512.size (by rfl) y

set_option maxHeartbeats 1000000 in
/-- The body on whole staging memrefs: the inputs' at contents `x0`, `x1`, the output's at anything; it ends with
    the inputs' as they were and the output's at `out1_2` of them. -/
theorem sound_kernel1 (c : Dev nD) (E : Set ℕ) (i : grid1.Coords)
    (arg1 : Memref sig .tc .vmem S64x2048 .f32) (harg1 : arg1.IsWhole) (arg2 : Memref sig .tc .vmem S512x2048 .f32) (harg2 : arg2.IsWhole)
    (arg3 : Memref sig .tc .vmem S64x512 .f32) (harg3 : arg3.IsWhole)
    (x0 : Vec F S64x2048 .f32) (x1 : Vec F S512x2048 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__local_kernel i arg1 harg1 arg2 harg2 arg3 harg3) K := by
  simp only [cc1__local_kernel_eq_skeleton]; unfold cc1__local_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- Region 1's proof data on core `c`: the arrays as the region finds them; after the body at point `t` each input
    buffer at its block, the output's at `out1_2` of the two input blocks; the class invariant; nothing owed; the
    two input arrays held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the kernel program: the read-out, in one grid point.

  The body is handed seven input buffers whole — the activation y (64 × 2048), the layer norm's gain and bias as
  rows (1 × 2048 each), the read-out weight (256 × 2048) and bias (1 × 256), the classifier's weight (2 × 256) and
  bias (1 × 2) — and the output buffer (64 × 2).  It loads the seven inputs and stores one value over the whole
  output: the classifier's payload `k2_pay1` of the hidden layer (`k2_pay2` of the first five loads), the
  classifier's weight (`k2_pay3` of the sixth) and the seventh load.
-/
import proofs.«129554_j18485539242697_1_alg».proof.Proof.Gen.KernelIdeal.Launch
import proofs.«129554_j18485539242697_1_alg».proof.Proof.Gen.KernelIdeal.Skeleton
import proofs.«129554_j18485539242697_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at the grid's point, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S64x2048 := Rect.unit (s := S64x2048) ![0, 0] S64x2048.size inb_S64x2048_S64x2048_0_0
abbrev rG2 : Rect S1x2048 := Rect.unit (s := S1x2048) ![0, 0] S1x2048.size inb_S1x2048_S1x2048_0_0
abbrev rR2 : Rect S256x2048 := Rect.unit (s := S256x2048) ![0, 0] S256x2048.size inb_S256x2048_S256x2048_0_0
abbrev rB2 : Rect S1x256 := Rect.unit (s := S1x256) ![0, 0] S1x256.size inb_S1x256_S1x256_0_0
abbrev rC2 : Rect S2x256 := Rect.unit (s := S2x256) ![0, 0] S2x256.size inb_S2x256_S2x256_0_0
abbrev rD2 : Rect S1x2 := Rect.unit (s := S1x2) ![0, 0] S1x2.size inb_S1x2_S1x2_0_0
abbrev rO2 : Rect S64x2 := Rect.unit (s := S64x2) ![0, 0] S64x2.size inb_S64x2_S64x2_0_0

/-- What the body leaves in the output buffer, from the seven input buffers: its one store. -/
def out2_7 (x0 : Vec F S64x2048 .f32) (x1 : Vec F S1x2048 .f32) (x2 : Vec F S1x2048 .f32) (x3 : Vec F S256x2048 .f32) (x4 : Vec F S1x256 .f32) (x5 : Vec F S2x256 .f32) (x6 : Vec F S1x2 .f32) : Vec F S64x2 .f32 :=
  View.canon [⟨rO2, k2_pay1 (k2_pay2 (View.ld x0 rA2) (View.ld x1 rG2) (View.ld x2 rG2) (View.ld x3 rR2) (View.ld x4 rB2)) (k2_pay3 (View.ld x5 rC2)) (View.ld x6 rD2)⟩]

theorem cover2_7 (p0 : Vec F S64x2 .f32) (y : S64x2.Idx) :
    ∃ pc ∈ ([⟨rO2, p0⟩] : List (View.Piece (Elt F) S64x2 .f32)), y ∈ pc.1.set :=
  View.cover_of_tiled [⟨rO2, p0⟩] S64x2.size (by rfl) y

set_option maxHeartbeats 1000000 in
/-- The body on whole staging memrefs: the inputs' at contents `x0 … x6`, the output's at anything; it ends with the
    inputs' as they were and the output's at `out2_7` of them. -/
theorem sound_kernel2 (c : Dev nD) (E : Set ℕ) (i : grid2.Coords)
    (arg1 : Memref sig .tc .vmem S64x2048 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S2x256 .f32) (harg6 : arg6.IsWhole) (arg7 : Memref sig .tc .vmem S1x2 .f32) (harg7 : arg7.IsWhole) (arg8 : Memref sig .tc .vmem S64x2 .f32) (harg8 : arg8.IsWhole)
    (x0 : Vec F S64x2048 .f32) (x1 : Vec F S1x2048 .f32) (x2 : Vec F S1x2048 .f32) (x3 : Vec F S256x2048 .f32) (x4 : Vec F S1x256 .f32) (x5 : Vec F S2x256 .f32) (x6 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__readout_kernel i arg1 harg1 arg2 harg2 arg3 harg3 arg4 harg4 arg5 harg5 arg6 harg6 arg7 harg7 arg8 harg8) K := by
  simp only [cc2__readout_kernel_eq_skeleton]; unfold cc2__readout_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The proof data -/

/-- Region 2's proof data on core `c`: the arrays as the region finds them; after the body each input buffer at its
    block (the whole array), the output's at `out2_7` of the seven; the class invariant; nothing owed; every input
    array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Frame.lean ====
/-
  The three regions of the kernel program as segments of @main, and the program's frame.

  @main is: host operations (the last token's index, wrapped; the gather of embedding rows), the first rectifier's
  three operations, region 0, region 1, four reshapes, region 2.  Between two items the core holds every unscoped
  buffer whole, at contents that are a fold from the launch memory: a host stretch applies its operations, a region
  changes its one output array.  Region 0 writes main_v10, region 1 main_v11, region 2 main_v16; what each leaves
  there is what its pipeline's write-backs leave (the proof data's `arrAt … N`), read off the contents the region was
  entered with.

  Region 0 reads the activation main_v9 through two windows.  At its entry the buffer, held whole, is split into the
  two halves of its share, one per window; both windows only read it, so at the exit each half still holds the entry
  contents and the halves are joined again.
-/
import proofs.«129554_j18485539242697_1_alg».proof.Proof.KI.Reg0
import proofs.«129554_j18485539242697_1_alg».proof.Proof.KI.Reg1
import proofs.«129554_j18485539242697_1_alg».proof.Proof.KI.Reg2
import proofs.«129554_j18485539242697_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## Region 0's arrays: one buffer behind two windows -/

section Shared

variable (V : (c : Dev nD) → (b : Ref sig .tc) → Buf (Elt F) ((c : Thread nD τ).loc b))

/-- The distinct buffers behind region 0's five windows are four: the activation, the adjacency, the synapse state
    and the output. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v9) ↦{fullShare} W main_v9) ∗ (((c : Thread nD τ).loc main_arg2) ↦{fullShare} W main_arg2)
          ∗ (((c : Thread nD τ).loc main_arg3) ↦{fullShare} W main_arg3) ∗ (((c : Thread nD τ).loc main_v10) ↦{fullShare} W main_v10)) := by
  unfold Pipeline.arrBufs
  exact bigSep_eq_bigSepL_of_eq [main_v9, main_arg2, main_arg3, main_v10] (by decide) (by decide) _

/-- ENTRY.  The four buffers, each held whole at the entry contents, make the proof data's five arrays at entry: the
    activation's buffer is split into the two halves of its share, one per window. -/
theorem arrays_of_arrBufs0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq]
  unfold Dat.arrays
  rw [bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have s0 : (dat0 V c).share 0 = fullShare.left := rfl
  have s1 : (dat0 V c).share 1 = fullShare.right := rfl
  have s2 : (dat0 V c).share 2 = fullShare := rfl
  have s3 : (dat0 V c).share 3 = fullShare := rfl
  have s4 : (dat0 V c).share 4 = fullShare := rfl
  simp only [h0, h1, h2, h3, h4, s0, s1, s2, s3, s4]
  iintro ⟨Ha, H2, H3, H10⟩
  ihave Ha' := (pointsTo_share (PosShare.mem_left_op_right fullShare)).1 $$ Ha
  icases Ha' with ⟨Hl, Hr⟩
  isplitl [Hl]; · iexact Hl
  isplitl [Hr]; · iexact Hr
  isplitl [H2]; · iexact H2
  isplitl [H3]; · iexact H3
  iexact H10

/-- EXIT.  The five arrays at what the pipeline leaves make the four buffers again, at any contents `V'` that agree
    with the entry contents on the three arrays the region only reads and hold, at the output, what the write-backs
    leave: the two halves of the activation's share, each still at the entry contents, are joined. -/
theorem arrBufs_of_arrays0 (c : Dev nD) (V' : (b : Ref sig .tc) → Buf (Elt F) ((c : Thread nD τ).loc b))
    (h9 : V' main_v9 = V c main_v9) (h2' : V' main_arg2 = V c main_arg2) (h3' : V' main_arg3 = V c main_arg3)
    (h10 : V' main_v10 = (dat0 V c).arrAt 4 cfg0.N) :
    (dat0 V c).arrays ((dat0 V c).arrAt · cfg0.N)
      ⊢ (Pipeline.arrBufs (Ix := Unit) (Name := ℕ) (U := UR sig nD τ) (Lvl := ℕ) spec0 c V' : sProp 𝕄) := by
  rw [arrBufs0_eq, h9, h2', h3', h10]
  unfold Dat.arrays
  rw [bigSep_W0]
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have s0 : (dat0 V c).share 0 = fullShare.left := rfl
  have s1 : (dat0 V c).share 1 = fullShare.right := rfl
  have s2 : (dat0 V c).share 2 = fullShare := rfl
  have s3 : (dat0 V c).share 3 = fullShare := rfl
  have s4 : (dat0 V c).share 4 = fullShare := rfl
  have e0 : (dat0 V c).arrAt 0 cfg0.N = V c main_v9 := ((dat0 V c).arrAt_in 0 rfl _).trans (A_eq0 V c 0)
  have e1 : (dat0 V c).arrAt 1 cfg0.N = V c main_v9 := ((dat0 V c).arrAt_in 1 rfl _).trans (A_eq0 V c 1)
  have e2 : (dat0 V c).arrAt 2 cfg0.N = V c main_arg2 := ((dat0 V c).arrAt_in 2 rfl _).trans (A_eq0 V c 2)
  have e3 : (dat0 V c).arrAt 3 cfg0.N = V c main_arg3 := ((dat0 V c).arrAt_in 3 rfl _).trans (A_eq0 V c 3)
  simp only [h0, h1, h2, h3, h4, s0, s1, s2, s3, s4, e0, e1, e2, e3]
  iintro ⟨Hl, Hr, H2, H3, H10⟩
  isplitl [Hl Hr]
  · iapply (pointsTo_share (PosShare.mem_left_op_right fullShare)).2
    isplitl [Hl]; · iexact Hl
    iexact Hr
  isplitl [H2]; · iexact H2
  isplitl [H3]; · iexact H3
  iexact H10

end Shared

/-! ## The buffers' contents between @main's items, each region's output named -/

section Run

variable (m : (ℓ : Loc nD τ sig) → Buf (Elt F) ℓ)

/-- A core's buffer contents read at the TensorCore's references: what a region's proof data take. -/
abbrev refs (W : Dev nD → Valuation τ sig (Elt F)) : (c : Dev nD) → (b : Ref sig .tc) → Buf (Elt F) ((c : Thread nD τ).loc b) :=
  fun c b => W c b

/-- What region 0's write-backs leave in main_v10, from the contents it is entered with. -/
def x10 (c : Dev nD) : Buf (Elt F) ((c : Thread nD τ).loc main_v10) := (dat0 (refs (V2 m)) c).arrAt 4 cfg0.N
/-- After region 0: as before it, main_v10 at what the region leaves. -/
def U3 (c : Dev nD) : Valuation τ sig (Elt F) := Function.update (V2 m c) main_v10 (x10 m c)
/-- What region 1's write-backs leave in main_v11. -/
def x11 (c : Dev nD) : Buf (Elt F) ((c : Thread nD τ).loc main_v11) := (dat1 (refs (U3 m)) c).arrAt 2 cfg1.N
/-- After region 1. -/
def U4 (c : Dev nD) : Valuation τ sig (Elt F) := Function.update (U3 m c) main_v11 (x11 m c)
/-- After the four reshapes. -/
abbrev U5 (c : Dev nD) : Valuation τ sig (Elt F) := StableHlo.after hostOps2 (U4 m c)
/-- What region 2's write-back leaves in main_v16: the program's result. -/
def x16 (c : Dev nD) : Buf (Elt F) ((c : Thread nD τ).loc main_v16) := (dat2 (refs (U5 m)) c).arrAt 7 cfg2.N
/-- After region 2: the contents at the return. -/
def U6 (c : Dev nD) : Valuation τ sig (Elt F) := Function.update (U5 m c) main_v16 (x16 m c)

/-- What the regions leave, as the family the generated valuations are written over. -/
def outs : Outs (F := F) := fun J r c => if J = 3 then U3 m c r else if J = 4 then U4 m c r else U6 m c r

theorem V3_eq (c : Dev nD) : V3 m (outs m) c = U3 m c := by
  show Function.update (V2 m c) main_v10 (outs m 3 main_v10 c) = _
  unfold outs U3; rw [if_pos rfl, Function.update_self]
theorem V4_eq (c : Dev nD) : V4 m (outs m) c = U4 m c := by
  show Function.update (V3 m (outs m) c) main_v11 (outs m 4 main_v11 c) = _
  rw [V3_eq]; unfold outs U4; rw [if_neg (by decide), if_pos rfl, Function.update_self]
theorem V5_eq (c : Dev nD) : V5 m (outs m) c = U5 m c := by
  show StableHlo.after hostOps2 (V4 m (outs m) c) = _
  rw [V4_eq]
theorem V6_eq (c : Dev nD) : V6 m (outs m) c = U6 m c := by
  show Function.update (V5 m (outs m) c) main_v16 (outs m 6 main_v16 c) = _
  rw [V5_eq]; unfold outs U6; rw [if_neg (by decide), if_neg (by decide), Function.update_self]
theorem V2_eq (c : Dev nD) : V2 m c = V2 m c := rfl

/-- Off main_v10 region 0 changes nothing; off main_v11 region 1 changes nothing; off main_v16 region 2 changes nothing. -/
theorem U3_of_ne (c : Dev nD) (b : Ref sig .tc) (h : b ≠ main_v10) : U3 m c b = V2 m c b :=
  Function.update_of_ne (StableHlo.devRef_ne_of_ne h : (Proc.devRef .tc b : DevRef τ sig) ≠ Proc.devRef .tc main_v10) ..
theorem U4_of_ne (c : Dev nD) (b : Ref sig .tc) (h : b ≠ main_v11) : U4 m c b = U3 m c b :=
  Function.update_of_ne (StableHlo.devRef_ne_of_ne h : (Proc.devRef .tc b : DevRef τ sig) ≠ Proc.devRef .tc main_v11) ..
theorem U6_of_ne (c : Dev nD) (b : Ref sig .tc) (h : b ≠ main_v16) : U6 m c b = U5 m c b :=
  Function.update_of_ne (StableHlo.devRef_ne_of_ne h : (Proc.devRef .tc b : DevRef τ sig) ≠ Proc.devRef .tc main_v16) ..
theorem U3_v10 (c : Dev nD) : U3 m c main_v10 = x10 m c := Function.update_self ..
theorem U4_v11 (c : Dev nD) : U4 m c main_v11 = x11 m c := Function.update_self ..
theorem U6_v16 (c : Dev nD) : U6 m c main_v16 = x16 m c := Function.update_self ..

/-! ## The proof data family and the thread states -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (refs (V2 m)) c
  | ⟨1, _⟩ => fun c => dat1 (refs (U3 m)) c
  | ⟨2, _⟩ => fun c => dat2 (refs (U5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- At region 1's exit each of its arrays holds what the pipeline leaves, every other buffer what it held at entry. -/
theorem hF1 (c : Dev nD) (w : Fin cfg1.W) : (pdats m 1 c).arrAt w cfg1.N = refs (U4 m) c (Pipeline.arrRef spec1 w) := by
  match w with
  | ⟨0, _⟩ => exact (((dat1 (refs (U3 m)) c).arrAt_in 0 rfl _).trans (A_eq1 (refs (U3 m)) c 0)).trans (U4_of_ne m c main_v10 (by decide)).symm
  | ⟨1, _⟩ => exact (((dat1 (refs (U3 m)) c).arrAt_in 1 rfl _).trans (A_eq1 (refs (U3 m)) c 1)).trans (U4_of_ne m c main_arg4 (by decide)).symm
  | ⟨2, _⟩ => exact (U4_v11 m c).symm
theorem hrest1 (c : Dev nD) : ∀ b, b ∉ Finset.univ.image (Pipeline.arrRef spec1) → refs (U4 m) c b = refs (U3 m) c b :=
  fun b hb => U4_of_ne m c b fun e => hb (Finset.mem_image.mpr ⟨2, Finset.mem_univ _, e.symm⟩)

/-- The same at region 2's exit. -/
theorem hF2 (c : Dev nD) (w : Fin cfg2.W) : (pdats m 2 c).arrAt w cfg2.N = refs (U6 m) c (Pipeline.arrRef spec2 w) := by
  match w with
  | ⟨0, _⟩ => exact (((dat2 (refs (U5 m)) c).arrAt_in 0 rfl _).trans (A_eq2 (refs (U5 m)) c 0)).trans (U6_of_ne m c main_v11 (by decide)).symm
  | ⟨1, _⟩ => exact (((dat2 (refs (U5 m)) c).arrAt_in 1 rfl _).trans (A_eq2 (refs (U5 m)) c 1)).trans (U6_of_ne m c main_v12 (by decide)).symm
  | ⟨2, _⟩ => exact (((dat2 (refs (U5 m)) c).arrAt_in 2 rfl _).trans (A_eq2 (refs (U5 m)) c 2)).trans (U6_of_ne m c main_v13 (by decide)).symm
  | ⟨3, _⟩ => exact (((dat2 (refs (U5 m)) c).arrAt_in 3 rfl _).trans (A_eq2 (refs (U5 m)) c 3)).trans (U6_of_ne m c main_arg7 (by decide)).symm
  | ⟨4, _⟩ => exact (((dat2 (refs (U5 m)) c).arrAt_in 4 rfl _).trans (A_eq2 (refs (U5 m)) c 4)).trans (U6_of_ne m c main_v14 (by decide)).symm
  | ⟨5, _⟩ => exact (((dat2 (refs (U5 m)) c).arrAt_in 5 rfl _).trans (A_eq2 (refs (U5 m)) c 5)).trans (U6_of_ne m c main_arg9 (by decide)).symm
  | ⟨6, _⟩ => exact (((dat2 (refs (U5 m)) c).arrAt_in 6 rfl _).trans (A_eq2 (refs (U5 m)) c 6)).trans (U6_of_ne m c main_v15 (by decide)).symm
  | ⟨7, _⟩ => exact (U6_v16 m c).symm
theorem hrest2 (c : Dev nD) : ∀ b, b ∉ Finset.univ.image (Pipeline.arrRef spec2) → refs (U6 m) c b = refs (U5 m) c b :=
  fun b hb => U6_of_ne m c b fun e => hb (Finset.mem_image.mpr ⟨7, Finset.mem_univ _, e.symm⟩)

/-! ## Region 0 at its entry and exit -/

/-- Every unscoped buffer at the contents before region 0 gives the region's five arrays at entry and the rest. -/
theorem entry0 (c : Dev nD) :
    (StableHlo.held (c : Thread nD τ) (Pipeline.ucRefs τ sig) (V2 m c) : sProp 𝕄)
      ⊢ iprop((dat0 (refs (V2 m)) c).arrays ((dat0 (refs (V2 m)) c).arrAt · 0)
          ∗ Pipeline.unscopedRest (Ix := Unit) (Name := ℕ) (U := UR sig nD τ) (Lvl := ℕ) spec0 c (refs (V2 m) c)) := by
  rw [← Pipeline.unscopedBufs_held (Ix := Unit) (Name := ℕ) (U := UR sig nD τ) (Lvl := ℕ) c (V2 m c),
    Pipeline.unscopedBufs_split₀ cfgs (0 : Fin 3) winFacts₀0.arr_unscoped c]
  exact sep_mono (arrays_of_arrBufs0 (refs (V2 m)) c) .rfl

/-- The five arrays at what the pipeline leaves and the rest make every unscoped buffer at the contents after region 0. -/
theorem exit0 (c : Dev nD) :
    iprop((dat0 (refs (V2 m)) c).arrays ((dat0 (refs (V2 m)) c).arrAt · cfg0.N)
        ∗ Pipeline.unscopedRest (Ix := Unit) (Name := ℕ) (U := UR sig nD τ) (Lvl := ℕ) spec0 c (refs (V2 m) c))
      ⊢ (StableHlo.held (c : Thread nD τ) (Pipeline.ucRefs τ sig) (U3 m c) : sProp 𝕄) := by
  rw [← Pipeline.unscopedBufs_held (Ix := Unit) (Name := ℕ) (U := UR sig nD τ) (Lvl := ℕ) c (U3 m c),
    Pipeline.unscopedBufs_split₀ cfgs (0 : Fin 3) winFacts₀0.arr_unscoped c]
  refine sep_mono (arrBufs_of_arrays0 (refs (V2 m)) c (refs (U3 m) c) (U3_of_ne m c main_v9 (by decide))
    (U3_of_ne m c main_arg2 (by decide)) (U3_of_ne m c main_arg3 (by decide)) (U3_v10 m c)) (Entails.of_eq ?_)
  unfold Pipeline.unscopedRest
  exact bigSep_congr fun b hb => by
    have e : U3 m c b = V2 m c b := U3_of_ne m c b fun e =>
      (Finset.mem_sdiff.mp hb).2 (Finset.mem_image.mpr ⟨4, Finset.mem_univ _, e.symm⟩)
    beta_reduce
    rw [e]

set_option backward.isDefEq.respectTransparency.types false in
/-- Region 0 over the thread states.  Its windows share an array, so its arrays are split out of the unscoped buffers
    and put back by `entry0` and `exit0`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (refs (V2 m)) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (refs (V2 m) c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V3_eq]
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread states: entered with every unscoped buffer at the contents before it, left with them
    at the contents after it; its arrays are split out of the unscoped buffers and put back with the output at what the
    write-backs leave; the generator register passes through the class invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (refs (U3 m)) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (refs (U3 m) c)
  hentry c := by
    rw [Pipeline.ownSems0_none, V3_eq]
    have hsplit := Pipeline.arrays_of_unscopedBufs (p := 1) (pcfgs (F := F)) adm (pdats m) launch1.win launch1.arr_whole c
      ((pdats m 1 c).share_full fun _ => rfl) (refs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (refs (U3 m) c) (refs (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread states: entered with every unscoped buffer at the contents before it, left with them
    at the contents after it; its arrays are split out of the unscoped buffers and put back with the output at what the
    write-backs leave; the generator register passes through the class invariant; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (refs (U5 m)) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (refs (U5 m) c)
  hentry c := by
    rw [Pipeline.ownSems0_none, V5_eq]
    have hsplit := Pipeline.arrays_of_unscopedBufs (p := 2) (pcfgs (F := F)) adm (pdats m) launch2.win launch2.arr_whole c
      ((pdats m 2 c).share_full fun _ => rfl) (refs (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (refs (U5 m) c) (refs (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch element: the pipelines' cells and duty tokens, nothing else. -/
abbrev u₀ : UR sig nD τ := initOf (Pipeline.cells cfgs cellOf_inj) (Pipeline.launchToks cfgs cellOf_inj)

theorem launch_own :
    (ownU (u₀ : UR sig nD τ) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the generator register at its launch state and the empty dues make `R`. -/
theorem rest_core (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ R c := by
  iintro ⟨-, HO, -, Hp, -⟩
  isplitl [Hp]; · iexists _; iexact Hp
  iexists ∅; iexact HO

/-- At launch every core's generator register and its empty dues make the rest state `R`. -/
theorem rest_init (ρ : Dev nD → PrngReg) :
    iprop((bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R c) : sProp 𝕄) := by
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ bigSep Finset.univ (fun c : Dev nD => R c) :=
    bigSep_mono fun c _ => rest_core ρ c
  iintro ⟨H, -⟩
  imodintro
  iapply h1
  iexact H

theorem rest_end (c : Dev nD) : (R c : sProp 𝕄) ⊢ iprop(∃ W, owes (c : Thread nD τ) (0 : CellTallies nD τ sig Unit) W) := by
  iintro ⟨-, HO⟩; iexact HO

/-- THE FRAME of the kernel program at any float instance: every weakly fair execution of @main from a memory with zero
    counters terminates, nothing faulting, and every argument array ends as launched — the generated conditional frame
    at the three regions' records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () 𝒱₀ L lv (fun _ _ => rfl) ρ (outs m) (pdats m) 0 (fun _ => (BI.emp : sProp 𝕄)) u₀ launch_own
    (fun _ c => R c) (rest_init ρ) rest_end
    (reg0 m) (fun _ => .rfl) (fun _ => .rfl) (reg1 m) (fun _ => .rfl) (fun _ => .rfl) (reg2 m) (fun _ => .rfl) (fun _ => .rfl)

end Run

end Cert.KernelIdeal.Hand

end
-- ==== Proof.KI.Run.lean ====
/-
  The kernel program's run with its result named.

  The frame says only that the argument arrays end as launched.  Here the same launch over the same segments and
  region records is read with a stronger post: at the return EVERY unscoped buffer of a core holds the last
  contents of the fold through @main.  In particular the result buffer main_v16 holds what region 2's write-back
  leaves (`x16`), which is read off the contents region 2 is entered with, and so on back to the launch memory.
-/
import proofs.«129554_j18485539242697_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Two families held on every core are the family of their pairs held on every core. -/
theorem bigSep_join (A B : Dev nD → sProp 𝕄) :
    iprop(bigSep Finset.univ A ∗ bigSep Finset.univ B) ⊢ bigSep Finset.univ (fun c => iprop(A c ∗ B c)) := by
  rw [bigSep_sep']

set_option backward.isDefEq.respectTransparency.types false in
/-- Every weakly fair execution of @main from a memory with zero counters terminates, nothing faulting, and at the
    return every unscoped buffer of every core holds the last contents of the fold through @main's items. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m))
    (fun c Q => by
      rewrite [main_chain c, Seg.run_eq_chain,
        show (segs m (outs m) 𝒱₀ L lv (fun _ c => R c) () (pdats m) (reg0 m) (reg1 m) (reg2 m) c).map Seg.prog = [
          StableHlo.seq hostOps0,
          StableHlo.seq hostOps0_1,
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄)) u₀ launch_own
    (T₀ := fun c => iprop(StableHlo.held (c : Thread nD τ) (Pipeline.ucRefs τ sig) (V0 m c) ∗ R c))
    (Tₙ := fun c => StableHlo.held (c : Thread nD τ) (Pipeline.ucRefs τ sig) (V6 m (outs m) c))
    (hch := fun c => ⟨.rfl, .rfl, .rfl, .rfl, .rfl, .rfl, sep_mono .rfl (rest_end c)⟩)
    (hinit := ?_) (QY := fun c s => ∀ b ∈ Pipeline.ucRefs τ sig, s.mem (((c : Thread nD τ)).1, b) = V6 m (outs m) c b)
    (hfin := fun c s' => ?_) (hQ := fun _ h => h)
  · -- the launch: the unscoped buffers are held at the launch contents; the rest makes `R` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_init ρ) $$ [Hr Hla] with HE
    · isplitl [Hr]; · iexact Hr
      iexact Hla
    imodintro
    iapply (bigSep_join (fun c : Dev nD => StableHlo.held (c : Thread nD τ) (Pipeline.ucRefs τ sig) (V0 m c)) (fun c : Dev nD => R c))
    isplitl [Hh]; · iexact Hh
    iexact HE
  · -- the end: every buffer read off the last contents
    unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact h
    · iexact HSI

/-- The run with the result named and the arguments kept: main_v16 ends at what region 2's write-back leaves. -/
theorem run_value (ρ : Dev nD → PrngReg) :
    θ_run defs (onTc (τ := τ) (main (F := F))) ⟨m, fun _ => 0, ρ⟩ (fun r => ∀ c : Dev nD,
      r.2.mem ((c.tc : Thread nD τ).loc main_v16) = x16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v16 (by decide))).trans ((congrFun (V6_eq m c) _).trans (U6_v16 m c)),
      (h c _ (mem_uc main_arg0 (by decide))).trans (V6_main_arg0 m (outs m) c),
      (h c _ (mem_uc main_arg1 (by decide))).trans (V6_main_arg1 m (outs m) c),
      (h c _ (mem_uc main_arg2 (by decide))).trans (V6_main_arg2 m (outs m) c),
      (h c _ (mem_uc main_arg3 (by decide))).trans (V6_main_arg3 m (outs m) c),
      (h c _ (mem_uc main_arg4 (by decide))).trans (V6_main_arg4 m (outs m) c),
      (h c _ (mem_uc main_arg5 (by decide))).trans (V6_main_arg5 m (outs m) c),
      (h c _ (mem_uc main_arg6 (by decide))).trans (V6_main_arg6 m (outs m) c),
      (h c _ (mem_uc main_arg7 (by decide))).trans (V6_main_arg7 m (outs m) c),
      (h c _ (mem_uc main_arg8 (by decide))).trans (V6_main_arg8 m (outs m) c),
      (h c _ (mem_uc main_arg9 (by decide))).trans (V6_main_arg9 m (outs m) c),
      (h c _ (mem_uc main_arg10 (by decide))).trans (V6_main_arg10 m (outs m) c)⟩)
    (run_all m ρ)

end Cert.KernelIdeal.Hand

end
-- ==== Proof.Spec.lean ====
/-
  The network the two programs compute, as exact functions on the extended reals.

  From rectified embedding rows a (64 × 2048), with adjacency and synapse state (2048 × 2048 each), a local weight
  (2048 × 2048), a layer norm's gain and bias (2048), a read-out weight (256 × 2048) and bias (256) and a classifier's
  weight (2 × 256) and bias (2):

    x[p,q] = a[p,q] + ½ · Σ_k a[p,k] · (adj[q,k] · syn[q,k])                       (`propagate`)
    y[p,q] = max(Σ_k x[p,k] · W[q,k], 0)                                           (`localStep`)
    μ[p]   = (Σ_k y[p,k]) / 2048,   d[p,q] = y[p,q] − μ[p],   v[p] = (Σ_k d[p,k]²) / 2048
    n[p,q] = d[p,q] · rsqrt(v[p] + ε) · g[q] + b[q]                                (`normed`)
    h[p,j] = max(Σ_k n[p,k] · R[j,k] + r[j], 0)                                    (`hidden`)
    o[p,l] = Σ_j h[p,j] · C[l,j] + c[l]                                            (`logits`)

  Every array is given curried over its coordinates; ½, 2048 and ε are the values of the float words the programs
  print (the same words in both programs, never evaluated here).  Each step takes the previous step's result as an
  argument, so a stage of either program is compared with one step at a time.
-/
import Idealize.ShloMosaic.PureOps.Ideal
import Idealize.ShloMosaic.PureOps.Ideal.Laws

noncomputable section

namespace Cert.Spec

open Idealize.ShloMosaic

/-- The words ½, 2048 and ε = f32(1e-5) as extended reals. -/
def half : EReal := Ideal.ofBits .f32 0x3F000000#32
def width : EReal := Ideal.ofBits .f32 0x45000000#32
def eps : EReal := Ideal.ofBits .f32 0x3727C5AC#32

/-- x = a + ½ · a · (adj ∘ syn)ᵀ. -/
def propagate (a : Fin 64 → Fin 2048 → EReal) (adj syn : Fin 2048 → Fin 2048 → EReal) (p : Fin 64) (q : Fin 2048) : EReal :=
  a p q + half * ∑ k : Fin 2048, a p k * (adj q k * syn q k)

/-- y = max(x · Wᵀ, 0). -/
def localStep (x : Fin 64 → Fin 2048 → EReal) (w : Fin 2048 → Fin 2048 → EReal) (p : Fin 64) (q : Fin 2048) : EReal :=
  max (∑ k : Fin 2048, x p k * w q k) 0

/-- A row's mean, the row centred, and the centred row's mean square. -/
def rowMean (y : Fin 64 → Fin 2048 → EReal) (p : Fin 64) : EReal := Ideal.div (∑ k : Fin 2048, y p k) width
def centred (y : Fin 64 → Fin 2048 → EReal) (p : Fin 64) (q : Fin 2048) : EReal := y p q - rowMean y p
def rowVar (y : Fin 64 → Fin 2048 → EReal) (p : Fin 64) : EReal :=
  Ideal.div (∑ k : Fin 2048, centred y p k * centred y p k) width

/-- The layer norm: (y − μ) · rsqrt(v + ε) · g + b, in that order of operations. -/
def normed (y : Fin 64 → Fin 2048 → EReal) (g b : Fin 2048 → EReal) (p : Fin 64) (q : Fin 2048) : EReal :=
  centred y p q * Ideal.rsqrt (rowVar y p + eps) * g q + b q

/-- The read-out: max(n · Rᵀ + r, 0). -/
def hidden (n : Fin 64 → Fin 2048 → EReal) (R : Fin 256 → Fin 2048 → EReal) (r : Fin 256 → EReal) (p : Fin 64) (j : Fin 256) : EReal :=
  max (∑ k : Fin 2048, n p k * R j k + r j) 0

/-- The classifier: h · Cᵀ + c. -/
def logits (h : Fin 64 → Fin 256 → EReal) (C : Fin 2 → Fin 256 → EReal) (c : Fin 2 → EReal) (p : Fin 64) (l : Fin 2) : EReal :=
  ∑ j : Fin 256, h p j * C l j + c l

/-- The read-out stage whole, from the activation y: what the third region and the reference's tail compute. -/
def readout (y : Fin 64 → Fin 2048 → EReal) (g b : Fin 2048 → EReal) (R : Fin 256 → Fin 2048 → EReal) (r : Fin 256 → EReal)
    (C : Fin 2 → Fin 256 → EReal) (c : Fin 2 → EReal) (p : Fin 64) (l : Fin 2) : EReal :=
  logits (hidden (normed y g b) R r) C c p l

/-- The whole network from the rectified embedding rows. -/
def net (a : Fin 64 → Fin 2048 → EReal) (adj syn w : Fin 2048 → Fin 2048 → EReal) (g b : Fin 2048 → EReal)
    (R : Fin 256 → Fin 2048 → EReal) (r : Fin 256 → EReal) (C : Fin 2 → Fin 256 → EReal) (c : Fin 2 → EReal)
    (p : Fin 64) (l : Fin 2) : EReal :=
  readout (localStep (propagate a adj syn) w) g b R r C c p l

end Cert.Spec

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KI.Val0.lean ====
/-
  What region 0 leaves in its output array.

  The region walks four column tiles of a 64 × 2048 output.  At tile t its body holds the whole activation a
  (64 × 2048), a's column tile t (64 × 512) and row tile t of the adjacency and of the synapse state (512 × 2048
  each), and stores into the output's column tile t the value  a_tile + ½ · a · (adj_tile ∘ syn_tile)ᵀ.  Read entry by
  entry, tile t at (p, j) is  a[p, 512 t + j] + ½ · Σ_k a[p, k] · (adj[512 t + j, k] · syn[512 t + j, k]),  which is
  entry (p, 512 t + j) of one function of the three arrays: the propagation step of the specification.  The four
  tiles cover the output, so the output array ends holding that function everywhere.
-/
import proofs.«129554_j18485539242697_1_alg».proof.Proof.KI.Reg0
import proofs.«129554_j18485539242697_1_alg».proof.Proof.Spec
import proofs.«129554_j18485539242697_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The body's stored value at an entry -/

/-- A 64 × 2048 by 2048 × 512 product into the zero tile, at entry (p, j): the sum over the 2048 inner positions. -/
theorem tile_product (a : FVec Ideal S64x2048 .bf16) (b : FVec Ideal S2048x512 .bf16) (p : Fin 64) (j : Fin 512) :
    matmul dot_S64x2048_S2048x512_S64x512_1_0_0_1_n_n none a b (constant (F := Ideal) S64x512 .f32 0x00000000#32) (ix2 p j)
      = ∑ k : Fin 2048, a (ix2 p k) * b (ix2 k j) :=
  PlainDot.matmul_zero_apply 64 2048 512 a b p j

/-- The transpose of a 512 × 2048 tile at (k, j) is the tile at (j, k). -/
theorem tile_transpose {φ : FTy} (y : FVec Ideal S512x2048 φ) (k : Fin 2048) (j : Fin 512) :
    transpose S2048x512 [1, 0] y transposes_S512x2048_p1_0_S2048x512 (ix2 k j) = y (ix2 j k) :=
  transpose_apply [1, 0] y transposes_S512x2048_p1_0_S2048x512 (ix2 k j) (ix2 j k) fun b => by
    match b with
    | ⟨0, _⟩ => rfl
    | ⟨1, _⟩ => rfl

/-- The body's stored value at entry (p, j) of the tile. -/
theorem propagate_tile (x0 : Vec Ideal S64x2048 .f32) (x1 : Vec Ideal S64x512 .f32) (x2 x3 : Vec Ideal S512x2048 .f32)
    (p : Fin 64) (j : Fin 512) :
    k0_pay1 x0 x2 x3 x1 (ix2 p j)
      = x1 (ix2 p j) + Ideal.ofBits .f32 0x3F000000#32 * ∑ k : Fin 2048, x0 (ix2 p k) * (x2 (ix2 j k) * x3 (ix2 j k)) := by
  unfold k0_pay1
  rw [addf_apply, mulf_apply, broadcast_apply, shapeCast_self, shapeCast_self, tile_product]
  refine congrArg (fun s => x1 (ix2 p j) + Ideal.ofBits .f32 0x3F000000#32 * s) (Finset.sum_congr rfl fun k _ => ?_)
  rw [tile_transpose]
  rfl

/-! ## The output tile after the body -/

theorem offsets_zero : (![0, 0] : Fin 2 → Nat) = fun _ => 0 := funext fun a => by fin_cases a <;> rfl

/-- The body loads its four inputs whole and stores once over the whole tile: the tile ends at the stored value. -/
theorem out0_4_eq (x0 : Vec Ideal S64x2048 .f32) (x1 : Vec Ideal S64x512 .f32) (x2 x3 : Vec Ideal S512x2048 .f32) :
    out0_4 x0 x1 x2 x3 = k0_pay1 x0 x2 x3 x1 := by
  unfold out0_4
  rw [View.canon_unit_zero offsets_zero]
  simp only [View.ld_unit_zero (S := S64x2048) offsets_zero, View.ld_unit_zero (S := S64x512) offsets_zero,
    View.ld_unit_zero (S := S512x2048) offsets_zero]

/-! ## Where each window's block sits in its array -/

/-- The block indices at grid point t: the whole activation stays at (0, 0); the activation's and the output's column
    tiles are at (0, t); the two weights' row tiles at (t, 0). -/
theorem tile_indices : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The whole activation's block at any point, at (p, k), is the activation at (p, k). -/
theorem whole_act_read (c : Dev nD) (t : Fin cfg0.N) (x : S64x2048.Idx) (k : S64x2048.Idx)
    (hk0 : (k 0).val = (x 0).val) (hk1 : (k 1).val = (x 1).val) :
    (iblk0 V c 0 t : Vec Ideal S64x2048 .f32) x = (V c main_v9 : S64x2048.Idx → EReal) k := by
  obtain ⟨e0, e1, -⟩ := tile_indices t
  unfold iblk0
  rw [View.read_apply]
  show V c main_v9 _ = V c main_v9 _
  congr 1
  funext a
  apply Fin.ext
  match a with
  | ⟨0, _⟩ => show win0_0.index t (0 : Fin 2) * 64 + 1 * (x 0).val = (k 0).val; rw [e0, hk0]; omega
  | ⟨1, _⟩ => show win0_0.index t (1 : Fin 2) * 2048 + 1 * (x 1).val = (k 1).val; rw [e1, hk1]; omega

/-- The activation's column tile t, at (p, j), is the activation at (p, 512 t + j). -/
theorem act_tile_read (c : Dev nD) (t : Fin cfg0.N) (x : S64x512.Idx) (k : S64x2048.Idx)
    (hk0 : (k 0).val = (x 0).val) (hk1 : (k 1).val = 512 * t.val + (x 1).val) :
    (iblk0 V c 1 t : Vec Ideal S64x512 .f32) x = (V c main_v9 : S64x2048.Idx → EReal) k := by
  obtain ⟨-, -, e0, e1, -⟩ := tile_indices t
  unfold iblk0
  rw [View.read_apply]
  show V c main_v9 _ = V c main_v9 _
  congr 1
  funext a
  apply Fin.ext
  match a with
  | ⟨0, _⟩ => show win0_1.index t (0 : Fin 2) * 64 + 1 * (x 0).val = (k 0).val; rw [e0, hk0]; omega
  | ⟨1, _⟩ => show win0_1.index t (1 : Fin 2) * 512 + 1 * (x 1).val = (k 1).val; rw [e1, hk1]; omega

/-- The adjacency's row tile t, at (j, k), is the adjacency at (512 t + j, k). -/
theorem adj_tile_read (c : Dev nD) (t : Fin cfg0.N) (x : S512x2048.Idx) (k : S2048x2048.Idx)
    (hk0 : (k 0).val = 512 * t.val + (x 0).val) (hk1 : (k 1).val = (x 1).val) :
    (iblk0 V c 2 t : Vec Ideal S512x2048 .f32) x = (V c main_arg2 : S2048x2048.Idx → EReal) k := by
  obtain ⟨-, -, -, -, e0, e1, -⟩ := tile_indices t
  unfold iblk0
  rw [View.read_apply]
  show V c main_arg2 _ = V c main_arg2 _
  congr 1
  funext a
  apply Fin.ext
  match a with
  | ⟨0, _⟩ => show win0_2.index t (0 : Fin 2) * 512 + 1 * (x 0).val = (k 0).val; rw [e0, hk0]; omega
  | ⟨1, _⟩ => show win0_2.index t (1 : Fin 2) * 2048 + 1 * (x 1).val = (k 1).val; rw [e1, hk1]; omega

/-- The synapse state's row tile t, at (j, k), is the synapse state at (512 t + j, k). -/
theorem syn_tile_read (c : Dev nD) (t : Fin cfg0.N) (x : S512x2048.Idx) (k : S2048x2048.Idx)
    (hk0 : (k 0).val = 512 * t.val + (x 0).val) (hk1 : (k 1).val = (x 1).val) :
    (iblk0 V c 3 t : Vec Ideal S512x2048 .f32) x = (V c main_arg3 : S2048x2048.Idx → EReal) k := by
  obtain ⟨-, -, -, -, -, -, e0, e1, -⟩ := tile_indices t
  unfold iblk0
  rw [View.read_apply]
  show V c main_arg3 _ = V c main_arg3 _
  congr 1
  funext a
  apply Fin.ext
  match a with
  | ⟨0, _⟩ => show win0_3.index t (0 : Fin 2) * 512 + 1 * (x 0).val = (k 0).val; rw [e0, hk0]; omega
  | ⟨1, _⟩ => show win0_3.index t (1 : Fin 2) * 2048 + 1 * (x 1).val = (k 1).val; rw [e1, hk1]; omega

/-- Entry (p, j) of the output's column tile t is entry (p, 512 t + j) of the output array. -/
theorem out_tile_coords (t : Fin cfg0.N) (y : S64x512.Idx) :
    ((((cfg0.win 4).blk t).view.emb y : S64x2048.Idx) 0).val = (y 0).val
      ∧ ((((cfg0.win 4).blk t).view.emb y : S64x2048.Idx) 1).val = 512 * t.val + (y 1).val := by
  obtain ⟨-, -, -, -, -, -, -, -, e0, e1⟩ := tile_indices t
  constructor
  · show win0_4.index t (0 : Fin 2) * 64 + 1 * (y 0).val = _; rw [e0]; omega
  · show win0_4.index t (1 : Fin 2) * 512 + 1 * (y 1).val = _; rw [e1]; omega

/-! ## The output array -/

/-- The propagation step of the three arrays, as one function of the output's index. -/
def propagated (a : S64x2048.Idx → EReal) (adj syn : S2048x2048.Idx → EReal) : S64x2048.Idx → EReal := fun i =>
  Cert.Spec.propagate (fun p k => a (ix2 p k)) (fun q k => adj (ix2 q k)) (fun q k => syn (ix2 q k)) (i 0) (i 1)

/-- What grid point t writes back is tile t of the propagation step of the arrays as the region finds them. -/
theorem flushed0_4_eq (c : Dev nD) (t : Fin cfg0.N) :
    (dat0 V c).flushed 4 t
      = ((cfg0.win 4).blk t).view.read (Elt Ideal) (propagated (V c main_v9) (V c main_arg2) (V c main_arg3)) := by
  show (cfg0.win 4).cut (grid0.coords t) ((dat0 V c).after 4 t) = _
  rw [after0_4, out0_4_eq]
  funext y
  obtain ⟨p, j, rfl⟩ : ∃ (p : Fin 64) (j : Fin 512), y = ix2 p j := ⟨y 0, y 1, @eq_ix2 64 512 y⟩
  obtain ⟨c0, c1⟩ := out_tile_coords t (ix2 p j)
  show k0_pay1 (iblk0 V c 0 t) (iblk0 V c 2 t) (iblk0 V c 3 t) (iblk0 V c 1 t) (ix2 p j)
    = propagated (V c main_v9) (V c main_arg2) (V c main_arg3) (((cfg0.win 4).blk t).view.emb (ix2 p j))
  refine (propagate_tile _ _ _ _ p j).trans ?_
  unfold propagated Cert.Spec.propagate Cert.Spec.half
  refine congrArg₂ (· + ·) (act_tile_read V c t (ix2 p j) _ c0 c1)
    (congrArg (Ideal.ofBits .f32 0x3F000000#32 * ·) (Finset.sum_congr rfl fun k _ => ?_))
  exact congrArg₂ (· * ·) (whole_act_read V c t (ix2 p k) _ c0 rfl)
    (congrArg₂ (· * ·) (adj_tile_read V c t (ix2 j k) _ c1 rfl) (syn_tile_read V c t (ix2 j k) _ c1 rfl))

/-- An index of the output array is in tile t iff each coordinate is in the tile's range on its axis. -/
theorem mem_out_tile (t : Fin cfg0.N) (i : S64x2048.Idx) :
    i ∈ ((cfg0.win 4).blk t).view.set
      ↔ ∀ a : Fin 2, win0_4.index t a * S64x512.size a ≤ (i a).val ∧ (i a).val < win0_4.index t a * S64x512.size a + S64x512.size a := by
  show i ∈ ((View.whole main_v10).slice (win0_4.rect t)).set ↔ _
  rw [View.set_slice_whole, Rect.mem_set_unit]
  exact Iff.rfl

/-- Column q of the output lies in tile q / 512, and every tile is written back. -/
theorem out_tiles_cover (i : S64x2048.Idx) :
    ∃ t : Fin cfg0.N, (cfg0.win 4).flush t = true ∧ i ∈ ((cfg0.win 4).blk t).view.set := by
  have h0 : (i 0).val < 64 := (i 0).isLt
  have h1 : (i 1).val < 2048 := (i 1).isLt
  have hN : cfg0.N = 4 := rfl
  have ht : (i 1).val / 512 < cfg0.N := by rw [hN]; omega
  obtain ⟨-, -, -, -, -, -, -, -, e0, e1⟩ := tile_indices ⟨(i 1).val / 512, ht⟩
  refine ⟨⟨(i 1).val / 512, ht⟩, flush0_4 _, ?_⟩
  rw [mem_out_tile]
  intro a
  match a with
  | ⟨0, _⟩ =>
    show win0_4.index ⟨(i 1).val / 512, ht⟩ (0 : Fin 2) * 64 ≤ (i 0).val
      ∧ (i 0).val < win0_4.index ⟨(i 1).val / 512, ht⟩ (0 : Fin 2) * 64 + 64
    rw [e0]; omega
  | ⟨1, _⟩ =>
    show win0_4.index ⟨(i 1).val / 512, ht⟩ (1 : Fin 2) * 512 ≤ (i 1).val
      ∧ (i 1).val < win0_4.index ⟨(i 1).val / 512, ht⟩ (1 : Fin 2) * 512 + 512
    rw [e1]; show (i 1).val / 512 * 512 ≤ (i 1).val ∧ (i 1).val < (i 1).val / 512 * 512 + 512; omega

/-- The output array after the region: the propagation step of the arrays as the region finds them. -/
theorem x_array (c : Dev nD) :
    (dat0 V c).arrAt 4 cfg0.N = propagated (V c main_v9) (V c main_arg2) (V c main_arg3) :=
  (dat0 V c).arrAt_eq_of_cover 4 (propagated (V c main_v9) (V c main_arg2) (V c main_arg3))
    (fun t _ => flushed0_4_eq V c t) out_tiles_cover

/-- Entry (p, q) of the output array after the region. -/
theorem x_final (c : Dev nD) (p : Fin 64) (q : Fin 2048) :
    (dat0 (F := Ideal) V c).arrAt 4 cfg0.N (ix2 p q)
      = Cert.Spec.propagate (fun p k => V c main_v9 (ix2 p k)) (fun q k => V c main_arg2 (ix2 q k))
          (fun q k => V c main_arg3 (ix2 q k)) p q := by
  rw [x_array]
  rfl

end Cert.KernelIdeal.Hand

end
-- ==== Proof.KI.Val1.lean ====
/-
  What region 1 leaves in its output array.

  The region walks four column tiles of a 64 × 2048 output.  At tile t its body holds the whole activation x
  (64 × 2048) and row tile t of the local weight (512 × 2048), and stores into the output's column tile t the value
  max(x · W_tileᵀ, 0).  Read entry by entry, tile t at (p, j) is  max(Σ_k x[p, k] · W[512 t + j, k], 0),  which is entry
  (p, 512 t + j) of one function of the two arrays: the local step of the specification.  The four tiles cover the
  output, so the output array ends holding that function everywhere.
-/
import proofs.«129554_j18485539242697_1_alg».proof.Proof.KI.Reg1
import proofs.«129554_j18485539242697_1_alg».proof.Proof.Spec
import proofs.«129554_j18485539242697_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The body's stored value at an entry -/

/-- A 64 × 2048 by 2048 × 512 product into the zero tile, at entry (p, j): the sum over the 2048 inner positions. -/
theorem local_product (a : FVec Ideal S64x2048 .bf16) (b : FVec Ideal S2048x512 .bf16) (p : Fin 64) (j : Fin 512) :
    matmul dot_S64x2048_S2048x512_S64x512_1_0_0_1_n_n none a b (constant (F := Ideal) S64x512 .f32 0x00000000#32) (ix2 p j)
      = ∑ k : Fin 2048, a (ix2 p k) * b (ix2 k j) :=
  PlainDot.matmul_zero_apply 64 2048 512 a b p j

/-- The transpose of the weight's 512 × 2048 tile at (k, j) is the tile at (j, k). -/
theorem weight_transpose {φ : FTy} (y : FVec Ideal S512x2048 φ) (k : Fin 2048) (j : Fin 512) :
    transpose S2048x512 [1, 0] y transposes_S512x2048_p1_0_S2048x512 (ix2 k j) = y (ix2 j k) :=
  transpose_apply [1, 0] y transposes_S512x2048_p1_0_S2048x512 (ix2 k j) (ix2 j k) fun b => by
    match b with
    | ⟨0, _⟩ => rfl
    | ⟨1, _⟩ => rfl

/-- The body's stored value at entry (p, j) of the tile. -/
theorem local_tile (x0 : Vec Ideal S64x2048 .f32) (x1 : Vec Ideal S512x2048 .f32) (p : Fin 64) (j : Fin 512) :
    k1_pay1 x0 x1 (ix2 p j)
      = max (∑ k : Fin 2048, x0 (ix2 p k) * x1 (ix2 j k)) (Ideal.ofBits .f32 0x00000000#32) := by
  unfold k1_pay1
  rw [maximumf_apply, broadcast_apply, shapeCast_self, local_product]
  refine congrArg (fun s => max s (Ideal.ofBits .f32 0x00000000#32)) (Finset.sum_congr rfl fun k _ => ?_)
  rw [weight_transpose]
  rfl

/-! ## The output tile after the body -/

theorem offsets_zero1 : (![0, 0] : Fin 2 → Nat) = fun _ => 0 := funext fun a => by fin_cases a <;> rfl

/-- The body loads its two inputs whole and stores once over the whole tile: the tile ends at the stored value. -/
theorem out1_2_eq (x0 : Vec Ideal S64x2048 .f32) (x1 : Vec Ideal S512x2048 .f32) :
    out1_2 x0 x1 = k1_pay1 x0 x1 := by
  unfold out1_2
  rw [View.canon_unit_zero offsets_zero1]
  simp only [View.ld_unit_zero (S := S64x2048) offsets_zero1, View.ld_unit_zero (S := S512x2048) offsets_zero1]

/-! ## Where each window's block sits in its array -/

/-- The block indices at grid point t: the whole activation stays at (0, 0); the weight's row tile is at (t, 0);
    the output's column tile at (0, t). -/
theorem local_tile_indices : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The whole activation's block at any point, at (p, k), is the activation at (p, k). -/
theorem whole_x_read (c : Dev nD) (t : Fin cfg1.N) (x : S64x2048.Idx) (k : S64x2048.Idx)
    (hk0 : (k 0).val = (x 0).val) (hk1 : (k 1).val = (x 1).val) :
    (iblk1 V c 0 t : Vec Ideal S64x2048 .f32) x = (V c main_v10 : S64x2048.Idx → EReal) k := by
  obtain ⟨e0, e1, -⟩ := local_tile_indices t
  unfold iblk1
  rw [View.read_apply]
  show V c main_v10 _ = V c main_v10 _
  congr 1
  funext a
  apply Fin.ext
  match a with
  | ⟨0, _⟩ => show win1_0.index t (0 : Fin 2) * 64 + 1 * (x 0).val = (k 0).val; rw [e0, hk0]; omega
  | ⟨1, _⟩ => show win1_0.index t (1 : Fin 2) * 2048 + 1 * (x 1).val = (k 1).val; rw [e1, hk1]; omega

/-- The weight's row tile t, at (j, k), is the weight at (512 t + j, k). -/
theorem weight_tile_read (c : Dev nD) (t : Fin cfg1.N) (x : S512x2048.Idx) (k : S2048x2048.Idx)
    (hk0 : (k 0).val = 512 * t.val + (x 0).val) (hk1 : (k 1).val = (x 1).val) :
    (iblk1 V c 1 t : Vec Ideal S512x2048 .f32) x = (V c main_arg4 : S2048x2048.Idx → EReal) k := by
  obtain ⟨-, -, e0, e1, -⟩ := local_tile_indices t
  unfold iblk1
  rw [View.read_apply]
  show V c main_arg4 _ = V c main_arg4 _
  congr 1
  funext a
  apply Fin.ext
  match a with
  | ⟨0, _⟩ => show win1_1.index t (0 : Fin 2) * 512 + 1 * (x 0).val = (k 0).val; rw [e0, hk0]; omega
  | ⟨1, _⟩ => show win1_1.index t (1 : Fin 2) * 2048 + 1 * (x 1).val = (k 1).val; rw [e1, hk1]; omega

/-- Entry (p, j) of the output's column tile t is entry (p, 512 t + j) of the output array. -/
theorem local_out_coords (t : Fin cfg1.N) (y : S64x512.Idx) :
    ((((cfg1.win 2).blk t).view.emb y : S64x2048.Idx) 0).val = (y 0).val
      ∧ ((((cfg1.win 2).blk t).view.emb y : S64x2048.Idx) 1).val = 512 * t.val + (y 1).val := by
  obtain ⟨-, -, -, -, e0, e1⟩ := local_tile_indices t
  constructor
  · show win1_2.index t (0 : Fin 2) * 64 + 1 * (y 0).val = _; rw [e0]; omega
  · show win1_2.index t (1 : Fin 2) * 512 + 1 * (y 1).val = _; rw [e1]; omega

/-! ## The output array -/

/-- The local step of the two arrays, as one function of the output's index. -/
def stepped (x : S64x2048.Idx → EReal) (w : S2048x2048.Idx → EReal) : S64x2048.Idx → EReal := fun i =>
  Cert.Spec.localStep (fun p k => x (ix2 p k)) (fun q k => w (ix2 q k)) (i 0) (i 1)

/-- What grid point t writes back is tile t of the local step of the arrays as the region finds them. -/
theorem flushed1_2_eq (c : Dev nD) (t : Fin cfg1.N) :
    (dat1 V c).flushed 2 t
      = ((cfg1.win 2).blk t).view.read (Elt Ideal) (stepped (V c main_v10) (V c main_arg4)) := by
  show (cfg1.win 2).cut (grid1.coords t) ((dat1 V c).after 2 t) = _
  rw [after1_2, out1_2_eq]
  funext y
  obtain ⟨p, j, rfl⟩ : ∃ (p : Fin 64) (j : Fin 512), y = ix2 p j := ⟨y 0, y 1, @eq_ix2 64 512 y⟩
  obtain ⟨c0, c1⟩ := local_out_coords t (ix2 p j)
  show k1_pay1 (iblk1 V c 0 t) (iblk1 V c 1 t) (ix2 p j)
    = stepped (V c main_v10) (V c main_arg4) (((cfg1.win 2).blk t).view.emb (ix2 p j))
  refine (local_tile _ _ p j).trans ?_
  unfold stepped Cert.Spec.localStep
  rw [Ideal.ofBits_zero_f32]
  refine congrArg (fun s => max s (0 : EReal)) (Finset.sum_congr rfl fun k _ => ?_)
  exact congrArg₂ (· * ·) (whole_x_read V c t (ix2 p k) _ c0 rfl) (weight_tile_read V c t (ix2 j k) _ c1 rfl)

/-- An index of the output array is in tile t iff each coordinate is in the tile's range on its axis. -/
theorem mem_local_out_tile (t : Fin cfg1.N) (i : S64x2048.Idx) :
    i ∈ ((cfg1.win 2).blk t).view.set
      ↔ ∀ a : Fin 2, win1_2.index t a * S64x512.size a ≤ (i a).val ∧ (i a).val < win1_2.index t a * S64x512.size a + S64x512.size a := by
  show i ∈ ((View.whole main_v11).slice (win1_2.rect t)).set ↔ _
  rw [View.set_slice_whole, Rect.mem_set_unit]
  exact Iff.rfl

/-- Column q of the output lies in tile q / 512, and every tile is written back. -/
theorem local_out_tiles_cover (i : S64x2048.Idx) :
    ∃ t : Fin cfg1.N, (cfg1.win 2).flush t = true ∧ i ∈ ((cfg1.win 2).blk t).view.set := by
  have h0 : (i 0).val < 64 := (i 0).isLt
  have h1 : (i 1).val < 2048 := (i 1).isLt
  have hN : cfg1.N = 4 := rfl
  have ht : (i 1).val / 512 < cfg1.N := by rw [hN]; omega
  obtain ⟨-, -, -, -, e0, e1⟩ := local_tile_indices ⟨(i 1).val / 512, ht⟩
  refine ⟨⟨(i 1).val / 512, ht⟩, flush1_2 _, ?_⟩
  rw [mem_local_out_tile]
  intro a
  match a with
  | ⟨0, _⟩ =>
    show win1_2.index ⟨(i 1).val / 512, ht⟩ (0 : Fin 2) * 64 ≤ (i 0).val
      ∧ (i 0).val < win1_2.index ⟨(i 1).val / 512, ht⟩ (0 : Fin 2) * 64 + 64
    rw [e0]; omega
  | ⟨1, _⟩ =>
    show win1_2.index ⟨(i 1).val / 512, ht⟩ (1 : Fin 2) * 512 ≤ (i 1).val
      ∧ (i 1).val < win1_2.index ⟨(i 1).val / 512, ht⟩ (1 : Fin 2) * 512 + 512
    rw [e1]; show (i 1).val / 512 * 512 ≤ (i 1).val ∧ (i 1).val < (i 1).val / 512 * 512 + 512; omega

/-- The output array after the region: the local step of the arrays as the region finds them. -/
theorem y_array (c : Dev nD) :
    (dat1 V c).arrAt 2 cfg1.N = stepped (V c main_v10) (V c main_arg4) :=
  (dat1 V c).arrAt_eq_of_cover 2 (stepped (V c main_v10) (V c main_arg4))
    (fun t _ => flushed1_2_eq V c t) local_out_tiles_cover

/-- Entry (p, q) of the output array after the region. -/
theorem y_final (c : Dev nD) (p : Fin 64) (q : Fin 2048) :
    (dat1 (F := Ideal) V c).arrAt 2 cfg1.N (ix2 p q)
      = Cert.Spec.localStep (fun p k => V c main_v10 (ix2 p k)) (fun q k => V c main_arg4 (ix2 q k)) p q := by
  rw [y_array]
  rfl

end Cert.KernelIdeal.Hand

end
-- ==== Proof.KI.Val2.lean ====
/-
  What region 2 — the read-out, in one grid point — leaves in its output array.

  The body loads the activation y (64 × 2048), the layer norm's gain and bias rows, the read-out weight (256 × 2048)
  and bias row, the classifier's weight (2 × 256) and bias row, and stores one value over the whole 64 × 2 output.
  Read entry by entry on the extended reals, that value is

    μ[p] = (Σ_k y[p,k]) / 2048,  d[p,q] = y[p,q] − μ[p],  v[p] = (Σ_k d[p,k]²) / 2048,
    n[p,q] = d[p,q] · rsqrt(v[p] + ε) · g[q] + b[q],
    h[p,j] = max(Σ_k n[p,k] · R[j,k] + r[j], 0),   o[p,l] = Σ_j h[p,j] · C[l,j] + c[l],

  which is `Cert.Spec.readout` of the seven arrays.  The stages are read one at a time: a row sum is a sum over the
  lane coordinate; a column [64,1] carries one value per row and a broadcast of it along the lanes repeats that value;
  a row [1,n] broadcast down the rows repeats each lane's value; a product with a transposed weight sums over the
  weight's second coordinate; a change of float format is the identity.  With one grid point every window's block is
  its whole array, so the one block written back is the whole output array.
-/
import proofs.«129554_j18485539242697_1_alg».proof.Proof.KI.Reg2
import proofs.«129554_j18485539242697_1_alg».proof.Proof.Spec
import proofs.«129554_j18485539242697_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## Columns: a vector as a column, a column repeated along the lanes; a row's sum -/

section Layout
variable {α : Type}

/-- A vector of length a seen as a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A row's sum: the lane reduction of a 64 × 2048 array at row p. -/
theorem rowSum_apply (src : FVec Ideal S64x2048 .f32) (h : S64x2048.Reduces [1] S64) (hφ : FKind.Formats .f32)
    (hacc : (0x00000000#32 : BitVec 32) = FKind.add.neutral .f32 hφ) (p : Fin 64) :
    multiReduction .add [1] S64 src 0x00000000#32 h hφ hacc (ix1 p) = ∑ k : Fin 2048, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

/-! ## The body's values, stage by stage -/

/-- The row sums of a 64 × 2048 array, as the body takes them. -/
def kRowSum (y : FVec Ideal S64x2048 .f32) : FVec Ideal S64 .f32 :=
  multiReduction .add [1] S64 y 0x00000000#32 reduces_S64x2048_S64 (.inl rfl) rfl

theorem kRowSum_apply (y : FVec Ideal S64x2048 .f32) (p : Fin 64) : kRowSum y (ix1 p) = ∑ k : Fin 2048, y (ix2 p k) :=
  rowSum_apply y _ _ _ p

/-- The column of row means: the row sums as a column, over the width. -/
def kMean (y : FVec Ideal S64x2048 .f32) : FVec Ideal S64x1 .f32 :=
  divf (shapeCast S64x1 (kRowSum y) shapeCasts_S64_S64x1) (broadcast S64x1 (Scalar.ofBits .f32 0x45000000#32))

/-- The rows centred: each entry less its row's mean. -/
def kCentred (y : FVec Ideal S64x2048 .f32) : FVec Ideal S64x2048 .f32 :=
  subf y (broadcastTo S64x2048 (kMean y) broadcasts_S64x1_S64x2048)

/-- The column of row variances: the centred rows' sums of squares as a column, over the width. -/
def kVar (y : FVec Ideal S64x2048 .f32) : FVec Ideal S64x1 .f32 :=
  divf (shapeCast S64x1 (kRowSum (mulf (kCentred y) (kCentred y))) shapeCasts_S64_S64x1)
    (broadcast S64x1 (Scalar.ofBits .f32 0x45000000#32))

/-- The layer norm: the centred rows scaled by the reciprocal root of variance plus ε, times the gain row, plus the bias row. -/
def kNormed (y : FVec Ideal S64x2048 .f32) (g b : FVec Ideal S1x2048 .f32) : FVec Ideal S64x2048 .f32 :=
  addf (mulf (mulf (kCentred y) (broadcastTo S64x2048 (rsqrt (addf (kVar y) (broadcast S64x1 (Scalar.ofBits .f32 0x3727C5AC#32)))) broadcasts_S64x1_S64x2048))
    (broadcastTo S64x2048 g broadcasts_S1x2048_S64x2048)) (broadcastTo S64x2048 b broadcasts_S1x2048_S64x2048)

theorem kMean_apply (y : FVec Ideal S64x2048 .f32) (p : Fin 64) (u : Fin 1) :
    kMean y (ix2 p u) = Cert.Spec.rowMean (fun p k => y (ix2 p k)) p := by
  unfold kMean
  rw [divf_apply, broadcast_apply, shapeCast_a_a1_apply, kRowSum_apply]
  rfl

theorem kCentred_apply (y : FVec Ideal S64x2048 .f32) (p : Fin 64) (q : Fin 2048) :
    kCentred y (ix2 p q) = Cert.Spec.centred (fun p k => y (ix2 p k)) p q := by
  unfold kCentred
  rw [subf_apply, broadcastTo_a1_ab_apply, kMean_apply]
  rfl

theorem kVar_apply (y : FVec Ideal S64x2048 .f32) (p : Fin 64) (u : Fin 1) :
    kVar y (ix2 p u) = Cert.Spec.rowVar (fun p k => y (ix2 p k)) p := by
  unfold kVar
  rw [divf_apply, broadcast_apply, shapeCast_a_a1_apply, kRowSum_apply]
  simp only [mulf_apply, kCentred_apply]
  rfl

theorem kNormed_apply (y : FVec Ideal S64x2048 .f32) (g b : FVec Ideal S1x2048 .f32) (p : Fin 64) (q : Fin 2048) :
    kNormed y g b (ix2 p q)
      = Cert.Spec.normed (fun p k => y (ix2 p k)) (fun q => g (ix2 0 q)) (fun q => b (ix2 0 q)) p q := by
  unfold kNormed
  rw [addf_apply, mulf_apply, mulf_apply, broadcastTo_a1_ab_apply, broadcastTo_1b_ab_apply, broadcastTo_1b_ab_apply,
    kCentred_apply]
  show _ * Ideal.rsqrt (kVar y (ix2 p 0) + _) * _ + _ = _
  rw [kVar_apply]
  rfl

/-- The read-out layer before its format change: the normed rows times the read-out weight transposed, plus the bias
    row, rectified. -/
def kHidden (n : FVec Ideal S64x2048 .f32) (R : FVec Ideal S256x2048 .f32) (r : FVec Ideal S1x256 .f32) : FVec Ideal S64x256 .f32 :=
  maximumf (addf (matmul dot_S64x2048_S2048x256_S64x256_1_0_0_1_n_n none (truncf .bf16 n bitsLt_bf16_f32)
      (transpose S2048x256 [1, 0] (truncf .bf16 R bitsLt_bf16_f32) transposes_S256x2048_p1_0_S2048x256) (constant S64x256 .f32 0x00000000#32))
    (broadcastTo S64x256 r broadcasts_S1x256_S64x256)) (broadcast S64x256 (Scalar.ofBits .f32 0x00000000#32))

theorem kHidden_apply (n : FVec Ideal S64x2048 .f32) (R : FVec Ideal S256x2048 .f32) (r : FVec Ideal S1x256 .f32) (p : Fin 64) (j : Fin 256) :
    kHidden n R r (ix2 p j)
      = Cert.Spec.hidden (fun p k => n (ix2 p k)) (fun j k => R (ix2 j k)) (fun j => r (ix2 0 j)) p j := by
  have hm : matmul dot_S64x2048_S2048x256_S64x256_1_0_0_1_n_n none (truncf .bf16 n bitsLt_bf16_f32)
      (transpose S2048x256 [1, 0] (truncf .bf16 R bitsLt_bf16_f32) transposes_S256x2048_p1_0_S2048x256) (constant S64x256 .f32 0x00000000#32) (ix2 p j)
      = ∑ k : Fin 2048, n (ix2 p k) * R (ix2 j k) := by
    refine (PlainDot.matmul_zero_apply 64 2048 256 _ _ p j).trans ?_
    refine Finset.sum_congr rfl fun k _ => ?_
    rw [transpose_ix2_apply]
    rfl
  unfold kHidden
  rw [maximumf_apply, addf_apply, broadcast_apply, broadcastTo_1b_ab_apply, hm]
  show max _ (Ideal.ofBits .f32 0x00000000#32) = _
  rw [Ideal.ofBits_zero_f32]
  rfl

/-- The classifier's payload at an entry: the hidden rows times the classifier's weight transposed, plus the bias row. -/
theorem pay1_apply (h : FVec Ideal S64x256 .bf16) (C : FVec Ideal S2x256 .bf16) (c : Vec Ideal S1x2 .f32) (p : Fin 64) (l : Fin 2) :
    k2_pay1 h C c (ix2 p l)
      = Cert.Spec.logits (fun p j => h (ix2 p j)) (fun l j => C (ix2 l j)) (fun l => c (ix2 0 l)) p l := by
  have hm : matmul dot_S64x256_S256x2_S64x2_1_0_0_1_n_n none h (transpose S256x2 [1, 0] C transposes_S2x256_p1_0_S256x2)
      (constant S64x2 .f32 0x00000000#32) (ix2 p l) = ∑ j : Fin 256, h (ix2 p j) * C (ix2 l j) := by
    refine (PlainDot.matmul_zero_apply 64 256 2 _ _ p l).trans ?_
    refine Finset.sum_congr rfl fun j _ => ?_
    rw [transpose_ix2_apply]
  show matmul dot_S64x256_S256x2_S64x2_1_0_0_1_n_n none h (transpose S256x2 [1, 0] C transposes_S2x256_p1_0_S256x2)
      (constant S64x2 .f32 0x00000000#32) (ix2 p l)
    + broadcastTo S64x2 (shapeCast S1x2 c shapeCasts_S1x2_S1x2) broadcasts_S1x2_S64x2 (ix2 p l) = _
  rw [hm, broadcastTo_1b_ab_apply, shapeCast_self]
  rfl

/-- The store's value at an entry is the read-out of the seven loaded arrays. -/
theorem pay_apply (x0 : Vec Ideal S64x2048 .f32) (x1 x2 : Vec Ideal S1x2048 .f32) (x3 : Vec Ideal S256x2048 .f32)
    (x4 : Vec Ideal S1x256 .f32) (x5 : Vec Ideal S2x256 .f32) (x6 : Vec Ideal S1x2 .f32) (p : Fin 64) (l : Fin 2) :
    k2_pay1 (k2_pay2 x0 x1 x2 x3 x4) (k2_pay3 x5) x6 (ix2 p l)
      = Cert.Spec.readout (fun p k => x0 (ix2 p k)) (fun q => x1 (ix2 0 q)) (fun q => x2 (ix2 0 q)) (fun j k => x3 (ix2 j k))
          (fun j => x4 (ix2 0 j)) (fun l j => x5 (ix2 l j)) (fun l => x6 (ix2 0 l)) p l := by
  have e2 : k2_pay2 x0 x1 x2 x3 x4
      = truncf .bf16 (kHidden (kNormed (shapeCast S64x2048 x0 shapeCasts_S64x2048_S64x2048) (shapeCast S1x2048 x1 shapeCasts_S1x2048_S1x2048)
          (shapeCast S1x2048 x2 shapeCasts_S1x2048_S1x2048)) x3 (shapeCast S1x256 x4 shapeCasts_S1x256_S1x256)) bitsLt_bf16_f32 := rfl
  have e3 : k2_pay3 x5 = truncf .bf16 x5 bitsLt_bf16_f32 := rfl
  rw [pay1_apply, e2, e3]
  simp only [shapeCast_self, truncf_apply, kHidden_apply, kNormed_apply]
  rfl

/-! ## From the one block to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- What the body leaves in the output buffer is its one store's value. -/
theorem out2_7_eq (x0 : Vec Ideal S64x2048 .f32) (x1 x2 : Vec Ideal S1x2048 .f32) (x3 : Vec Ideal S256x2048 .f32)
    (x4 : Vec Ideal S1x256 .f32) (x5 : Vec Ideal S2x256 .f32) (x6 : Vec Ideal S1x2 .f32) :
    out2_7 x0 x1 x2 x3 x4 x5 x6 = k2_pay1 (k2_pay2 x0 x1 x2 x3 x4) (k2_pay3 x5) x6 := by
  unfold out2_7
  rw [View.canon_unit_zero zero_offsets]
  simp only [View.ld_unit_zero (S := S64x2048) zero_offsets, View.ld_unit_zero (S := S1x2048) zero_offsets,
    View.ld_unit_zero (S := S256x2048) zero_offsets, View.ld_unit_zero (S := S1x256) zero_offsets,
    View.ld_unit_zero (S := S2x256) zero_offsets, View.ld_unit_zero (S := S1x2) zero_offsets]

/-- The read-out of the arrays the region finds, as one function of the output's index. -/
def readoutOf (c : Dev nD) : S64x2.Idx → EReal := fun i =>
  Cert.Spec.readout (fun p k => V c main_v11 (ix2 p k)) (fun q => V c main_v12 (ix2 0 q)) (fun q => V c main_v13 (ix2 0 q))
    (fun j k => V c main_arg7 (ix2 j k)) (fun j => V c main_v14 (ix2 0 j)) (fun l j => V c main_arg9 (ix2 l j))
    (fun l => V c main_v15 (ix2 0 l)) (i 0) (i 1)

/-- The store's value, as a function, is the read-out of the seven loaded arrays. -/
theorem pay_eq (x0 : Vec Ideal S64x2048 .f32) (x1 x2 : Vec Ideal S1x2048 .f32) (x3 : Vec Ideal S256x2048 .f32)
    (x4 : Vec Ideal S1x256 .f32) (x5 : Vec Ideal S2x256 .f32) (x6 : Vec Ideal S1x2 .f32) :
    k2_pay1 (k2_pay2 x0 x1 x2 x3 x4) (k2_pay3 x5) x6
      = fun i : S64x2.Idx => Cert.Spec.readout (fun p k => x0 (ix2 p k)) (fun q => x1 (ix2 0 q)) (fun q => x2 (ix2 0 q))
          (fun j k => x3 (ix2 j k)) (fun j => x4 (ix2 0 j)) (fun l j => x5 (ix2 l j)) (fun l => x6 (ix2 0 l)) (i 0) (i 1) := by
  funext i
  obtain ⟨p, l, rfl⟩ : ∃ (p : Fin 64) (l : Fin 2), i = ix2 p l := ⟨i 0, i 1, eq_ix2 i⟩
  exact pay_apply x0 x1 x2 x3 x4 x5 x6 p l

/-- Every window's block index at the grid's one point is zero on both axes (decided over the grid). -/
theorem index_zero2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Each input window's block at the point is its whole array. -/
theorem iblk2_0_eq (c : Dev nD) (t : Fin cfg2.N) : iblk2 V c 0 t = V c main_v11 := by
  funext j
  show V c main_v11 (((cfg2.win 0).blk t).view.emb j) = V c main_v11 j
  refine congrArg _ (funext fun a => Fin.ext ?_)
  obtain ⟨e0, e1, -⟩ := index_zero2 t
  match a with
  | ⟨0, _⟩ => show win2_0.index t (0 : Fin 2) * 64 + 1 * (j 0).val = (j 0).val; omega
  | ⟨1, _⟩ => show win2_0.index t (1 : Fin 2) * 2048 + 1 * (j 1).val = (j 1).val; omega

theorem iblk2_1_eq (c : Dev nD) (t : Fin cfg2.N) : iblk2 V c 1 t = V c main_v12 := by
  funext j
  show V c main_v12 (((cfg2.win 1).blk t).view.emb j) = V c main_v12 j
  refine congrArg _ (funext fun a => Fin.ext ?_)
  obtain ⟨-, -, e0, e1, -⟩ := index_zero2 t
  match a with
  | ⟨0, _⟩ => show win2_1.index t (0 : Fin 2) * 1 + 1 * (j 0).val = (j 0).val; omega
  | ⟨1, _⟩ => show win2_1.index t (1 : Fin 2) * 2048 + 1 * (j 1).val = (j 1).val; omega

theorem iblk2_2_eq (c : Dev nD) (t : Fin cfg2.N) : iblk2 V c 2 t = V c main_v13 := by
  funext j
  show V c main_v13 (((cfg2.win 2).blk t).view.emb j) = V c main_v13 j
  refine congrArg _ (funext fun a => Fin.ext ?_)
  obtain ⟨-, -, -, -, e0, e1, -⟩ := index_zero2 t
  match a with
  | ⟨0, _⟩ => show win2_2.index t (0 : Fin 2) * 1 + 1 * (j 0).val = (j 0).val; omega
  | ⟨1, _⟩ => show win2_2.index t (1 : Fin 2) * 2048 + 1 * (j 1).val = (j 1).val; omega

theorem iblk2_3_eq (c : Dev nD) (t : Fin cfg2.N) : iblk2 V c 3 t = V c main_arg7 := by
  funext j
  show V c main_arg7 (((cfg2.win 3).blk t).view.emb j) = V c main_arg7 j
  refine congrArg _ (funext fun a => Fin.ext ?_)
  obtain ⟨-, -, -, -, -, -, e0, e1, -⟩ := index_zero2 t
  match a with
  | ⟨0, _⟩ => show win2_3.index t (0 : Fin 2) * 256 + 1 * (j 0).val = (j 0).val; omega
  | ⟨1, _⟩ => show win2_3.index t (1 : Fin 2) * 2048 + 1 * (j 1).val = (j 1).val; omega

theorem iblk2_4_eq (c : Dev nD) (t : Fin cfg2.N) : iblk2 V c 4 t = V c main_v14 := by
  funext j
  show V c main_v14 (((cfg2.win 4).blk t).view.emb j) = V c main_v14 j
  refine congrArg _ (funext fun a => Fin.ext ?_)
  obtain ⟨-, -, -, -, -, -, -, -, e0, e1, -⟩ := index_zero2 t
  match a with
  | ⟨0, _⟩ => show win2_4.index t (0 : Fin 2) * 1 + 1 * (j 0).val = (j 0).val; omega
  | ⟨1, _⟩ => show win2_4.index t (1 : Fin 2) * 256 + 1 * (j 1).val = (j 1).val; omega

theorem iblk2_5_eq (c : Dev nD) (t : Fin cfg2.N) : iblk2 V c 5 t = V c main_arg9 := by
  funext j
  show V c main_arg9 (((cfg2.win 5).blk t).view.emb j) = V c main_arg9 j
  refine congrArg _ (funext fun a => Fin.ext ?_)
  obtain ⟨-, -, -, -, -, -, -, -, -, -, e0, e1, -⟩ := index_zero2 t
  match a with
  | ⟨0, _⟩ => show win2_5.index t (0 : Fin 2) * 2 + 1 * (j 0).val = (j 0).val; omega
  | ⟨1, _⟩ => show win2_5.index t (1 : Fin 2) * 256 + 1 * (j 1).val = (j 1).val; omega

theorem iblk2_6_eq (c : Dev nD) (t : Fin cfg2.N) : iblk2 V c 6 t = V c main_v15 := by
  funext j
  show V c main_v15 (((cfg2.win 6).blk t).view.emb j) = V c main_v15 j
  refine congrArg _ (funext fun a => Fin.ext ?_)
  obtain ⟨-, -, -, -, -, -, -, -, -, -, -, -, e0, e1, -⟩ := index_zero2 t
  match a with
  | ⟨0, _⟩ => show win2_6.index t (0 : Fin 2) * 1 + 1 * (j 0).val = (j 0).val; omega
  | ⟨1, _⟩ => show win2_6.index t (1 : Fin 2) * 2 + 1 * (j 1).val = (j 1).val; omega

/-- What the point writes back is its block — the whole array — of the read-out of the arrays the region finds. -/
theorem flushed2_7_eq (c : Dev nD) (t : Fin cfg2.N) :
    (dat2 (F := Ideal) V c).flushed 7 t = ((cfg2.win 7).blk t).view.read (Elt Ideal) (readoutOf V c) := by
  show (cfg2.win 7).cut (grid2.coords t) ((dat2 V c).after 7 t) = _
  rw [after2_7, iblk2_0_eq, iblk2_1_eq, iblk2_2_eq, iblk2_3_eq, iblk2_4_eq, iblk2_5_eq, iblk2_6_eq, out2_7_eq, pay_eq]
  funext j
  show readoutOf V c (fun a => ⟨(j a).val, _⟩) = readoutOf V c (((cfg2.win 7).blk t).view.emb j)
  refine congrArg _ (funext fun a => Fin.ext ?_)
  obtain ⟨-, -, -, -, -, -, -, -, -, -, -, -, -, -, e0, e1⟩ := index_zero2 t
  match a with
  | ⟨0, _⟩ => show (j 0).val = win2_7.index t (0 : Fin 2) * 64 + 1 * (j 0).val; omega
  | ⟨1, _⟩ => show (j 1).val = win2_7.index t (1 : Fin 2) * 2 + 1 * (j 1).val; omega

/-- An index of the output array is in the point's block iff each coordinate is in the block's range on its axis. -/
theorem mem_blk2_7 (t : Fin cfg2.N) (i : S64x2.Idx) :
    i ∈ ((cfg2.win 7).blk t).view.set
      ↔ ∀ a : Fin 2, win2_7.index t a * S64x2.size a ≤ (i a).val ∧ (i a).val < win2_7.index t a * S64x2.size a + S64x2.size a := by
  show i ∈ ((View.whole main_v16).slice (win2_7.rect t)).set ↔ _
  rw [View.set_slice_whole, Rect.mem_set_unit]
  exact Iff.rfl

/-- The one point's block covers the output array. -/
theorem cover2_out (i : S64x2.Idx) :
    ∃ t : Fin cfg2.N, (cfg2.win 7).flush t = true ∧ i ∈ ((cfg2.win 7).blk t).view.set := by
  have t : Fin cfg2.N := ⟨0, by decide⟩
  refine ⟨t, flush2_7 t, ?_⟩
  rw [mem_blk2_7]
  obtain ⟨-, -, -, -, -, -, -, -, -, -, -, -, -, -, e0, e1⟩ := index_zero2 t
  have h0 : (i 0).val < 64 := (i 0).isLt
  have h1 : (i 1).val < 2 := (i 1).isLt
  intro a
  match a with
  | ⟨0, _⟩ => show win2_7.index t (0 : Fin 2) * 64 ≤ (i 0).val ∧ (i 0).val < win2_7.index t (0 : Fin 2) * 64 + 64; omega
  | ⟨1, _⟩ => show win2_7.index t (1 : Fin 2) * 2 ≤ (i 1).val ∧ (i 1).val < win2_7.index t (1 : Fin 2) * 2 + 2; omega

/-- The output array after the region: at (p, l), the read-out of the arrays the region finds. -/
theorem o_final (c : Dev nD) (p : Fin 64) (l : Fin 2) :
    (dat2 (F := Ideal) V c).arrAt 7 cfg2.N (ix2 p l)
      = Cert.Spec.readout (fun p k => V c main_v11 (ix2 p k)) (fun q => V c main_v12 (ix2 0 q)) (fun q => V c main_v13 (ix2 0 q))
          (fun j k => V c main_arg7 (ix2 j k)) (fun j => V c main_v14 (ix2 0 j)) (fun l j => V c main_arg9 (ix2 l j))
          (fun l => V c main_v15 (ix2 0 l)) p l :=
  congrFun ((dat2 (F := Ideal) V c).arrAt_eq_of_cover 7 (readoutOf V c) (fun t _ => flushed2_7_eq V c t) cover2_out) (ix2 p l)

end Cert.KernelIdeal.Hand

end
-- ==== Proof.KI.Value.lean ====
/-
  The kernel program's result as the network of the launch memory.

  The program runs three regions with host reshapes between them.  Region 0 leaves, in its output array, the
  propagation step x of the rectified embedding rows a and the launch memory's adjacency and synapse state; region 1
  leaves the local step y of x and the local weight; the four reshapes turn the layer norm's gain and bias, the
  read-out bias and the classifier's bias from vectors into one-row matrices, entry (0, q) of a row being entry q of
  its vector; region 2 leaves the read-out of y and those rows and the two weight matrices.  No item writes an
  argument array, so each argument a later region reads is the launch memory's.  Composing the three values along
  the program gives, at entry (p, l) of the result,

    net a adj syn W g b R r C c (p, l) = readout (localStep (propagate a adj syn) W) g b R r C c (p, l).

  The rectified embedding rows a are left as the program's own contents of their array after the first two host
  stretches: they are compared with the reference's rows elsewhere.
-/
import proofs.«129554_j18485539242697_1_alg».proof.Proof.KI.Frame
import proofs.«129554_j18485539242697_1_alg».proof.Proof.KI.Val0
import proofs.«129554_j18485539242697_1_alg».proof.Proof.KI.Val1
import proofs.«129554_j18485539242697_1_alg».proof.Proof.KI.Val2
import proofs.«129554_j18485539242697_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## Arrays no item writes hold the launch memory's contents -/

/-- After the first two host stretches, an array neither of them writes is the launch memory's. -/
theorem V2_launch (c : Dev nD) (r : Ref sig .tc) (h0 : r ∉ hostOps0_W) (h1 : r ∉ hostOps0_1_W) :
    V2 m c r = m ((c : Thread nD τ).loc r) :=
  (V2_of m c r h1).trans ((V1_of m c r h0).trans rfl)

/-- After regions 0 and 1, an array that is neither region's output and that no earlier host stretch writes is the
    launch memory's. -/
theorem U4_launch (c : Dev nD) (r : Ref sig .tc) (h0 : r ∉ hostOps0_W) (h1 : r ∉ hostOps0_1_W)
    (h10 : r ≠ main_v10) (h11 : r ≠ main_v11) : U4 m c r = m ((c : Thread nD τ).loc r) :=
  (U4_of_ne m c r h11).trans ((U3_of_ne m c r h10).trans (V2_launch m c r h0 h1))

/-- The four reshapes leave every array but their four results as it was. -/
theorem U5_of (c : Dev nD) (r : Ref sig .tc) (h : r ∉ hostOps2_W) : U5 m c r = U4 m c r :=
  StableHlo.after_of_writes_sub hostOps2 _ hostOps2_writes h

/-! ## The reshaped rows: entry (0, q) of a row is entry q of the launch memory's vector -/

theorem gain_row (c : Dev nD) (q : Fin 2048) :
    U5 m c main_v12 (ix2 0 q) = m ((c : Thread nD τ).loc main_arg5) (ix1 q) := by
  have e : (U5 m c main_v12 : S1x2048.Idx → EReal)
      = shapeCast S1x2048 (U4 m c main_arg5 : S2048.Idx → EReal) shapeCasts_S2048_S1x2048 := by
    dsimp only [U5, hostOps2]; after_results; rfl
  refine (congrFun e (ix2 0 q)).trans ((shapeCast_a_1a_apply _ _ 0 q).trans ?_)
  rw [U4_launch m c main_arg5 (by decide) (by decide) (by decide) (by decide)]

theorem bias_row (c : Dev nD) (q : Fin 2048) :
    U5 m c main_v13 (ix2 0 q) = m ((c : Thread nD τ).loc main_arg6) (ix1 q) := by
  have e : (U5 m c main_v13 : S1x2048.Idx → EReal)
      = shapeCast S1x2048 (U4 m c main_arg6 : S2048.Idx → EReal) shapeCasts_S2048_S1x2048 := by
    dsimp only [U5, hostOps2]; after_results; rfl
  refine (congrFun e (ix2 0 q)).trans ((shapeCast_a_1a_apply _ _ 0 q).trans ?_)
  rw [U4_launch m c main_arg6 (by decide) (by decide) (by decide) (by decide)]

theorem readout_bias_row (c : Dev nD) (j : Fin 256) :
    U5 m c main_v14 (ix2 0 j) = m ((c : Thread nD τ).loc main_arg8) (ix1 j) := by
  have e : (U5 m c main_v14 : S1x256.Idx → EReal)
      = shapeCast S1x256 (U4 m c main_arg8 : S256.Idx → EReal) shapeCasts_S256_S1x256 := by
    dsimp only [U5, hostOps2]; after_results; rfl
  refine (congrFun e (ix2 0 j)).trans ((shapeCast_a_1a_apply _ _ 0 j).trans ?_)
  rw [U4_launch m c main_arg8 (by decide) (by decide) (by decide) (by decide)]

theorem classifier_bias_row (c : Dev nD) (l : Fin 2) :
    U5 m c main_v15 (ix2 0 l) = m ((c : Thread nD τ).loc main_arg10) (ix1 l) := by
  have e : (U5 m c main_v15 : S1x2.Idx → EReal)
      = shapeCast S1x2 (U4 m c main_arg10 : S2.Idx → EReal) shapeCasts_S2_S1x2 := by
    dsimp only [U5, hostOps2]; after_results; rfl
  refine (congrFun e (ix2 0 l)).trans ((shapeCast_a_1a_apply _ _ 0 l).trans ?_)
  rw [U4_launch m c main_arg10 (by decide) (by decide) (by decide) (by decide)]

/-! ## The regions' values along the program -/

/-- Region 0's output: the propagation step of the rectified embedding rows and the launch memory's adjacency and
    synapse state. -/
theorem x10_apply (c : Dev nD) (p : Fin 64) (q : Fin 2048) :
    x10 m c (ix2 p q)
      = Cert.Spec.propagate (fun p k => V2 m c main_v9 (ix2 p k))
          (fun q k => m ((c : Thread nD τ).loc main_arg2) (ix2 q k))
          (fun q k => m ((c : Thread nD τ).loc main_arg3) (ix2 q k)) p q := by
  refine (x_final (refs (V2 m)) c p q).trans ?_
  show Cert.Spec.propagate (fun p k => V2 m c main_v9 (ix2 p k)) (fun q k => V2 m c main_arg2 (ix2 q k))
      (fun q k => V2 m c main_arg3 (ix2 q k)) p q = _
  rw [V2_launch m c main_arg2 (by decide) (by decide), V2_launch m c main_arg3 (by decide) (by decide)]

/-- Region 1's output: the local step of region 0's output and the launch memory's local weight. -/
theorem x11_apply (c : Dev nD) (p : Fin 64) (q : Fin 2048) :
    x11 m c (ix2 p q)
      = Cert.Spec.localStep (Cert.Spec.propagate (fun p k => V2 m c main_v9 (ix2 p k))
            (fun q k => m ((c : Thread nD τ).loc main_arg2) (ix2 q k))
            (fun q k => m ((c : Thread nD τ).loc main_arg3) (ix2 q k)))
          (fun q k => m ((c : Thread nD τ).loc main_arg4) (ix2 q k)) p q := by
  refine (y_final (refs (U3 m)) c p q).trans ?_
  show Cert.Spec.localStep (fun p k => U3 m c main_v10 (ix2 p k)) (fun q k => U3 m c main_arg4 (ix2 q k)) p q = _
  rw [U3_v10, (U3_of_ne m c main_arg4 (by decide)).trans (V2_launch m c main_arg4 (by decide) (by decide))]
  simp only [x10_apply]

/-- The read-out takes equal arrays to equal values. -/
theorem readout_congr {y y' : Fin 64 → Fin 2048 → EReal} {g g' b b' : Fin 2048 → EReal} {R R' : Fin 256 → Fin 2048 → EReal}
    {r r' : Fin 256 → EReal} {C C' : Fin 2 → Fin 256 → EReal} {k k' : Fin 2 → EReal}
    (hy : y = y') (hg : g = g') (hb : b = b') (hR : R = R') (hr : r = r') (hC : C = C') (hk : k = k') (p : Fin 64) (l : Fin 2) :
    Cert.Spec.readout y g b R r C k p l = Cert.Spec.readout y' g' b' R' r' C' k' p l := by
  subst hy hg hb hR hr hC hk; rfl

/-- The program's result: the network of the rectified embedding rows and the launch memory's arrays. -/
theorem kernel_value (c : Dev nD) (p : Fin 64) (l : Fin 2) :
    x16 (F := Ideal) m c (ix2 p l)
      = Cert.Spec.net (fun p k => V2 m c main_v9 (ix2 p k))
          (fun q k => m ((c.tc : Thread nD τ).loc main_arg2) (ix2 q k)) (fun q k => m ((c.tc : Thread nD τ).loc main_arg3) (ix2 q k))
          (fun q k => m ((c.tc : Thread nD τ).loc main_arg4) (ix2 q k))
          (fun q => m ((c.tc : Thread nD τ).loc main_arg5) (ix1 q)) (fun q => m ((c.tc : Thread nD τ).loc main_arg6) (ix1 q))
          (fun j k => m ((c.tc : Thread nD τ).loc main_arg7) (ix2 j k)) (fun j => m ((c.tc : Thread nD τ).loc main_arg8) (ix1 j))
          (fun l j => m ((c.tc : Thread nD τ).loc main_arg9) (ix2 l j)) (fun l => m ((c.tc : Thread nD τ).loc main_arg10) (ix1 l)) p l := by
  unfold Cert.Spec.net
  refine (show x16 m c (ix2 p l) = _ from o_final (refs (U5 m)) c p l).trans ?_
  refine readout_congr ?_ ?_ ?_ ?_ ?_ ?_ ?_ p l
  · funext p k
    show U5 m c main_v11 (ix2 p k) = _
    rw [U5_of m c main_v11 (by decide), U4_v11]
    exact x11_apply m c p k
  · funext q; exact gain_row m c q
  · funext q; exact bias_row m c q
  · funext j k
    show U5 m c main_arg7 (ix2 j k) = _
    rw [U5_of m c main_arg7 (by decide), U4_launch m c main_arg7 (by decide) (by decide) (by decide) (by decide)]
  · funext j; exact readout_bias_row m c j
  · funext l j
    show U5 m c main_arg9 (ix2 l j) = _
    rw [U5_of m c main_arg9 (by decide), U4_launch m c main_arg9 (by decide) (by decide) (by decide) (by decide)]
  · funext l; exact classifier_bias_row m c l

end Cert.KernelIdeal.Hand

end
-- ==== Proof.Ref.Term.lean ====
/-
  The reference network's result as one pure term of its eleven arguments.

  The program computes, in order: the last token of each of the 64 sequences (a slice of the 64 × 512 token
  array, reshaped to a vector); that index wrapped when negative (compare with 0, add the vocabulary size, select);
  the embedding rows at those indices (a gather of 64 rows of the 50257 × 2048 table); their rectification. That
  is `acts`. From the rectified rows, `tail` is the rest: the masked synapse matrix (a pointwise product),
  transposed and contracted with the rows; half of that added to the rows; the contraction with the transposed local
  weight, rectified; the row mean (a sum from the zero word, divided by the width word); the row variance as the
  outlined variance computes it (the mean again, the centred squares summed, divided by the width less the converted
  correction, selected against a not-a-number word on that divisor being positive); the normalisation (subtract the
  mean, multiply by the reciprocal square root of variance plus ε, multiply by the gain, add the bias, gain and bias
  broadcast along the rows in two steps); the read-out product with its bias, rectified; the classifier product with
  its bias. `refOut` composes the two.

  Each line is one operation of the program, applied to the lines before it, with the same shape evidence and the
  same dimension records as the program cites; nothing is simplified.
-/
import proofs.«129554_j18485539242697_1_alg».proof.ReferenceIdeal
import proofs.«129554_j18485539242697_1_alg».proof.Proof.Gen.ReferenceIdeal

noncomputable section

namespace Cert.ReferenceIdeal.RefTerm

open Idealize.ShloMosaic
open Cert.ReferenceIdeal
open Cert.ReferenceIdeal.Facts₀ Cert.ReferenceIdeal.Facts

variable {F : FTy → Type} [FloatOps F]

/-- The rectified embedding rows of each sequence's last token: slice, wrap, gather, rectify. -/
def acts (a0 : (⟨S64x512, .i32⟩ : BufTy).Contents (Elt F)) (a1 : (⟨S50257x2048, .f32⟩ : BufTy).Contents (Elt F)) :
    (⟨S64x2048, .f32⟩ : BufTy).Contents (Elt F) :=
  have v0 : (⟨S64x1, .i32⟩ : BufTy).Contents (Elt F) := extractStridedSlice S64x1 ![0, 511] a0 slices_S64x512_S64x1_0_511
  have v1 : (⟨S64, .i32⟩ : BufTy).Contents (Elt F) := shapeCast S64 v0 shapeCasts_S64x1_S64
  have c : (⟨S_, .i32⟩ : BufTy).Contents (Elt F) := constantI S_ 32 0#32
  have v2 : (⟨S64, .i32⟩ : BufTy).Contents (Elt F) := broadcastInDim S64 ![] bcast_S_S64 c
  have v3 : (⟨S64, .i1⟩ : BufTy).Contents (Elt F) := cmpi .slt v1 v2
  have c_0 : (⟨S_, .i32⟩ : BufTy).Contents (Elt F) := constantI S_ 32 50257#32
  have v4 : (⟨S64, .i32⟩ : BufTy).Contents (Elt F) := broadcastInDim S64 ![] bcast_S_S64 c_0
  have v5 : (⟨S64, .i32⟩ : BufTy).Contents (Elt F) := addi v1 v4
  have v6 : (⟨S64, .i32⟩ : BufTy).Contents (Elt F) := select v3 v5 v1
  have v7 : (⟨S64x1, .i32⟩ : BufTy).Contents (Elt F) := broadcastInDim S64x1 ![0] bcast_S64_S64x1_0 v6
  have v8 : (⟨S64x2048, .f32⟩ : BufTy).Contents (Elt F) := Host.gather gather_S50257x2048_S64x1_S64x2048_1_0_n_n_0_1_12048 a1 v7
  have call0_cst : (⟨S_, .f32⟩ : BufTy).Contents (Elt F) := constant (F := F) S_ .f32 0x00000000#32
  have call0_v0 : (⟨S64x2048, .f32⟩ : BufTy).Contents (Elt F) := broadcastInDim S64x2048 ![] bcast_S_S64x2048 call0_cst
  have v9 : (⟨S64x2048, .f32⟩ : BufTy).Contents (Elt F) := maximumf (F := F) v8 call0_v0
  v9

/-- Everything after the rectified rows: propagation through the masked synapses, the local step, the layer norm
    with the outlined variance, the read-out and the classifier. -/
def tail (v9 : (⟨S64x2048, .f32⟩ : BufTy).Contents (Elt F)) (a2 : (⟨S2048x2048, .f32⟩ : BufTy).Contents (Elt F)) (a3 : (⟨S2048x2048, .f32⟩ : BufTy).Contents (Elt F)) (a4 : (⟨S2048x2048, .f32⟩ : BufTy).Contents (Elt F)) (a5 : (⟨S2048, .f32⟩ : BufTy).Contents (Elt F)) (a6 : (⟨S2048, .f32⟩ : BufTy).Contents (Elt F)) (a7 : (⟨S256x2048, .f32⟩ : BufTy).Contents (Elt F)) (a8 : (⟨S256, .f32⟩ : BufTy).Contents (Elt F)) (a9 : (⟨S2x256, .f32⟩ : BufTy).Contents (Elt F)) (a10 : (⟨S2, .f32⟩ : BufTy).Contents (Elt F)) :
    (⟨S64x2, .f32⟩ : BufTy).Contents (Elt F) :=
  have v10 : (⟨S2048x2048, .f32⟩ : BufTy).Contents (Elt F) := mulf (F := F) a2 a3
  have v11 : (⟨S2048x2048, .f32⟩ : BufTy).Contents (Elt F) := transpose S2048x2048 [1, 0] v10 transposes_S2048x2048_S2048x2048_1_0
  have v12 : (⟨S64x2048, .f32⟩ : BufTy).Contents (Elt F) := Host.dotGeneral (F := F) dot_S64x2048_S2048x2048_S64x2048_1_0_0_1_n_n none v9 v11
  have cst : (⟨S_, .f32⟩ : BufTy).Contents (Elt F) := constant (F := F) S_ .f32 0x3F000000#32
  have v13 : (⟨S64x2048, .f32⟩ : BufTy).Contents (Elt F) := broadcastInDim S64x2048 ![] bcast_S_S64x2048 cst
  have v14 : (⟨S64x2048, .f32⟩ : BufTy).Contents (Elt F) := mulf (F := F) v13 v12
  have v15 : (⟨S64x2048, .f32⟩ : BufTy).Contents (Elt F) := addf (F := F) v9 v14
  have v16 : (⟨S2048x2048, .f32⟩ : BufTy).Contents (Elt F) := transpose S2048x2048 [1, 0] a4 transposes_S2048x2048_S2048x2048_1_0
  have v17 : (⟨S64x2048, .f32⟩ : BufTy).Contents (Elt F) := Host.dotGeneral (F := F) dot_S64x2048_S2048x2048_S64x2048_1_0_0_1_n_n none v15 v16
  have call1_cst : (⟨S_, .f32⟩ : BufTy).Contents (Elt F) := constant (F := F) S_ .f32 0x00000000#32
  have call1_v0 : (⟨S64x2048, .f32⟩ : BufTy).Contents (Elt F) := broadcastInDim S64x2048 ![] bcast_S_S64x2048 call1_cst
  have v18 : (⟨S64x2048, .f32⟩ : BufTy).Contents (Elt F) := maximumf (F := F) v17 call1_v0
  have cst_1 : (⟨S_, .f32⟩ : BufTy).Contents (Elt F) := constant (F := F) S_ .f32 0x00000000#32
  have v19 : (⟨S64, .f32⟩ : BufTy).Contents (Elt F) := Host.reduceAdd (F := F) v18 cst_1 reducesTo_S64x2048_S64_d1 h_S_
  have v20 : (⟨S64x1, .f32⟩ : BufTy).Contents (Elt F) := broadcastInDim S64x1 ![0] bcast_S64_S64x1_0 v19
  have cst_2 : (⟨S_, .f32⟩ : BufTy).Contents (Elt F) := constant (F := F) S_ .f32 0x45000000#32
  have v21 : (⟨S64x1, .f32⟩ : BufTy).Contents (Elt F) := broadcastInDim S64x1 ![] bcast_S_S64x1 cst_2
  have v22 : (⟨S64x1, .f32⟩ : BufTy).Contents (Elt F) := Host.divf (F := F) v20 v21
  have c_3 : (⟨S_, .i32⟩ : BufTy).Contents (Elt F) := constantI S_ 32 0#32
  have call2_cst : (⟨S_, .f32⟩ : BufTy).Contents (Elt F) := constant (F := F) S_ .f32 0x00000000#32
  have call2_v0 : (⟨S64, .f32⟩ : BufTy).Contents (Elt F) := Host.reduceAdd (F := F) v18 call2_cst reducesTo_S64x2048_S64_d1 h_S_
  have call2_v1 : (⟨S64x1, .f32⟩ : BufTy).Contents (Elt F) := broadcastInDim S64x1 ![0] bcast_S64_S64x1_0 call2_v0
  have call2_cst_0 : (⟨S_, .f32⟩ : BufTy).Contents (Elt F) := constant (F := F) S_ .f32 0x45000000#32
  have call2_v2 : (⟨S64x1, .f32⟩ : BufTy).Contents (Elt F) := broadcastInDim S64x1 ![] bcast_S_S64x1 call2_cst_0
  have call2_v3 : (⟨S64x1, .f32⟩ : BufTy).Contents (Elt F) := Host.divf (F := F) call2_v1 call2_v2
  have call2_v4 : (⟨S64x2048, .f32⟩ : BufTy).Contents (Elt F) := broadcastInDim S64x2048 ![0, 1] bcast_S64x1_S64x2048_0_1 call2_v3
  have call2_v5 : (⟨S64x2048, .f32⟩ : BufTy).Contents (Elt F) := subf (F := F) v18 call2_v4
  have call2_v6 : (⟨S64x2048, .f32⟩ : BufTy).Contents (Elt F) := mulf (F := F) call2_v5 call2_v5
  have call2_v7 : (⟨S_, .f32⟩ : BufTy).Contents (Elt F) := sitofp (F := F) .f32 c_3
  have call2_cst_1 : (⟨S_, .f32⟩ : BufTy).Contents (Elt F) := constant (F := F) S_ .f32 0x45000000#32
  have call2_v8 : (⟨S_, .f32⟩ : BufTy).Contents (Elt F) := subf (F := F) call2_cst_1 call2_v7
  have call2_cst_2 : (⟨S_, .f32⟩ : BufTy).Contents (Elt F) := constant (F := F) S_ .f32 0x00000000#32
  have call2_v9 : (⟨S64, .f32⟩ : BufTy).Contents (Elt F) := Host.reduceAdd (F := F) call2_v6 call2_cst_2 reducesTo_S64x2048_S64_d1 h_S_
  have call2_v10 : (⟨S64x1, .f32⟩ : BufTy).Contents (Elt F) := broadcastInDim S64x1 ![0] bcast_S64_S64x1_0 call2_v9
  have call2_v11 : (⟨S64x1, .f32⟩ : BufTy).Contents (Elt F) := broadcastInDim S64x1 ![] bcast_S_S64x1 call2_v8
  have call2_v12 : (⟨S64x1, .f32⟩ : BufTy).Contents (Elt F) := Host.divf (F := F) call2_v10 call2_v11
  have call2_cst_3 : (⟨S_, .f32⟩ : BufTy).Contents (Elt F) := constant (F := F) S_ .f32 0x00000000#32
  have call2_v13 : (⟨S_, .i1⟩ : BufTy).Contents (Elt F) := cmpf (F := F) .ogt call2_v8 call2_cst_3
  have call2_cst_4 : (⟨S_, .f32⟩ : BufTy).Contents (Elt F) := constant (F := F) S_ .f32 0x7FC00000#32
  have call2_call0_v0 : (⟨S_, .f32⟩ : BufTy).Contents (Elt F) := id call2_cst_4
  have call2_call0_v1 : (⟨S64x1, .f32⟩ : BufTy).Contents (Elt F) := broadcastInDim S64x1 ![] bcast_S_S64x1 call2_call0_v0
  have v23 : (⟨S64x1, .f32⟩ : BufTy).Contents (Elt F) := select (broadcastInDim S64x1 ![] bcast_S_S64x1 call2_v13) call2_v12 call2_call0_v1
  have v24 : (⟨S64x2048, .f32⟩ : BufTy).Contents (Elt F) := broadcastInDim S64x2048 ![0, 1] bcast_S64x1_S64x2048_0_1 v22
  have v25 : (⟨S64x2048, .f32⟩ : BufTy).Contents (Elt F) := subf (F := F) v18 v24
  have cst_4 : (⟨S_, .f32⟩ : BufTy).Contents (Elt F) := constant (F := F) S_ .f32 0x3727C5AC#32
  have v26 : (⟨S64x1, .f32⟩ : BufTy).Contents (Elt F) := broadcastInDim S64x1 ![] bcast_S_S64x1 cst_4
  have v27 : (⟨S64x1, .f32⟩ : BufTy).Contents (Elt F) := addf (F := F) v23 v26
  have v28 : (⟨S64x1, .f32⟩ : BufTy).Contents (Elt F) := Host.rsqrt (F := F) v27
  have v29 : (⟨S64x2048, .f32⟩ : BufTy).Contents (Elt F) := broadcastInDim S64x2048 ![0, 1] bcast_S64x1_S64x2048_0_1 v28
  have v30 : (⟨S64x2048, .f32⟩ : BufTy).Contents (Elt F) := mulf (F := F) v25 v29
  have v31 : (⟨S1x2048, .f32⟩ : BufTy).Contents (Elt F) := broadcastInDim S1x2048 ![1] bcast_S2048_S1x2048_1 a5
  have v32 : (⟨S64x2048, .f32⟩ : BufTy).Contents (Elt F) := broadcastInDim S64x2048 ![0, 1] bcast_S1x2048_S64x2048_0_1 v31
  have v33 : (⟨S64x2048, .f32⟩ : BufTy).Contents (Elt F) := mulf (F := F) v30 v32
  have v34 : (⟨S1x2048, .f32⟩ : BufTy).Contents (Elt F) := broadcastInDim S1x2048 ![1] bcast_S2048_S1x2048_1 a6
  have v35 : (⟨S64x2048, .f32⟩ : BufTy).Contents (Elt F) := broadcastInDim S64x2048 ![0, 1] bcast_S1x2048_S64x2048_0_1 v34
  have v36 : (⟨S64x2048, .f32⟩ : BufTy).Contents (Elt F) := addf (F := F) v33 v35
  have v37 : (⟨S2048x256, .f32⟩ : BufTy).Contents (Elt F) := transpose S2048x256 [1, 0] a7 transposes_S256x2048_S2048x256_1_0
  have v38 : (⟨S64x256, .f32⟩ : BufTy).Contents (Elt F) := Host.dotGeneral (F := F) dot_S64x2048_S2048x256_S64x256_1_0_0_1_n_n none v36 v37
  have v39 : (⟨S1x256, .f32⟩ : BufTy).Contents (Elt F) := broadcastInDim S1x256 ![1] bcast_S256_S1x256_1 a8
  have v40 : (⟨S64x256, .f32⟩ : BufTy).Contents (Elt F) := broadcastInDim S64x256 ![0, 1] bcast_S1x256_S64x256_0_1 v39
  have v41 : (⟨S64x256, .f32⟩ : BufTy).Contents (Elt F) := addf (F := F) v38 v40
  have call3_cst : (⟨S_, .f32⟩ : BufTy).Contents (Elt F) := constant (F := F) S_ .f32 0x00000000#32
  have call3_v0 : (⟨S64x256, .f32⟩ : BufTy).Contents (Elt F) := broadcastInDim S64x256 ![] bcast_S_S64x256 call3_cst
  have v42 : (⟨S64x256, .f32⟩ : BufTy).Contents (Elt F) := maximumf (F := F) v41 call3_v0
  have v43 : (⟨S256x2, .f32⟩ : BufTy).Contents (Elt F) := transpose S256x2 [1, 0] a9 transposes_S2x256_S256x2_1_0
  have v44 : (⟨S64x2, .f32⟩ : BufTy).Contents (Elt F) := Host.dotGeneral (F := F) dot_S64x256_S256x2_S64x2_1_0_0_1_n_n none v42 v43
  have v45 : (⟨S1x2, .f32⟩ : BufTy).Contents (Elt F) := broadcastInDim S1x2 ![1] bcast_S2_S1x2_1 a10
  have v46 : (⟨S64x2, .f32⟩ : BufTy).Contents (Elt F) := broadcastInDim S64x2 ![0, 1] bcast_S1x2_S64x2_0_1 v45
  have v47 : (⟨S64x2, .f32⟩ : BufTy).Contents (Elt F) := addf (F := F) v44 v46
  v47

/-- The reference's result: the tail of the rectified rows. -/
def refOut (a0 : (⟨S64x512, .i32⟩ : BufTy).Contents (Elt F)) (a1 : (⟨S50257x2048, .f32⟩ : BufTy).Contents (Elt F)) (a2 : (⟨S2048x2048, .f32⟩ : BufTy).Contents (Elt F)) (a3 : (⟨S2048x2048, .f32⟩ : BufTy).Contents (Elt F)) (a4 : (⟨S2048x2048, .f32⟩ : BufTy).Contents (Elt F)) (a5 : (⟨S2048, .f32⟩ : BufTy).Contents (Elt F)) (a6 : (⟨S2048, .f32⟩ : BufTy).Contents (Elt F)) (a7 : (⟨S256x2048, .f32⟩ : BufTy).Contents (Elt F)) (a8 : (⟨S256, .f32⟩ : BufTy).Contents (Elt F)) (a9 : (⟨S2x256, .f32⟩ : BufTy).Contents (Elt F)) (a10 : (⟨S2, .f32⟩ : BufTy).Contents (Elt F)) :
    (⟨S64x2, .f32⟩ : BufTy).Contents (Elt F) :=
  tail (F := F) (acts (F := F) a0 a1) a2 a3 a4 a5 a6 a7 a8 a9 a10

end Cert.ReferenceIdeal.RefTerm

end
-- ==== Proof.Ref.Run.lean ====
/-
  The run of the reference program. Its entry function is a straight line of tensor operations on the host
  with four calls of outlined functions: a rectifier (twice on 64×2048 arrays, once on a 64×256 array), each
  a zero constant, its broadcast and an elementwise maximum, and a row variance, which is a row mean, the
  centred squares, their row sum over the count 2048 − 0, and a final selection (itself an outlined function:
  the divisor's positivity picks the quotient, otherwise the not-a-number constant broadcast). Substituting
  each callee's body at its call, over the buffers that call owns, leaves one list of 83 operations. The
  entry function equals the sequence of that list; since the signature scopes no buffer and no semaphore,
  every execution ends with each buffer at the fold of the list over the launch contents. The eleven argument
  buffers are written by no operation, so the fold leaves them as they were; the result buffer holds the
  composed term of the arguments.
-/
import proofs.«129554_j18485539242697_1_alg».proof.ReferenceIdeal
import proofs.«129554_j18485539242697_1_alg».proof.Proof.Gen.ReferenceIdeal
import proofs.«129554_j18485539242697_1_alg».proof.Proof.Ref.Term
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The entry function's operations in program order, every call replaced by its callee's operations over
    that call's own buffers: the token gather (last column of the index array, negative indices wrapped by
    the table height, one table row per index), the rectifier, the product of the two square weights
    transposed and contracted with the rectified rows, half of it added back, the contraction with the third
    square weight, the rectifier again, then the row normalisation (mean, variance through the nested
    selection, reciprocal square root of variance plus a small constant, scale and shift by the two vectors),
    the 2048→256 projection with its bias, the rectifier at 64×256, and the 256→2 projection with its bias. -/
abbrev ops : List (HloOp τ sig (Elt F)) :=
  [ unary main_arg0 main_v0 ((extractStridedSlice S64x1 ![0, 511] · slices_S64x512_S64x1_0_511) : (⟨S64x512, .i32⟩ : BufTy).Contents (Elt F) → (⟨S64x1, .i32⟩ : BufTy).Contents (Elt F)),
    reshape main_v0 main_v1 rfl shapeCasts_S64x1_S64,
    nullary main_c (constantI S_ 32 0#32),
    unary main_c main_v2 (broadcastInDim S64 ![] bcast_S_S64 : (⟨S_, .i32⟩ : BufTy).Contents (Elt F) → (⟨S64, .i32⟩ : BufTy).Contents (Elt F)),
    binary main_v1 main_v2 main_v3 (cmpi .slt : (⟨S64, .i32⟩ : BufTy).Contents (Elt F) → (⟨S64, .i32⟩ : BufTy).Contents (Elt F) → (⟨S64, .i1⟩ : BufTy).Contents (Elt F)),
    nullary main_c_0 (constantI S_ 32 50257#32),
    unary main_c_0 main_v4 (broadcastInDim S64 ![] bcast_S_S64 : (⟨S_, .i32⟩ : BufTy).Contents (Elt F) → (⟨S64, .i32⟩ : BufTy).Contents (Elt F)),
    binary main_v1 main_v4 main_v5 (addi : (⟨S64, .i32⟩ : BufTy).Contents (Elt F) → (⟨S64, .i32⟩ : BufTy).Contents (Elt F) → (⟨S64, .i32⟩ : BufTy).Contents (Elt F)),
    ternary main_v3 main_v5 main_v1 main_v6 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v6 main_v7 (broadcastInDim S64x1 ![0] bcast_S64_S64x1_0 : (⟨S64, .i32⟩ : BufTy).Contents (Elt F) → (⟨S64x1, .i32⟩ : BufTy).Contents (Elt F)),
    binary main_arg1 main_v7 main_v8 ((fun x i => Host.gather gather_S50257x2048_S64x1_S64x2048_1_0_n_n_0_1_12048 x i) : (⟨S50257x2048, .f32⟩ : BufTy).Contents (Elt F) → (⟨S64x1, .i32⟩ : BufTy).Contents (Elt F) → (⟨S64x2048, .f32⟩ : BufTy).Contents (Elt F)),
    TRef.nullary main_call0.cst (constant S_ .f32 0x00000000#32),
    TRef.unary main_call0.cst main_call0.v0 (broadcastInDim S64x2048 ![] bcast_S_S64x2048),
    TRef.binary (.of main_v8 : TRef sig ⟨S64x2048, .f32⟩) main_call0.v0 main_call0.v1 maximumf,
    binary main_arg2 main_arg3 main_v10 (mulf : (⟨S2048x2048, .f32⟩ : BufTy).Contents (Elt F) → (⟨S2048x2048, .f32⟩ : BufTy).Contents (Elt F) → (⟨S2048x2048, .f32⟩ : BufTy).Contents (Elt F)),
    unary main_v10 main_v11 ((transpose S2048x2048 [1, 0] · transposes_S2048x2048_S2048x2048_1_0) : (⟨S2048x2048, .f32⟩ : BufTy).Contents (Elt F) → (⟨S2048x2048, .f32⟩ : BufTy).Contents (Elt F)),
    binary main_v9 main_v11 main_v12 ((fun l r => Host.dotGeneral dot_S64x2048_S2048x2048_S64x2048_1_0_0_1_n_n none l r) : (⟨S64x2048, .f32⟩ : BufTy).Contents (Elt F) → (⟨S2048x2048, .f32⟩ : BufTy).Contents (Elt F) → (⟨S64x2048, .f32⟩ : BufTy).Contents (Elt F)),
    nullary main_cst (constant S_ .f32 0x3F000000#32),
    unary main_cst main_v13 (broadcastInDim S64x2048 ![] bcast_S_S64x2048 : (⟨S_, .f32⟩ : BufTy).Contents (Elt F) → (⟨S64x2048, .f32⟩ : BufTy).Contents (Elt F)),
    binary main_v13 main_v12 main_v14 (mulf : (⟨S64x2048, .f32⟩ : BufTy).Contents (Elt F) → (⟨S64x2048, .f32⟩ : BufTy).Contents (Elt F) → (⟨S64x2048, .f32⟩ : BufTy).Contents (Elt F)),
    binary main_v9 main_v14 main_v15 (addf : (⟨S64x2048, .f32⟩ : BufTy).Contents (Elt F) → (⟨S64x2048, .f32⟩ : BufTy).Contents (Elt F) → (⟨S64x2048, .f32⟩ : BufTy).Contents (Elt F)),
    unary main_arg4 main_v16 ((transpose S2048x2048 [1, 0] · transposes_S2048x2048_S2048x2048_1_0) : (⟨S2048x2048, .f32⟩ : BufTy).Contents (Elt F) → (⟨S2048x2048, .f32⟩ : BufTy).Contents (Elt F)),
    binary main_v15 main_v16 main_v17 ((fun l r => Host.dotGeneral dot_S64x2048_S2048x2048_S64x2048_1_0_0_1_n_n none l r) : (⟨S64x2048, .f32⟩ : BufTy).Contents (Elt F) → (⟨S2048x2048, .f32⟩ : BufTy).Contents (Elt F) → (⟨S64x2048, .f32⟩ : BufTy).Contents (Elt F)),
    TRef.nullary main_call1.cst (constant S_ .f32 0x00000000#32),
    TRef.unary main_call1.cst main_call1.v0 (broadcastInDim S64x2048 ![] bcast_S_S64x2048),
    TRef.binary (.of main_v17 : TRef sig ⟨S64x2048, .f32⟩) main_call1.v0 main_call1.v1 maximumf,
    nullary main_cst_1 (constant S_ .f32 0x00000000#32),
    binary main_v18 main_cst_1 main_v19 ((fun x v => Host.reduceAdd x v reducesTo_S64x2048_S64_d1 h_S_) : (⟨S64x2048, .f32⟩ : BufTy).Contents (Elt F) → (⟨S_, .f32⟩ : BufTy).Contents (Elt F) → (⟨S64, .f32⟩ : BufTy).Contents (Elt F)),
    unary main_v19 main_v20 (broadcastInDim S64x1 ![0] bcast_S64_S64x1_0 : (⟨S64, .f32⟩ : BufTy).Contents (Elt F) → (⟨S64x1, .f32⟩ : BufTy).Contents (Elt F)),
    nullary main_cst_2 (constant S_ .f32 0x45000000#32),
    unary main_cst_2 main_v21 (broadcastInDim S64x1 ![] bcast_S_S64x1 : (⟨S_, .f32⟩ : BufTy).Contents (Elt F) → (⟨S64x1, .f32⟩ : BufTy).Contents (Elt F)),
    binary main_v20 main_v21 main_v22 (Host.divf : (⟨S64x1, .f32⟩ : BufTy).Contents (Elt F) → (⟨S64x1, .f32⟩ : BufTy).Contents (Elt F) → (⟨S64x1, .f32⟩ : BufTy).Contents (Elt F)),
    nullary main_c_3 (constantI S_ 32 0#32),
    TRef.nullary main_call2.cst (constant S_ .f32 0x00000000#32),
    TRef.binary (.of main_v18 : TRef sig ⟨S64x2048, .f32⟩) main_call2.cst main_call2.v0 (fun x v => Host.reduceAdd x v reducesTo_S64x2048_S64_d1 h_S_),
    TRef.unary main_call2.v0 main_call2.v1 (broadcastInDim S64x1 ![0] bcast_S64_S64x1_0),
    TRef.nullary main_call2.cst_0 (constant S_ .f32 0x45000000#32),
    TRef.unary main_call2.cst_0 main_call2.v2 (broadcastInDim S64x1 ![] bcast_S_S64x1),
    TRef.binary main_call2.v1 main_call2.v2 main_call2.v3 Host.divf,
    TRef.unary main_call2.v3 main_call2.v4 (broadcastInDim S64x2048 ![0, 1] bcast_S64x1_S64x2048_0_1),
    TRef.binary (.of main_v18 : TRef sig ⟨S64x2048, .f32⟩) main_call2.v4 main_call2.v5 subf,
    TRef.binary main_call2.v5 main_call2.v5 main_call2.v6 mulf,
    TRef.unary (.of main_c_3 : TRef sig ⟨S_, .i32⟩) main_call2.v7 (sitofp .f32),
    TRef.nullary main_call2.cst_1 (constant S_ .f32 0x45000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S64x2048_S64_d1 h_S_),
    TRef.unary main_call2.v9 main_call2.v10 (broadcastInDim S64x1 ![0] bcast_S64_S64x1_0),
    TRef.unary main_call2.v8 main_call2.v11 (broadcastInDim S64x1 ![] bcast_S_S64x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary (main_call2.cst_4 : TRef sig ⟨S_, .f32⟩) main_call2.call0.v0 id,
    TRef.unary main_call2.call0.v0 main_call2.call0.v1 (broadcastInDim S64x1 ![] bcast_S_S64x1),
    TRef.ternary (main_call2.v13 : TRef sig ⟨S_, .i1⟩) (main_call2.v12 : TRef sig ⟨S64x1, .f32⟩) main_call2.call0.v1 main_call2.call0.v2 (fun p a b => select (broadcastInDim S64x1 ![] bcast_S_S64x1 p) a b),
    unary main_v22 main_v24 (broadcastInDim S64x2048 ![0, 1] bcast_S64x1_S64x2048_0_1 : (⟨S64x1, .f32⟩ : BufTy).Contents (Elt F) → (⟨S64x2048, .f32⟩ : BufTy).Contents (Elt F)),
    binary main_v18 main_v24 main_v25 (subf : (⟨S64x2048, .f32⟩ : BufTy).Contents (Elt F) → (⟨S64x2048, .f32⟩ : BufTy).Contents (Elt F) → (⟨S64x2048, .f32⟩ : BufTy).Contents (Elt F)),
    nullary main_cst_4 (constant S_ .f32 0x3727C5AC#32),
    unary main_cst_4 main_v26 (broadcastInDim S64x1 ![] bcast_S_S64x1 : (⟨S_, .f32⟩ : BufTy).Contents (Elt F) → (⟨S64x1, .f32⟩ : BufTy).Contents (Elt F)),
    binary main_v23 main_v26 main_v27 (addf : (⟨S64x1, .f32⟩ : BufTy).Contents (Elt F) → (⟨S64x1, .f32⟩ : BufTy).Contents (Elt F) → (⟨S64x1, .f32⟩ : BufTy).Contents (Elt F)),
    unary main_v27 main_v28 (Host.rsqrt : (⟨S64x1, .f32⟩ : BufTy).Contents (Elt F) → (⟨S64x1, .f32⟩ : BufTy).Contents (Elt F)),
    unary main_v28 main_v29 (broadcastInDim S64x2048 ![0, 1] bcast_S64x1_S64x2048_0_1 : (⟨S64x1, .f32⟩ : BufTy).Contents (Elt F) → (⟨S64x2048, .f32⟩ : BufTy).Contents (Elt F)),
    binary main_v25 main_v29 main_v30 (mulf : (⟨S64x2048, .f32⟩ : BufTy).Contents (Elt F) → (⟨S64x2048, .f32⟩ : BufTy).Contents (Elt F) → (⟨S64x2048, .f32⟩ : BufTy).Contents (Elt F)),
    unary main_arg5 main_v31 (broadcastInDim S1x2048 ![1] bcast_S2048_S1x2048_1 : (⟨S2048, .f32⟩ : BufTy).Contents (Elt F) → (⟨S1x2048, .f32⟩ : BufTy).Contents (Elt F)),
    unary main_v31 main_v32 (broadcastInDim S64x2048 ![0, 1] bcast_S1x2048_S64x2048_0_1 : (⟨S1x2048, .f32⟩ : BufTy).Contents (Elt F) → (⟨S64x2048, .f32⟩ : BufTy).Contents (Elt F)),
    binary main_v30 main_v32 main_v33 (mulf : (⟨S64x2048, .f32⟩ : BufTy).Contents (Elt F) → (⟨S64x2048, .f32⟩ : BufTy).Contents (Elt F) → (⟨S64x2048, .f32⟩ : BufTy).Contents (Elt F)),
    unary main_arg6 main_v34 (broadcastInDim S1x2048 ![1] bcast_S2048_S1x2048_1 : (⟨S2048, .f32⟩ : BufTy).Contents (Elt F) → (⟨S1x2048, .f32⟩ : BufTy).Contents (Elt F)),
    unary main_v34 main_v35 (broadcastInDim S64x2048 ![0, 1] bcast_S1x2048_S64x2048_0_1 : (⟨S1x2048, .f32⟩ : BufTy).Contents (Elt F) → (⟨S64x2048, .f32⟩ : BufTy).Contents (Elt F)),
    binary main_v33 main_v35 main_v36 (addf : (⟨S64x2048, .f32⟩ : BufTy).Contents (Elt F) → (⟨S64x2048, .f32⟩ : BufTy).Contents (Elt F) → (⟨S64x2048, .f32⟩ : BufTy).Contents (Elt F)),
    unary main_arg7 main_v37 ((transpose S2048x256 [1, 0] · transposes_S256x2048_S2048x256_1_0) : (⟨S256x2048, .f32⟩ : BufTy).Contents (Elt F) → (⟨S2048x256, .f32⟩ : BufTy).Contents (Elt F)),
    binary main_v36 main_v37 main_v38 ((fun l r => Host.dotGeneral dot_S64x2048_S2048x256_S64x256_1_0_0_1_n_n none l r) : (⟨S64x2048, .f32⟩ : BufTy).Contents (Elt F) → (⟨S2048x256, .f32⟩ : BufTy).Contents (Elt F) → (⟨S64x256, .f32⟩ : BufTy).Contents (Elt F)),
    unary main_arg8 main_v39 (broadcastInDim S1x256 ![1] bcast_S256_S1x256_1 : (⟨S256, .f32⟩ : BufTy).Contents (Elt F) → (⟨S1x256, .f32⟩ : BufTy).Contents (Elt F)),
    unary main_v39 main_v40 (broadcastInDim S64x256 ![0, 1] bcast_S1x256_S64x256_0_1 : (⟨S1x256, .f32⟩ : BufTy).Contents (Elt F) → (⟨S64x256, .f32⟩ : BufTy).Contents (Elt F)),
    binary main_v38 main_v40 main_v41 (addf : (⟨S64x256, .f32⟩ : BufTy).Contents (Elt F) → (⟨S64x256, .f32⟩ : BufTy).Contents (Elt F) → (⟨S64x256, .f32⟩ : BufTy).Contents (Elt F)),
    TRef.nullary main_call3.cst (constant S_ .f32 0x00000000#32),
    TRef.unary main_call3.cst main_call3.v0 (broadcastInDim S64x256 ![] bcast_S_S64x256),
    TRef.binary (.of main_v41 : TRef sig ⟨S64x256, .f32⟩) main_call3.v0 main_call3.v1 maximumf,
    unary main_arg9 main_v43 ((transpose S256x2 [1, 0] · transposes_S2x256_S256x2_1_0) : (⟨S2x256, .f32⟩ : BufTy).Contents (Elt F) → (⟨S256x2, .f32⟩ : BufTy).Contents (Elt F)),
    binary main_v42 main_v43 main_v44 ((fun l r => Host.dotGeneral dot_S64x256_S256x2_S64x2_1_0_0_1_n_n none l r) : (⟨S64x256, .f32⟩ : BufTy).Contents (Elt F) → (⟨S256x2, .f32⟩ : BufTy).Contents (Elt F) → (⟨S64x2, .f32⟩ : BufTy).Contents (Elt F)),
    unary main_arg10 main_v45 (broadcastInDim S1x2 ![1] bcast_S2_S1x2_1 : (⟨S2, .f32⟩ : BufTy).Contents (Elt F) → (⟨S1x2, .f32⟩ : BufTy).Contents (Elt F)),
    unary main_v45 main_v46 (broadcastInDim S64x2 ![0, 1] bcast_S1x2_S64x2_0_1 : (⟨S1x2, .f32⟩ : BufTy).Contents (Elt F) → (⟨S64x2, .f32⟩ : BufTy).Contents (Elt F)),
    binary main_v44 main_v46 main_v47 (addf : (⟨S64x2, .f32⟩ : BufTy).Contents (Elt F) → (⟨S64x2, .f32⟩ : BufTy).Contents (Elt F) → (⟨S64x2, .f32⟩ : BufTy).Contents (Elt F)) ]

-- eighty-three sequencing steps to re-associate, nested one level per operation
set_option maxRecDepth 4096 in
set_option maxHeartbeats 2000000 in
/-- The entry function is that straight line: with the four callees' definitions unfolded at their calls, both
    sides are one chain of single steps once sequencing is re-associated. -/
theorem main_eq (c : Dev nD) : main (F := F) c = seq ops := by
  simp only [main, fn_relu.body, fn_var.body, fn_where.body, fn_relu_0.body, seq, bind_assoc, pure_bind]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., binary_bufs_sub .., unary_bufs_sub .., binary_bufs_sub .., nullary_bufs_sub ..,
    unary_bufs_sub .., binary_bufs_sub .., binary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub ..⟩

/-- On the compiled mesh, for any float values, from any memory with every counter zero: every weakly fair
    execution of the entry function terminates, and each buffer of each device then holds the fold of the
    operations over that device's launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are left as they were

No operation's result buffer is an argument buffer, so the fold returns each argument's launch contents. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem arg10_eq (V : Valuation τ sig (Elt F)) :
    after ops V (main_arg10 : DevRef τ sig) = V (main_arg10 : DevRef τ sig) := by
  simp only [after_cons, after_nil]
  rfl

/-! ## The result

The fold at the result buffer is the composed term of the eleven arguments: unrolling the fold, each operation
contributes its function's value at the one buffer it writes and passes every other buffer through, and the
typed references' transports are identities at literal references. The gather, the host quotient and the host
reciprocal square root are kept folded meanwhile: the equation never looks inside them. -/

attribute [local irreducible] Host.gather Host.divf Host.rsqrt in
set_option maxRecDepth 8192 in
set_option maxHeartbeats 1600000 in
theorem out_eq (V : Valuation τ sig (Elt F)) :
    after ops V (main_v47 : DevRef τ sig)
      = Cert.ReferenceIdeal.RefTerm.refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  simp only [after_cons, after_nil]
  rfl

end Cert.ReferenceIdeal.RefRun

end
-- ==== Proof.LibPlainDotGeneral.lean ====
/-
  A plain matrix product computed on the host, read at an entry.

  For the dimension numbers `⟨[1], [0], [0], [1], [], []⟩` (an M×K operand times a K×N operand, no batch axis), the
  host's product has, at entry (p, q), the value Σ_k lhs (p, k) · rhs (k, q) on the extended reals: there is no
  accumulator, no rounding and no order of summation left in it, whatever precision the product was asked at. The
  statement is generic in the three extents and in the operands' float formats, so it serves every plain product of a
  host program; a printed dimension record with these six lists IS `DotDims.plain M K N` (its well-formedness proof is
  a proposition), so the lemma applies to it as it stands.
-/
import Idealize.ShloMosaic.PureOps.Ideal.Laws
import Idealize.ShloMosaic.Lib.ValueIdx
import proofs.«129554_j18485539242697_1_alg».proof.Proof.LibPlainDot

namespace Idealize.ShloMosaic.PlainDot

open Idealize.ShloMosaic Idealize.ShloMosaic.ValueIdx

/-- A plain M×K by K×N product on the host, at entry (p, q), is `Σ_k lhs (p, k) · rhs (k, q)`: the sum over the
    contraction index of the products of the left operand's row p and the right operand's column q, re-indexed by the
    one coordinate of the contraction. -/
theorem dotGeneral_apply_plain {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Ref.Value.lean ====
/-
  The reference's tail, read at an entry, is the specified network.

  From the rectified embedding rows a (64 × 2048) the reference computes, stage by stage:
    x = a + ½ · a · (adj ∘ syn)ᵀ      the masked synapse matrix is a pointwise product, its transpose contracted with a;
    y = max(x · Wᵀ, 0);
    μ = (Σ_k y[·,k]) / 2048, the sum taken from the zero word, so it is the bare sum;
    v = (Σ_k (y − μ)²) / (2048 − float(0)), selected against a not-a-number word on 2048 − float(0) > 0: on the
        extended reals float(0) is 0, 2048 − 0 is 2048, which is positive, so the selection keeps the quotient and
        the divisor is the very word the mean divides by;
    n = (y − μ) · rsqrt(v + ε) · g + b, gain and bias broadcast along the rows (each in two steps);
    h = max(n · Rᵀ + r, 0);   o = h · Cᵀ + c.
  Each stage is stated here as a function of the previous stage's array and proved, entry by entry, to be the
  specification's step of that array; the composition is the network.
-/
import proofs.«129554_j18485539242697_1_alg».proof.Proof.Ref.Term
import proofs.«129554_j18485539242697_1_alg».proof.Proof.Spec
import proofs.«129554_j18485539242697_1_alg».proof.Proof.LibPlainDot
import proofs.«129554_j18485539242697_1_alg».proof.Proof.LibPlainDotGeneral
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Data.EReal.Basic
import Mathlib.Data.EReal.Operations

noncomputable section

namespace Cert.ReferenceIdeal.RefValue

open Idealize.ShloMosaic Idealize.ShloMosaic.ValueIdx
open Cert.ReferenceIdeal Cert.ReferenceIdeal.Facts₀ Cert.ReferenceIdeal.Facts

/-! ## Words -/

/-- The word 0x45000000 denotes a positive extended real (it is 2048). -/
theorem width_pos : (0 : EReal) < Ideal.ofBits .f32 0x45000000#32 := by
  have h : Ideal.ofBits .f32 0x45000000#32 = ((2048 : ℝ) : EReal) := by
    simp [Ideal.ofBits, Ideal.ieee, -EReal.coe_mul]; norm_num
  rw [h]
  exact_mod_cast (by norm_num : (0 : ℝ) < 2048)

/-! ## Layout operations at an entry -/

section Layout
variable {α : Type}

/-- A scalar broadcast to any shape reads the scalar everywhere. -/
theorem bcast_scalar_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A vector made a one-column matrix reads, at (p, 0), the vector at p. -/
theorem bcast_col_apply {a : ℕ} (x : (⟨1, ![a]⟩ : Shape).Idx → α)
    (h : (⟨1, ![a]⟩ : Shape).BroadcastsInDim ⟨2, ![a, 1]⟩ (![0] : Fin 1 → Fin 2)) (p : Fin a) :
    broadcastInDim ⟨2, ![a, 1]⟩ ![0] h x (ix2 p (0 : Fin 1)) = x (ix1 p) := by
  refine broadcastInDim_apply _ h x _ (ix1 p) fun ax => ?_
  match ax with
  | ⟨0, _⟩ =>
    show p.val = if a = 1 then 0 else p.val
    split
    · have := p.isLt; omega
    · rfl

/-- A one-column matrix broadcast along its rows reads, at (p, q), the column at p. -/
theorem bcast_wide_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ => rfl

/-- A vector made a one-row matrix reads, at (0, q), the vector at q. -/
theorem bcast_row_apply {b : ℕ} (x : (⟨1, ![b]⟩ : Shape).Idx → α)
    (h : (⟨1, ![b]⟩ : Shape).BroadcastsInDim ⟨2, ![1, b]⟩ (![1] : Fin 1 → Fin 2)) (q : Fin b) :
    broadcastInDim ⟨2, ![1, b]⟩ ![1] h x (ix2 (0 : Fin 1) q) = x (ix1 q) := by
  refine broadcastInDim_apply _ h x _ (ix1 q) fun ax => ?_
  match ax with
  | ⟨0, _⟩ =>
    show q.val = if b = 1 then 0 else q.val
    split
    · have := q.isLt; omega
    · rfl

/-- A one-row matrix broadcast down its columns reads, at (p, q), the row at q. -/
theorem bcast_tall_apply {a b : ℕ} (x : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h x (ix2 p q) = x (ix2 (0 : Fin 1) q) := by
  refine broadcastInDim_apply _ h x _ (ix2 (0 : Fin 1) q) fun ax => ?_
  match ax with
  | ⟨0, _⟩ => rfl
  | ⟨1, _⟩ =>
    show q.val = if b = 1 then 0 else q.val
    split
    · have := q.isLt; omega
    · rfl

/-- A vector broadcast along the rows in the two steps the program takes reads, at (p, q), the vector at q. -/
theorem bcast_row_tall_apply {a b : ℕ} (x : (⟨1, ![b]⟩ : Shape).Idx → α)
    (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2)) (p : Fin a) (q : Fin b) :
    broadcastInDim ⟨2, ![a, b]⟩ ![0, 1] h₂ (broadcastInDim ⟨2, ![1, b]⟩ ![1] h₁ x) (ix2 p q) = x (ix1 q) := by
  rw [bcast_tall_apply, bcast_row_apply]

end Layout

/-! ## The non-pointwise operations at an entry -/

/-- A row's sum from the zero word is the bare sum over the row. -/
theorem rowSum_apply (v : FVec Ideal S64x2048 .f32) (p : Fin 64) :
    Host.reduceAdd (F := Ideal) v (constant (F := Ideal) S_ .f32 0x00000000#32) reducesTo_S64x2048_S64_d1 h_S_ (ix1 p)
      = ∑ k : Fin 2048, v (ix2 p k) := by
  have hr : S64x2048.Reduces [1] S64 := by decide
  show Ideal.hostReduceAdd reducesTo_S64x2048_S64_d1 v (Ideal.ofBits .f32 0x00000000#32) (ix1 p) = _
  rw [Ideal.hostReduceAdd_single reducesTo_S64x2048_S64_d1 hr, Ideal.ofBits_zero_f32, zero_add]
  refine Finset.sum_congr rfl fun k _ => congrArg v ?_
  funext a
  match a with
  | ⟨0, _⟩ => rfl
  | ⟨1, _⟩ => rfl

/-- The 64 × 2048 by 2048 × 2048 product at (p, q). -/
theorem dot_wide_apply (l : FVec Ideal S64x2048 .f32) (r : FVec Ideal S2048x2048 .f32) (p : Fin 64) (q : Fin 2048) :
    Host.dotGeneral (F := Ideal) dot_S64x2048_S2048x2048_S64x2048_1_0_0_1_n_n none l r (ix2 p q)
      = ∑ k : Fin 2048, l (ix2 p k) * r (ix2 k q) :=
  PlainDot.dotGeneral_apply_plain 64 2048 2048 none l r p q

/-- The 64 × 2048 by 2048 × 256 product at (p, j). -/
theorem dot_read_apply (l : FVec Ideal S64x2048 .f32) (r : FVec Ideal S2048x256 .f32) (p : Fin 64) (j : Fin 256) :
    Host.dotGeneral (F := Ideal) dot_S64x2048_S2048x256_S64x256_1_0_0_1_n_n none l r (ix2 p j)
      = ∑ k : Fin 2048, l (ix2 p k) * r (ix2 k j) :=
  PlainDot.dotGeneral_apply_plain 64 2048 256 none l r p j

/-- The 64 × 256 by 256 × 2 product at (p, l). -/
theorem dot_cls_apply (h : FVec Ideal S64x256 .f32) (r : FVec Ideal S256x2 .f32) (p : Fin 64) (l : Fin 2) :
    Host.dotGeneral (F := Ideal) dot_S64x256_S256x2_S64x2_1_0_0_1_n_n none h r (ix2 p l)
      = ∑ j : Fin 256, h (ix2 p j) * r (ix2 j l) :=
  PlainDot.dotGeneral_apply_plain 64 256 2 none h r p l

/-- The transposed square matrix at (k, q) is the matrix at (q, k). -/
theorem transpose_sq_apply (x : FVec Ideal S2048x2048 .f32) (k q : Fin 2048) :
    transpose S2048x2048 [1, 0] x transposes_S2048x2048_S2048x2048_1_0 (ix2 k q) = x (ix2 q k) :=
  transpose_ix2_apply x transposes_S2048x2048_S2048x2048_1_0 k q

/-- The transposed read-out weight at (k, j) is the weight at (j, k). -/
theorem transpose_read_apply (x : FVec Ideal S256x2048 .f32) (k : Fin 2048) (j : Fin 256) :
    transpose S2048x256 [1, 0] x transposes_S256x2048_S2048x256_1_0 (ix2 k j) = x (ix2 j k) :=
  transpose_ix2_apply x transposes_S256x2048_S2048x256_1_0 k j

/-- The transposed classifier weight at (j, l) is the weight at (l, j). -/
theorem transpose_cls_apply (x : FVec Ideal S2x256 .f32) (j : Fin 256) (l : Fin 2) :
    transpose S256x2 [1, 0] x transposes_S2x256_S256x2_1_0 (ix2 j l) = x (ix2 l j) :=
  transpose_ix2_apply x transposes_S2x256_S256x2_1_0 j l

/-! ## The stages, each a function of the previous stage's array -/

/-- The propagate stage: the rows plus half their product with the transposed masked synapse matrix. -/
def propagated (v9 : FVec Ideal S64x2048 .f32) (a2 a3 : FVec Ideal S2048x2048 .f32) : FVec Ideal S64x2048 .f32 :=
  addf (F := Ideal) v9
    (mulf (F := Ideal) (broadcastInDim S64x2048 ![] bcast_S_S64x2048 (constant (F := Ideal) S_ .f32 0x3F000000#32))
      (Host.dotGeneral (F := Ideal) dot_S64x2048_S2048x2048_S64x2048_1_0_0_1_n_n none v9
        (transpose S2048x2048 [1, 0] (mulf (F := Ideal) a2 a3) transposes_S2048x2048_S2048x2048_1_0)))

/-- The local stage: the product with the transposed local weight, rectified. -/
def stepped (x : FVec Ideal S64x2048 .f32) (a4 : FVec Ideal S2048x2048 .f32) : FVec Ideal S64x2048 .f32 :=
  maximumf (F := Ideal)
    (Host.dotGeneral (F := Ideal) dot_S64x2048_S2048x2048_S64x2048_1_0_0_1_n_n none x
      (transpose S2048x2048 [1, 0] a4 transposes_S2048x2048_S2048x2048_1_0))
    (broadcastInDim S64x2048 ![] bcast_S_S64x2048 (constant (F := Ideal) S_ .f32 0x00000000#32))

/-- The row means, as a column. -/
def means (y : FVec Ideal S64x2048 .f32) : FVec Ideal S64x1 .f32 :=
  Host.divf (F := Ideal)
    (broadcastInDim S64x1 ![0] bcast_S64_S64x1_0
      (Host.reduceAdd (F := Ideal) y (constant (F := Ideal) S_ .f32 0x00000000#32) reducesTo_S64x2048_S64_d1 h_S_))
    (broadcastInDim S64x1 ![] bcast_S_S64x1 (constant (F := Ideal) S_ .f32 0x45000000#32))

/-- The rows less their means. -/
def centredRows (y : FVec Ideal S64x2048 .f32) : FVec Ideal S64x2048 .f32 :=
  subf (F := Ideal) y (broadcastInDim S64x2048 ![0, 1] bcast_S64x1_S64x2048_0_1 (means y))

/-- The variance's divisor: the width word less the converted correction 0. -/
def divisor : FVec Ideal S_ .f32 :=
  subf (F := Ideal) (constant (F := Ideal) S_ .f32 0x45000000#32) (sitofp (F := Ideal) .f32 (constantI S_ 32 0#32))

/-- The row variances, as a column: the centred squares summed, divided by the divisor, selected against the
    not-a-number word on the divisor being positive. -/
def variances (y : FVec Ideal S64x2048 .f32) : FVec Ideal S64x1 .f32 :=
  select (broadcastInDim S64x1 ![] bcast_S_S64x1 (cmpf (F := Ideal) .ogt divisor (constant (F := Ideal) S_ .f32 0x00000000#32)))
    (Host.divf (F := Ideal)
      (broadcastInDim S64x1 ![0] bcast_S64_S64x1_0
        (Host.reduceAdd (F := Ideal) (mulf (F := Ideal) (centredRows y) (centredRows y))
          (constant (F := Ideal) S_ .f32 0x00000000#32) reducesTo_S64x2048_S64_d1 h_S_))
      (broadcastInDim S64x1 ![] bcast_S_S64x1 divisor))
    (broadcastInDim S64x1 ![] bcast_S_S64x1 (id (constant (F := Ideal) S_ .f32 0x7FC00000#32)))

/-- The layer norm. -/
def normedRows (y : FVec Ideal S64x2048 .f32) (a5 a6 : FVec Ideal S2048 .f32) : FVec Ideal S64x2048 .f32 :=
  addf (F := Ideal)
    (mulf (F := Ideal)
      (mulf (F := Ideal) (centredRows y)
        (broadcastInDim S64x2048 ![0, 1] bcast_S64x1_S64x2048_0_1
          (Host.rsqrt (F := Ideal)
            (addf (F := Ideal) (variances y)
              (broadcastInDim S64x1 ![] bcast_S_S64x1 (constant (F := Ideal) S_ .f32 0x3727C5AC#32))))))
      (broadcastInDim S64x2048 ![0, 1] bcast_S1x2048_S64x2048_0_1 (broadcastInDim S1x2048 ![1] bcast_S2048_S1x2048_1 a5)))
    (broadcastInDim S64x2048 ![0, 1] bcast_S1x2048_S64x2048_0_1 (broadcastInDim S1x2048 ![1] bcast_S2048_S1x2048_1 a6))

/-- The read-out. -/
def hiddenRows (n : FVec Ideal S64x2048 .f32) (a7 : FVec Ideal S256x2048 .f32) (a8 : FVec Ideal S256 .f32) :
    FVec Ideal S64x256 .f32 :=
  maximumf (F := Ideal)
    (addf (F := Ideal)
      (Host.dotGeneral (F := Ideal) dot_S64x2048_S2048x256_S64x256_1_0_0_1_n_n none n
        (transpose S2048x256 [1, 0] a7 transposes_S256x2048_S2048x256_1_0))
      (broadcastInDim S64x256 ![0, 1] bcast_S1x256_S64x256_0_1 (broadcastInDim S1x256 ![1] bcast_S256_S1x256_1 a8)))
    (broadcastInDim S64x256 ![] bcast_S_S64x256 (constant (F := Ideal) S_ .f32 0x00000000#32))

/-- The classifier. -/
def logitRows (h : FVec Ideal S64x256 .f32) (a9 : FVec Ideal S2x256 .f32) (a10 : FVec Ideal S2 .f32) : FVec Ideal S64x2 .f32 :=
  addf (F := Ideal)
    (Host.dotGeneral (F := Ideal) dot_S64x256_S256x2_S64x2_1_0_0_1_n_n none h
      (transpose S256x2 [1, 0] a9 transposes_S2x256_S256x2_1_0))
    (broadcastInDim S64x2 ![0, 1] bcast_S1x2_S64x2_0_1 (broadcastInDim S1x2 ![1] bcast_S2_S1x2_1 a10))

/-- The tail is the stages composed: every line of it is a line of one stage. -/
theorem tail_eq_stages (v9 : (⟨S64x2048, .f32⟩ : BufTy).Contents (Elt Ideal))
    (a2 a3 a4 : (⟨S2048x2048, .f32⟩ : BufTy).Contents (Elt Ideal)) (a5 a6 : (⟨S2048, .f32⟩ : BufTy).Contents (Elt Ideal))
    (a7 : (⟨S256x2048, .f32⟩ : BufTy).Contents (Elt Ideal)) (a8 : (⟨S256, .f32⟩ : BufTy).Contents (Elt Ideal))
    (a9 : (⟨S2x256, .f32⟩ : BufTy).Contents (Elt Ideal)) (a10 : (⟨S2, .f32⟩ : BufTy).Contents (Elt Ideal)) :
    RefTerm.tail (F := Ideal) v9 a2 a3 a4 a5 a6 a7 a8 a9 a10
      = logitRows (hiddenRows (normedRows (stepped (propagated v9 a2 a3) a4) a5 a6) a7 a8) a9 a10 := rfl

/-! ## Each stage is the specification's step -/

/-- The propagate stage at (p, q). -/
theorem propagated_apply (v9 : FVec Ideal S64x2048 .f32) (a2 a3 : FVec Ideal S2048x2048 .f32) (p : Fin 64) (q : Fin 2048) :
    propagated v9 a2 a3 (ix2 p q)
      = Cert.Spec.propagate (fun p k => v9 (ix2 p k)) (fun q k => a2 (ix2 q k)) (fun q k => a3 (ix2 q k)) p q := by
  unfold propagated Cert.Spec.propagate Cert.Spec.half
  rw [addf_apply, mulf_apply, bcast_scalar_apply, constant_apply, dot_wide_apply]
  refine congrArg (fun s => v9 (ix2 p q) + Ideal.ofBits .f32 0x3F000000#32 * s) (Finset.sum_congr rfl fun k _ => ?_)
  rw [transpose_sq_apply, mulf_apply]

/-- The local stage at (p, q). -/
theorem stepped_apply (x : FVec Ideal S64x2048 .f32) (a4 : FVec Ideal S2048x2048 .f32) (p : Fin 64) (q : Fin 2048) :
    stepped x a4 (ix2 p q) = Cert.Spec.localStep (fun p k => x (ix2 p k)) (fun q k => a4 (ix2 q k)) p q := by
  unfold stepped Cert.Spec.localStep
  rw [maximumf_apply, bcast_scalar_apply, constant_apply, Ideal.ofBits_zero_f32, dot_wide_apply]
  refine congrArg (fun s => max s 0) (Finset.sum_congr rfl fun k _ => ?_)
  rw [transpose_sq_apply]

/-- The host's quotient at an entry is the quotient of the entries. -/
theorem hostDivf_apply {s : Shape} {φ : FTy} (a b : FVec Ideal s φ) (i : s.Idx) :
    Host.divf (F := Ideal) a b i = Ideal.div (a i) (b i) := rfl

/-- The host's reciprocal square root at an entry is that of the entry. -/
theorem hostRsqrt_apply {s : Shape} {φ : FTy} (a : FVec Ideal s φ) (i : s.Idx) :
    Host.rsqrt (F := Ideal) a i = Ideal.rsqrt (a i) := rfl

/-- The mean column at (p, 0) is the row's mean. -/
theorem means_apply (y : FVec Ideal S64x2048 .f32) (p : Fin 64) :
    means y (ix2 p (0 : Fin 1)) = Cert.Spec.rowMean (fun p k => y (ix2 p k)) p := by
  unfold means Cert.Spec.rowMean Cert.Spec.width
  rw [hostDivf_apply, bcast_col_apply, rowSum_apply, bcast_scalar_apply, constant_apply]

/-- The centred rows at (p, q). -/
theorem centredRows_apply (y : FVec Ideal S64x2048 .f32) (p : Fin 64) (q : Fin 2048) :
    centredRows y (ix2 p q) = Cert.Spec.centred (fun p k => y (ix2 p k)) p q := by
  unfold centredRows Cert.Spec.centred
  rw [subf_apply, bcast_wide_apply, means_apply]

/-- The divisor is the width word: the converted 0 is 0, and subtracting 0 changes nothing. -/
theorem divisor_apply (j : S_.Idx) : divisor j = Ideal.ofBits .f32 0x45000000#32 := by
  unfold divisor
  rw [subf_apply, constant_apply]
  show Ideal.ofBits .f32 0x45000000#32 - (((0#32 : BitVec 32).toInt : ℝ) : EReal) = _
  rw [show (0#32 : BitVec 32).toInt = 0 from rfl, Int.cast_zero, EReal.coe_zero, sub_zero]

/-- The variance column at (p, 0) is the row's variance: the divisor is positive, so the selection keeps the
    quotient, and the divisor is the mean's. -/
theorem variances_apply (y : FVec Ideal S64x2048 .f32) (p : Fin 64) :
    variances y (ix2 p (0 : Fin 1)) = Cert.Spec.rowVar (fun p k => y (ix2 p k)) p := by
  unfold variances Cert.Spec.rowVar Cert.Spec.width
  rw [select_apply, bcast_scalar_apply, cmpf_apply, divisor_apply, constant_apply, Ideal.ofBits_zero_f32]
  have hc : FloatOps.cmpf (F := Ideal) (φ := .f32) .ogt (Ideal.ofBits .f32 0x45000000#32) 0 = 1#1 := by
    show BitVec.ofBool (decide ((0 : EReal) < Ideal.ofBits .f32 0x45000000#32)) = 1#1
    rw [decide_eq_true width_pos]; rfl
  rw [hc, select_one, hostDivf_apply, bcast_col_apply, rowSum_apply, bcast_scalar_apply, divisor_apply]
  refine congrArg (fun s => Ideal.div s (Ideal.ofBits .f32 0x45000000#32)) (Finset.sum_congr rfl fun k _ => ?_)
  rw [mulf_apply, centredRows_apply]

/-- The layer norm at (p, q). -/
theorem normedRows_apply (y : FVec Ideal S64x2048 .f32) (a5 a6 : FVec Ideal S2048 .f32) (p : Fin 64) (q : Fin 2048) :
    normedRows y a5 a6 (ix2 p q)
      = Cert.Spec.normed (fun p k => y (ix2 p k)) (fun q => a5 (ix1 q)) (fun q => a6 (ix1 q)) p q := by
  unfold normedRows Cert.Spec.normed Cert.Spec.eps
  rw [addf_apply, mulf_apply, mulf_apply, centredRows_apply, bcast_wide_apply, bcast_row_tall_apply, bcast_row_tall_apply]
  rw [hostRsqrt_apply, addf_apply, variances_apply, bcast_scalar_apply, constant_apply]

/-- The read-out at (p, j). -/
theorem hiddenRows_apply (n : FVec Ideal S64x2048 .f32) (a7 : FVec Ideal S256x2048 .f32) (a8 : FVec Ideal S256 .f32)
    (p : Fin 64) (j : Fin 256) :
    hiddenRows n a7 a8 (ix2 p j)
      = Cert.Spec.hidden (fun p k => n (ix2 p k)) (fun j k => a7 (ix2 j k)) (fun j => a8 (ix1 j)) p j := by
  unfold hiddenRows Cert.Spec.hidden
  rw [maximumf_apply, addf_apply, bcast_scalar_apply, constant_apply, Ideal.ofBits_zero_f32, bcast_row_tall_apply,
    dot_read_apply]
  refine congrArg (fun s => max (s + a8 (ix1 j)) 0) (Finset.sum_congr rfl fun k _ => ?_)
  rw [transpose_read_apply]

/-- The classifier at (p, l). -/
theorem logitRows_apply (h : FVec Ideal S64x256 .f32) (a9 : FVec Ideal S2x256 .f32) (a10 : FVec Ideal S2 .f32)
    (p : Fin 64) (l : Fin 2) :
    logitRows h a9 a10 (ix2 p l)
      = Cert.Spec.logits (fun p j => h (ix2 p j)) (fun l j => a9 (ix2 l j)) (fun l => a10 (ix1 l)) p l := by
  unfold logitRows Cert.Spec.logits
  rw [addf_apply, bcast_row_tall_apply, dot_cls_apply]
  refine congrArg (fun s => s + a10 (ix1 l)) (Finset.sum_congr rfl fun j _ => ?_)
  rw [transpose_cls_apply]

/-! ## The tail is the network -/

/-- The reference's tail at entry (p, l) is the specified network of the rectified rows and the nine weight arrays,
    each read by its coordinates: the stages composed are the specification's steps composed. -/
theorem tail_apply (v9 : (⟨S64x2048, .f32⟩ : BufTy).Contents (Elt Ideal))
    (a2 a3 a4 : (⟨S2048x2048, .f32⟩ : BufTy).Contents (Elt Ideal)) (a5 a6 : (⟨S2048, .f32⟩ : BufTy).Contents (Elt Ideal))
    (a7 : (⟨S256x2048, .f32⟩ : BufTy).Contents (Elt Ideal)) (a8 : (⟨S256, .f32⟩ : BufTy).Contents (Elt Ideal))
    (a9 : (⟨S2x256, .f32⟩ : BufTy).Contents (Elt Ideal)) (a10 : (⟨S2, .f32⟩ : BufTy).Contents (Elt Ideal))
    (p : Fin 64) (l : Fin 2) :
    RefTerm.tail (F := Ideal) v9 a2 a3 a4 a5 a6 a7 a8 a9 a10 (ix2 p l)
      = Cert.Spec.net (fun p k => v9 (ix2 p k)) (fun q k => a2 (ix2 q k)) (fun q k => a3 (ix2 q k))
          (fun q k => a4 (ix2 q k)) (fun q => a5 (ix1 q)) (fun q => a6 (ix1 q)) (fun j k => a7 (ix2 j k))
          (fun j => a8 (ix1 j)) (fun l j => a9 (ix2 l j)) (fun l => a10 (ix1 l)) p l := by
  have hx : (fun p k => propagated v9 a2 a3 (ix2 p k))
      = Cert.Spec.propagate (fun p k => v9 (ix2 p k)) (fun q k => a2 (ix2 q k)) (fun q k => a3 (ix2 q k)) :=
    funext fun p => funext fun q => propagated_apply v9 a2 a3 p q
  have hy : (fun p k => stepped (propagated v9 a2 a3) a4 (ix2 p k))
      = Cert.Spec.localStep (fun p k => propagated v9 a2 a3 (ix2 p k)) (fun q k => a4 (ix2 q k)) :=
    funext fun p => funext fun q => stepped_apply (propagated v9 a2 a3) a4 p q
  have hn : (fun p k => normedRows (stepped (propagated v9 a2 a3) a4) a5 a6 (ix2 p k))
      = Cert.Spec.normed (fun p k => stepped (propagated v9 a2 a3) a4 (ix2 p k)) (fun q => a5 (ix1 q)) (fun q => a6 (ix1 q)) :=
    funext fun p => funext fun q => normedRows_apply (stepped (propagated v9 a2 a3) a4) a5 a6 p q
  have hh : (fun p j => hiddenRows (normedRows (stepped (propagated v9 a2 a3) a4) a5 a6) a7 a8 (ix2 p j))
      = Cert.Spec.hidden (fun p k => normedRows (stepped (propagated v9 a2 a3) a4) a5 a6 (ix2 p k))
          (fun j k => a7 (ix2 j k)) (fun j => a8 (ix1 j)) :=
    funext fun p => funext fun j => hiddenRows_apply (normedRows (stepped (propagated v9 a2 a3) a4) a5 a6) a7 a8 p j
  rw [tail_eq_stages, logitRows_apply, hh, hn, hy, hx]
  rfl

end Cert.ReferenceIdeal.RefValue

end
-- ==== Proof.Bridge.lean ====
/-
  The two programs compute the rectified embedding rows by the same operations.

  Before its first region the kernel program runs, on the host, the slice of each sequence's last token, the wrap of a
  negative index, the gather of the embedding rows and their rectification: operation for operation what the reference
  runs first, over shape evidence and dimension records that are the reference's own under other names (the shapes are
  the same literals, the evidence propositions). So the buffer the kernel program's regions read the rows from holds
  the reference's term for them, of the launch contents of the first two arguments.
-/
import proofs.«129554_j18485539242697_1_alg».proof.Proof.Gen.KernelIdeal.Regions
import proofs.«129554_j18485539242697_1_alg».proof.Proof.Ref.Term
import Idealize.ShloMosaic.Lib.StableHlo.Run

noncomputable section

namespace Cert.Bridge

open Idealize.ShloMosaic Idealize.ShloMosaic.TcCoe Idealize.ShloMosaic.StableHlo
open Idealize.SL.Sem

variable {F : FTy → Type} [FloatOps F]

/-- After the kernel program's two host stretches, the rows' buffer holds the reference's rectified embedding rows of
    the token array and the embedding table at launch. -/
theorem acts_eq (m : (ℓ : Loc Cert.KernelIdeal.nD Cert.KernelIdeal.τ Cert.KernelIdeal.sig) → Buf (Elt F) ℓ)
    (c : Dev Cert.KernelIdeal.nD) :
    Cert.KernelIdeal.Gen.V2 m c Cert.KernelIdeal.main_v9
      = Cert.ReferenceIdeal.RefTerm.acts
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0_1
      (StableHlo.after Cert.KernelIdeal.Gen.hostOps0 (fun b => m (c, b)))
      (Proc.devRef .tc Cert.KernelIdeal.main_v9) = _
  simp only [Cert.KernelIdeal.Gen.hostOps0, Cert.KernelIdeal.Gen.hostOps0_1]
  after_results
  unfold Cert.ReferenceIdeal.RefTerm.acts
  rfl

end Cert.Bridge

end
-- ==== Proof.lean ====
/-
  The kernel (embedding rows → propagation through the masked synapse matrix → local layer → layer norm → read-out →
  classifier, as three pipelined regions over tiles of the 2048-wide axis) computes the same logits as the plain
  reference, at the exact reals extended by ±∞.

  Both programs form the rectified embedding rows a by the same host operations (`Bridge.acts_eq`).  From a the kernel's
  three regions leave, in turn, x = a + ½·a·(adj∘syn)ᵀ, y = max(x·Wᵀ, 0) and the logits of the read-out stage; each
  region's output array is the specification's step of the arrays it reads (KI/Val0, Val1, Val2), the tiles of the
  first two regions covering the output column by column, and the steps compose along the fold through @main
  (`kernel_value`).  The reference's operations, read at an entry, are the same steps (`tail_apply`): its matrix
  products are the same sums over the shared axis, its variance divides by 2048 − 0 under a test 2048 − 0 > 0 that
  holds, and a change of float format is the identity.  No algebraic law beyond that is used, so the precondition
  (finite inputs) is never opened.

  The frames: the kernel program runs its three regions from the contents the fold gives, each region's arrays split
  out of the core's buffers and put back (K/Frame at the word level, KI/Frame at the extended reals); the reference is
  straight-line host code (Ref/Run).  The idealization rewrote nothing, so `preserves` is trivial.
-/
import proofs.«129554_j18485539242697_1_alg».proof.Defs
import proofs.«129554_j18485539242697_1_alg».proof.Proof.Gen.Kernel
import proofs.«129554_j18485539242697_1_alg».proof.Proof.Gen.KernelIdeal
import proofs.«129554_j18485539242697_1_alg».proof.Proof.Gen.ReferenceIdeal
import proofs.«129554_j18485539242697_1_alg».proof.Proof.Gen.Pre_finite_inputs
import proofs.«129554_j18485539242697_1_alg».proof.Proof.K.Frame
import proofs.«129554_j18485539242697_1_alg».proof.Proof.KI.Run
import proofs.«129554_j18485539242697_1_alg».proof.Proof.KI.Value
import proofs.«129554_j18485539242697_1_alg».proof.Proof.Ref.Run
import proofs.«129554_j18485539242697_1_alg».proof.Proof.Ref.Value
import proofs.«129554_j18485539242697_1_alg».proof.Proof.Bridge
import Idealize.ShloMosaic.Adequacy
import Idealize.ShloMosaic.Init

noncomputable section

namespace Cert.Proof

open Idealize.ShloMosaic Idealize.ShloMosaic.ValueIdx Idealize.ShloMosaic.TcCoe Idealize.SL.Sem

/-- The word-level kernel program runs and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is straight-line host code: it runs, and no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _)⟩)
    (Cert.ReferenceIdeal.RefRun.run_main (F := Ideal) m ρ)

/-- The reference's result term of the kernel program's launch memory is the kernel program's result. -/
theorem result_eq (m : (ℓ : Loc Cert.KernelIdeal.nD Cert.KernelIdeal.τ Cert.KernelIdeal.sig) → Buf (Elt Ideal) ℓ) (c : Dev Cert.KernelIdeal.nD) :
    Cert.ReferenceIdeal.RefTerm.refOut (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
      = Cert.KernelIdeal.Hand.x16 (F := Ideal) m c := by
  funext j
  obtain ⟨p, l, rfl⟩ : ∃ (p : Fin 64) (l : Fin 2), j = ix2 p l := ⟨j 0, j 1, eq_ix2 j⟩
  rw [Cert.KernelIdeal.Hand.kernel_value m c p l, Cert.Bridge.acts_eq m c]
  unfold Cert.ReferenceIdeal.RefTerm.refOut
  rw [Cert.ReferenceIdeal.RefValue.tail_apply]

/-- From memories agreeing on the arguments both idealized programs run, keep their arguments, and end with the same
    result on every core: the kernel program's `x16`. -/
theorem algebraic : Cert.algebraic_KernelIdeal_ReferenceIdeal := by
  intro m ρ m' ρ' _ hagree
  refine ⟨fun c => Cert.KernelIdeal.Hand.x16 (F := Ideal) m c, Cert.KernelIdeal.Hand.run_value m ρ, ?_⟩
  refine (θ_run Cert.ReferenceIdeal.defs _ _).mono (fun r h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _)⟩)
    (Cert.ReferenceIdeal.RefRun.run_main (F := Ideal) m' ρ')
  refine (h c Cert.ReferenceIdeal.main_v47).trans ((Cert.ReferenceIdeal.RefRun.out_eq _).trans ?_)
  have e := hagree c
  show Cert.ReferenceIdeal.RefTerm.refOut (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) = _
  rw [e.1, e.2.1, e.2.2.1, e.2.2.2.1, e.2.2.2.2.1, e.2.2.2.2.2.1, e.2.2.2.2.2.2.1, e.2.2.2.2.2.2.2.1, e.2.2.2.2.2.2.2.2.1,
    e.2.2.2.2.2.2.2.2.2.1, e.2.2.2.2.2.2.2.2.2.2]
  exact result_eq m c

/-- Everything claimed: the three frames, the (empty) idealization ledger, and the equality of results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
